-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v65)) (v1 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_v75) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_v111) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1000000 : Shape := ⟨1, ![1000000]⟩
abbrev S64x64 : Shape := ⟨2, ![64, 64]⟩
abbrev S64 : Shape := ⟨1, ![64]⟩
abbrev S2x1000000 : Shape := ⟨2, ![2, 1000000]⟩
abbrev S100000 : Shape := ⟨1, ![100000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1000000 : S_.BroadcastsInDim S1000000 (![] : Fin 0 → Fin S1000000.rank)
  reducesTo_S1000000_S_d0 : S1000000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64x64 .f32) (main_arg5 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S100000x64 .f32) (main_arg1 : FVec F S1000000 .f32) (main_arg2 : FVec F S64x64 .f32) (main_arg3 : FVec F S64 .f32) (main_arg4 : FVec F S64x64 .f32) (main_arg5 : FVec F S64 .f32) (main_arg6 : IVec S2x1000000 32) (main_arg7 : IVec S100000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1000000 .f32 := Host.absf main_arg1
  let main_cst_0 : FVec F S_ .f32 := constant S_ .f32 0x7F800000#32
  let main_v5 : FVec F S1000000 .f32 := broadcastInDim S1000000 ![] bcast_S_S1000000 main_cst_0
  let main_v6 : IVec S1000000 1 := cmpf .olt main_v4 main_v5
  let main_c_1 : IVec S_ 1 := constantI S_ 1 1#1
  let main_v7 : IVec S_ 1 := (fun x v => Host.reduce IntOp.andi x v reducesTo_S1000000_S_d0 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_v13 main_v16
-- ==== Kernel.lean ====
abbrev S100000x64 : Shape := ⟨2, ![100000, 64]⟩
abbrev S1000000 : Shape := ⟨1, ![1000000]⟩
abbrev S64x64 : Shape := ⟨2, ![64, 64]⟩
abbrev S64 : Shape := ⟨1, ![64]⟩
abbrev S2x1000000 : Shape := ⟨2, ![2, 1000000]⟩
abbrev S100000 : Shape := ⟨1, ![100000]⟩
abbrev S1x1000000 : Shape := ⟨2, ![1, 1000000]⟩
abbrev S100000x1 : Shape := ⟨2, ![100000, 1]⟩
abbrev S1100000 : Shape := ⟨1, ![1100000]⟩
abbrev S_ : Shape := ⟨0, ![]⟩
abbrev S1100000x1 : Shape := ⟨2, ![1100000, 1]⟩
abbrev S5000x64 : Shape := ⟨2, ![5000, 64]⟩
abbrev S1100000x64 : Shape := ⟨2, ![1100000, 64]⟩
abbrev S1x64 : Shape := ⟨2, ![1, 64]⟩
abbrev S128x64 : Shape := ⟨2, ![128, 64]⟩
abbrev S5000x1 : Shape := ⟨2, ![5000, 1]⟩
abbrev S5000x128 : Shape := ⟨2, ![5000, 128]⟩
abbrev S128 : Shape := ⟨1, ![128]⟩
abbrev S128x1 : Shape := ⟨2, ![128, 1]⟩

abbrev nBuf : Space → Nat
  | .hbm => 104
  | .vmem => 22
  | .smem => 0
  | _ => 0

abbrev bufTy : (tb : Table) → Fin (tcTables nBuf tb) → BufTy
  | .hbm, ⟨0, _⟩ => ⟨S100000x64, .f32⟩
  | .hbm, ⟨1, _⟩ => ⟨S1000000, .f32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S2x1000000, .i32⟩
  | .hbm, ⟨7, _⟩ => ⟨S100000, .i32⟩
  | .hbm, ⟨8, _⟩ => ⟨S1x1000000, .i32⟩
  | .hbm, ⟨9, _⟩ => ⟨S1000000, .i32⟩
  | .hbm, ⟨10, _⟩ => ⟨S1x1000000, .i32⟩
  | .hbm, ⟨11, _⟩ => ⟨S1000000, .i32⟩
  | .hbm, ⟨12, _⟩ => ⟨S100000x1, .i32⟩
  | .hbm, ⟨13, _⟩ => ⟨S100000, .i32⟩
  | .hbm, ⟨14, _⟩ => ⟨S1100000, .i32⟩
  | .hbm, ⟨15, _⟩ => ⟨S1100000, .i32⟩
  | .hbm, ⟨16, _⟩ => ⟨S_, .f32⟩
  | .hbm, ⟨17, _⟩ => ⟨S100000, .f32⟩
  | .hbm, ⟨18, _⟩ => ⟨S1100000, .f32⟩
  | .hbm, ⟨19, _⟩ => ⟨S_, .f32⟩
  | .hbm, ⟨20, _⟩ => ⟨S100000, .f32⟩
  | .hbm, ⟨21, _⟩ => ⟨S1100000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .i32⟩
  | .hbm, ⟨35, _⟩ => ⟨S1100000, .i32⟩
  | .hbm, ⟨36, _⟩ => ⟨S1100000, .i1⟩
  | .hbm, ⟨37, _⟩ => ⟨S_, .i32⟩
  | .hbm, ⟨38, _⟩ => ⟨S1100000, .i32⟩
  | .hbm, ⟨39, _⟩ => ⟨S1100000, .i32⟩
  | .hbm, ⟨40, _⟩ => ⟨S1100000, .i32⟩
  | .hbm, ⟨41, _⟩ => ⟨S1100000x1, .i32⟩
  | .hbm, ⟨42, _⟩ => ⟨S1100000, .f32⟩
  | .hbm, ⟨43, _⟩ => ⟨S1100000, .f32⟩
  | .hbm, ⟨44, _⟩ => ⟨S_, .i32⟩
  | .hbm, ⟨45, _⟩ => ⟨S1100000, .i32⟩
  | .hbm, ⟨46, _⟩ => ⟨S1100000, .i1⟩
  | .hbm, ⟨47, _⟩ => ⟨S_, .i32⟩
  | .hbm, ⟨48, _⟩ => ⟨S1100000, .i32⟩
  | .hbm, ⟨49, _⟩ => ⟨S1100000, .i32⟩
  | .hbm, ⟨50, _⟩ => ⟨S1100000, .i32⟩
  | .hbm, ⟨51, _⟩ => ⟨S1100000x1, .i32⟩
  | .hbm, ⟨52, _⟩ => ⟨S1100000, .f32⟩
  | .hbm, ⟨53, _⟩ => ⟨S1100000, .f32⟩
  | .hbm, ⟨54, _⟩ => ⟨S100000x64, .f32⟩
  | .hbm, ⟨55, _⟩ => ⟨S_, .i32⟩
  | .hbm, ⟨56, _⟩ => ⟨S1100000, .i32⟩
  | .hbm, ⟨57, _⟩ => ⟨S1100000, .i1⟩
  | .hbm, ⟨58, _⟩ => ⟨S_, .i32⟩
  | .hbm, ⟨59, _⟩ => ⟨S1100000, .i32⟩
  | .hbm, ⟨60, _⟩ => ⟨S1100000, .i32⟩
  | .hbm, ⟨61, _⟩ => ⟨S1100000, .i32⟩
  | .hbm, ⟨62, _⟩ => ⟨S1100000x1, .i32⟩
  | .hbm, ⟨63, _⟩ => ⟨S1100000x64, .f32⟩
  | .hbm, ⟨64, _⟩ => ⟨S1100000x1, .f32⟩
  | .hbm, ⟨65, _⟩ => ⟨S1100000x64, .f32⟩
  | .hbm, ⟨66, _⟩ => ⟨S1100000x64, .f32⟩
  | .hbm, ⟨67, _⟩ => ⟨S_, .f32⟩
  | .hbm, ⟨68, _⟩ => ⟨S100000x64, .f32⟩
  | .hbm, ⟨69, _⟩ => ⟨S1100000x1, .i32⟩
  | .hbm, ⟨70, _⟩ => ⟨S100000x64, .f32⟩
  | .hbm, ⟨71, _⟩ => ⟨S1x64, .f32⟩
  | .hbm, ⟨72, _⟩ => ⟨S100000x64, .f32⟩
  | .hbm, ⟨73, _⟩ => ⟨S_, .i32⟩
  | .hbm, ⟨74, _⟩ => ⟨S1100000, .i32⟩
  | .hbm, ⟨75, _⟩ => ⟨S1100000, .i1⟩
  | .hbm, ⟨76, _⟩ => ⟨S_, .i32⟩
  | .hbm, ⟨77, _⟩ => ⟨S1100000, .i32⟩
  | .hbm, ⟨78, _⟩ => ⟨S1100000, .i32⟩
  | .hbm, ⟨79, _⟩ => ⟨S1100000, .i32⟩
  | .hbm, ⟨80, _⟩ => ⟨S1100000x1, .i32⟩
  | .hbm, ⟨81, _⟩ => ⟨S1100000x64, .f32⟩
  | .hbm, ⟨82, _⟩ => ⟨S1100000x1, .f32⟩
  | .hbm, ⟨83, _⟩ => ⟨S1100000x64, .f32⟩
  | .hbm, ⟨84, _⟩ => ⟨S1100000x64, .f32⟩
  | .hbm, ⟨85, _⟩ => ⟨S_, .f32⟩
  | .hbm, ⟨86, _⟩ => ⟨S100000x64, .f32⟩
  | .hbm, ⟨87, _⟩ => ⟨S1100000x1, .i32⟩
  | .hbm, ⟨88, _⟩ => ⟨S100000x64, .f32⟩
  | .hbm, ⟨89, _⟩ => ⟨S1x64, .f32⟩
  | .hbm, ⟨90, _⟩ => ⟨S100000x64, .f32⟩
  | .hbm, ⟨91, _⟩ => ⟨S128x64, .f32⟩
  | .hbm, ⟨92, _⟩ => ⟨S_, .f32⟩
  | .hbm, ⟨93, _⟩ => ⟨S100000, .f32⟩
  | .hbm, ⟨94, _⟩ => ⟨S_, .f32⟩
  | .hbm, ⟨95, _⟩ => ⟨S128, .f32⟩
  | .hbm, ⟨96, _⟩ => ⟨S100000x1, .i32⟩
  | .hbm, ⟨97, _⟩ => ⟨S128, .f32⟩
  | .hbm, ⟨98, _⟩ => ⟨S_, .f32⟩
  | .hbm, ⟨99, _⟩ => ⟨S128, .f32⟩
  | .hbm, ⟨100, _⟩ => ⟨S128, .f32⟩
  | .hbm, ⟨101, _⟩ => ⟨S128x1, .f32⟩
  | .hbm, ⟨102, _⟩ => ⟨S128x64, .f32⟩
  | .hbm, ⟨103, _⟩ => ⟨S128x64, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S64x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S1x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x1, .i32⟩
  | .local _ .vmem, ⟨19, _⟩ => ⟨S5000x1, .i32⟩
  | .local _ .vmem, ⟨20, _⟩ => ⟨S128x64, .f32⟩
  | .local _ .vmem, ⟨21, _⟩ => ⟨S128x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v18 : Ref sig .tc := ⟨.hbm, 33, rfl⟩
abbrev main_c : Ref sig .tc := ⟨.hbm, 34, rfl⟩
abbrev main_v19 : Ref sig .tc := ⟨.hbm, 35, rfl⟩
abbrev main_v20 : Ref sig .tc := ⟨.hbm, 36, rfl⟩
abbrev main_c_4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_c_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_7 : Ref sig .tc := ⟨.hbm, 55, rfl⟩
abbrev main_v36 : Ref sig .tc := ⟨.hbm, 56, rfl⟩
abbrev main_v37 : Ref sig .tc := ⟨.hbm, 57, rfl⟩
abbrev main_c_8 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_13 : Ref sig .tc := ⟨.hbm, 92, rfl⟩
abbrev main_v67 : Ref sig .tc := ⟨.hbm, 93, rfl⟩
abbrev main_cst_14 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_15 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg1_1 : Ref sig .tc := ⟨.vmem, 19, rfl⟩
abbrev cc3_stg2_0 : Ref sig .tc := ⟨.vmem, 20, rfl⟩
abbrev cc3_scratch0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem1_1 : DmaSem sig := 19
abbrev cc3_sem2_0 : DmaSem sig := 20

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def k3_cond2 (i : grid3.Coords) : BitVec 1 :=
  let arg0 : BitVec 32 := BitVec.ofNat 32 (i 0).val
  let c19_i32 : BitVec 32 := 19#32
  let v21 : BitVec 1 := Scalar.cmpi .eq arg0 c19_i32
  let v22 : BitVec 32 := Scalar.extui v21
  let c0_i32_8 : BitVec 32 := 0#32
  let v23 : BitVec 1 := Scalar.cmpi .ne v22 c0_i32_8
  v23

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  shapeCasts_S100000_S100000x1 : S100000.ShapeCasts S100000x1
  concatenates_S1000000_S100000_S1100000_d0 : Shape.Concatenates [S1000000, S100000] S1100000 0
  bcast_S_S100000 : S_.BroadcastsInDim S100000 (![] : Fin 0 → Fin S100000.rank)
  bcast_S1100000_S1100000x1_0 : S1100000.BroadcastsInDim S1100000x1 (![0] : Fin 1 → Fin S1100000x1.rank)
  bcast_S_S1100000 : S_.BroadcastsInDim S1100000 (![] : Fin 0 → Fin S1100000.rank)
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1100000x1_S1100000x64_0_1 : S1100000x1.BroadcastsInDim S1100000x64 (![0, 1] : Fin 2 → Fin S1100000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  iota_S5000x128_d1_w32 : S5000x128.Iotas .tc 32 [1]
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  natLt_1_32 : 1 < 32
  bcast_S_S128 : S_.BroadcastsInDim S128 (![] : Fin 0 → Fin S128.rank)
  bcast_S100000_S100000x1_0 : S100000.BroadcastsInDim S100000x1 (![0] : Fin 1 → Fin S100000x1.rank)
  bcast_S128_S128x1_0 : S128.BroadcastsInDim S128x1 (![0] : Fin 1 → Fin S128x1.rank)
  bcast_S128x1_S128x64_0_1 : S128x1.BroadcastsInDim S128x64 (![0, 1] : Fin 2 → Fin S128x64.rank)
  scatter_S100000_S1100000x1_S1100000_n_0_0_1_wf : ScatterDims.WF S100000 S1100000x1 S1100000 [] [0] [0] 1
  gather_S100000_S1100000x1_S1100000_n_0_n_n_0_1_1_wf : GatherDims.WF S100000 S1100000x1 S1100000 [] [0] [] [0] [] 1 ![1]
  dot_S5000x64_S64x64_S5000x64_1_0_0_1_n_n_wf : DotDims.WF S5000x64 S64x64 S5000x64 [1] [0] [0] [1] [] []
  gather_S100000x64_S1100000x1_S1100000x64_1_0_n_n_0_1_164_wf : GatherDims.WF S100000x64 S1100000x1 S1100000x64 [1] [0] [] [0] [] 1 ![1, 64]
  scatter_S100000x64_S1100000x1_S1100000x64_1_0_0_1_wf : ScatterDims.WF S100000x64 S1100000x1 S1100000x64 [1] [0] [0] 1
  dot_S5000x128_S5000x64_S128x64_0_0_1_1_n_n_wf : DotDims.WF S5000x128 S5000x64 S128x64 [0] [0] [1] [1] [] []
  scatter_S128_S100000x1_S100000_n_0_0_1_wf : ScatterDims.WF S128 S100000x1 S100000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .i32 = 32 ∨ (Rect.block (s := S100000x1) S5000x1.size (cc3_transform_1 i) (hinb3_1 i)).WholeWords (EltTy.packing .i32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x64.size a ≤ S128x64.size a
  hwx3_2 : ∀ i : grid3.Coords, EltTy.bits .f32 = 32 ∨ (Rect.block (s := S128x64) S128x64.size (cc3_transform_2 i) (hinb3_2 i)).WholeWords (EltTy.packing .f32)

variable [Facts₀]

def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1100000x1_S1100000x64_1_0_n_n_0_1_164 : GatherDims S100000x64 S1100000x1 S1100000x64 where
  offsetDims := [1]
  collapsedSliceDims := [0]
  operandBatchingDims := []
  startIndicesBatchingDims := []
  startIndexMap := [0]
  indexVectorDim := 1
  sliceSizes := ![1, 64]
  wf := gather_S100000x64_S1100000x1_S1100000x64_1_0_n_n_0_1_164_wf
def scatter_S100000x64_S1100000x1_S1100000x64_1_0_0_1 : ScatterDims S100000x64 S1100000x1 S1100000x64 where
  updateWindowDims := [1]
  insertedWindowDims := [0]
  scatterDimsToOperandDims := [0]
  indexVectorDim := 1
  wf := scatter_S100000x64_S1100000x1_S1100000x64_1_0_0_1_wf
def dot_S5000x128_S5000x64_S128x64_0_0_1_1_n_n : DotDims S5000x128 S5000x64 S128x64 where
  lhsContracting := [0]
  rhsContracting := [0]
  lhsNonContracting := [1]
  rhsNonContracting := [1]
  lhsBatch := []
  rhsBatch := []
  wf := dot_S5000x128_S5000x64_S128x64_0_0_1_1_n_n_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v49) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v50) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v63) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v64) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v65) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v65) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v4) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v66) S128x64.size cc3_transform_2 reads3_2 true true 1 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun _ => false | 2 => fun i => !(k3_cond2 i == 1#1) | ⟨_ + 3, h⟩ => absurd h (Nat.not_lt.2 (Nat.le_add_left _ _))

class Facts : Prop extends Facts₀ where

variable [Facts]
-- ==== ReferenceIdeal.lean ====
abbrev S100000x64 : Shape := ⟨2, ![100000, 64]⟩
abbrev S1000000 : Shape := ⟨1, ![1000000]⟩
abbrev S64x64 : Shape := ⟨2, ![64, 64]⟩
abbrev S64 : Shape := ⟨1, ![64]⟩
abbrev S2x1000000 : Shape := ⟨2, ![2, 1000000]⟩
abbrev S100000 : Shape := ⟨1, ![100000]⟩
abbrev S1x1000000 : Shape := ⟨2, ![1, 1000000]⟩
abbrev S1100000 : Shape := ⟨1, ![1100000]⟩
abbrev S_ : Shape := ⟨0, ![]⟩
abbrev S1100000x1 : Shape := ⟨2, ![1100000, 1]⟩
abbrev S1100000x64 : Shape := ⟨2, ![1100000, 64]⟩
abbrev S1x64 : Shape := ⟨2, ![1, 64]⟩
abbrev S128 : Shape := ⟨1, ![128]⟩
abbrev S100000x1 : Shape := ⟨2, ![100000, 1]⟩
abbrev S128x64 : Shape := ⟨2, ![128, 64]⟩
abbrev S128x1 : Shape := ⟨2, ![128, 1]⟩

abbrev nBuf : Space → Nat
  | .hbm => 156
  | .vmem => 0
  | .smem => 0
  | _ => 0

abbrev hbmTy0_0 (i : Nat) : BufTy := match i % 128 with
  | 0 => ⟨S100000x64, .f32⟩
  | 1 => ⟨S1000000, .f32⟩
  | 2 => ⟨S64x64, .f32⟩
  | 3 => ⟨S64, .f32⟩
  | 4 => ⟨S64x64, .f32⟩
  | 5 => ⟨S64, .f32⟩
  | 6 => ⟨S2x1000000, .i32⟩
  | 7 => ⟨S100000, .i32⟩
  | 8 => ⟨S1x1000000, .i32⟩
  | 9 => ⟨S1000000, .i32⟩
  | 10 => ⟨S1x1000000, .i32⟩
  | 11 => ⟨S1000000, .i32⟩
  | 12 => ⟨S100000x64, .f32⟩
  | 13 => ⟨S100000, .i32⟩
  | 14 => ⟨S1100000, .i32⟩
  | 15 => ⟨S1100000, .i32⟩
  | 16 => ⟨S_, .f32⟩
  | 17 => ⟨S100000, .f32⟩
  | 18 => ⟨S1100000, .f32⟩
  | 19 => ⟨S_, .f32⟩
  | 20 => ⟨S100000, .f32⟩
  | 21 => ⟨S1100000x1, .i32⟩
  | 22 => ⟨S100000, .f32⟩
  | 23 => ⟨S_, .f32⟩
  | 24 => ⟨S100000, .f32⟩
  | 25 => ⟨S100000, .i1⟩
  | 26 => ⟨S_, .f32⟩
  | 27 => ⟨S100000, .f32⟩
  | 28 => ⟨S100000, .f32⟩
  | 29 => ⟨S100000, .f32⟩
  | 30 => ⟨S_, .f32⟩
  | 31 => ⟨S_, .f32⟩
  | 32 => ⟨S100000, .f32⟩
  | 33 => ⟨S100000, .f32⟩
  | 34 => ⟨S_, .i32⟩
  | 35 => ⟨S1100000, .i32⟩
  | 36 => ⟨S1100000, .i1⟩
  | 37 => ⟨S_, .i32⟩
  | 38 => ⟨S1100000, .i32⟩
  | 39 => ⟨S1100000, .i32⟩
  | 40 => ⟨S1100000, .i32⟩
  | 41 => ⟨S1100000x1, .i32⟩
  | 42 => ⟨S1100000, .f32⟩
  | 43 => ⟨S1100000, .f32⟩
  | 44 => ⟨S_, .i32⟩
  | 45 => ⟨S1100000, .i32⟩
  | 46 => ⟨S1100000, .i1⟩
  | 47 => ⟨S_, .i32⟩
  | 48 => ⟨S1100000, .i32⟩
  | 49 => ⟨S1100000, .i32⟩
  | 50 => ⟨S1100000, .i32⟩
  | 51 => ⟨S1100000x1, .i32⟩
  | 52 => ⟨S1100000, .f32⟩
  | 53 => ⟨S1100000, .f32⟩
  | 54 => ⟨S_, .i32⟩
  | 55 => ⟨S1100000, .i32⟩
  | 56 => ⟨S1100000, .i1⟩
  | 57 => ⟨S_, .i32⟩
  | 58 => ⟨S1100000, .i32⟩
  | 59 => ⟨S1100000, .i32⟩
  | 60 => ⟨S1100000, .i32⟩
  | 61 => ⟨S1100000x1, .i32⟩
  | 62 => ⟨S1100000x64, .f32⟩
  | 63 => ⟨S1100000x1, .f32⟩
  | 64 => ⟨S1100000x64, .f32⟩
  | 65 => ⟨S1100000x64, .f32⟩
  | 66 => ⟨S_, .f32⟩
  | 67 => ⟨S100000x64, .f32⟩
  | 68 => ⟨S1100000x1, .i32⟩
  | 69 => ⟨S100000x64, .f32⟩
  | 70 => ⟨S1x64, .f32⟩
  | 71 => ⟨S100000x64, .f32⟩
  | 72 => ⟨S100000x64, .f32⟩
  | 73 => ⟨S_, .f32⟩
  | 74 => ⟨S100000x64, .f32⟩
  | 75 => ⟨S100000x64, .f32⟩
  | 76 => ⟨S100000x64, .f32⟩
  | 77 => ⟨S100000, .i32⟩
  | 78 => ⟨S1100000, .i32⟩
  | 79 => ⟨S1100000, .i32⟩
  | 80 => ⟨S_, .f32⟩
  | 81 => ⟨S100000, .f32⟩
  | 82 => ⟨S1100000, .f32⟩
  | 83 => ⟨S_, .f32⟩
  | 84 => ⟨S100000, .f32⟩
  | 85 => ⟨S1100000x1, .i32⟩
  | 86 => ⟨S100000, .f32⟩
  | 87 => ⟨S_, .f32⟩
  | 88 => ⟨S100000, .f32⟩
  | 89 => ⟨S100000, .i1⟩
  | 90 => ⟨S_, .f32⟩
  | 91 => ⟨S100000, .f32⟩
  | 92 => ⟨S100000, .f32⟩
  | 93 => ⟨S100000, .f32⟩
  | 94 => ⟨S_, .f32⟩
  | 95 => ⟨S_, .f32⟩
  | 96 => ⟨S100000, .f32⟩
  | 97 => ⟨S100000, .f32⟩
  | 98 => ⟨S_, .i32⟩
  | 99 => ⟨S1100000, .i32⟩
  | 100 => ⟨S1100000, .i1⟩
  | 101 => ⟨S_, .i32⟩
  | 102 => ⟨S1100000, .i32⟩
  | 103 => ⟨S1100000, .i32⟩
  | 104 => ⟨S1100000, .i32⟩
  | 105 => ⟨S1100000x1, .i32⟩
  | 106 => ⟨S1100000, .f32⟩
  | 107 => ⟨S1100000, .f32⟩
  | 108 => ⟨S_, .i32⟩
  | 109 => ⟨S1100000, .i32⟩
  | 110 => ⟨S1100000, .i1⟩
  | 111 => ⟨S_, .i32⟩
  | 112 => ⟨S1100000, .i32⟩
  | 113 => ⟨S1100000, .i32⟩
  | 114 => ⟨S1100000, .i32⟩
  | 115 => ⟨S1100000x1, .i32⟩
  | 116 => ⟨S1100000, .f32⟩
  | 117 => ⟨S1100000, .f32⟩
  | 118 => ⟨S_, .i32⟩
  | 119 => ⟨S1100000, .i32⟩
  | 120 => ⟨S1100000, .i1⟩
  | 121 => ⟨S_, .i32⟩
  | 122 => ⟨S1100000, .i32⟩
  | 123 => ⟨S1100000, .i32⟩
  | 124 => ⟨S1100000, .i32⟩
  | 125 => ⟨S1100000x1, .i32⟩
  | 126 => ⟨S1100000x64, .f32⟩
  | 127 => ⟨S1100000x1, .f32⟩
  | _ => ⟨S100000x64, .f32⟩

abbrev hbmTy0_1 (i : Nat) : BufTy := match i % 128 with
  | 0 => ⟨S1100000x64, .f32⟩
  | 1 => ⟨S1100000x64, .f32⟩
  | 2 => ⟨S_, .f32⟩
  | 3 => ⟨S100000x64, .f32⟩
  | 4 => ⟨S1100000x1, .i32⟩
  | 5 => ⟨S100000x64, .f32⟩
  | 6 => ⟨S1x64, .f32⟩
  | 7 => ⟨S100000x64, .f32⟩
  | 8 => ⟨S100000x64, .f32⟩
  | 9 => ⟨S_, .f32⟩
  | 10 => ⟨S100000x64, .f32⟩
  | 11 => ⟨S100000x64, .f32⟩
  | 12 => ⟨S_, .f32⟩
  | 13 => ⟨S100000, .f32⟩
  | 14 => ⟨S_, .f32⟩
  | 15 => ⟨S128, .f32⟩
  | 16 => ⟨S100000x1, .i32⟩
  | 17 => ⟨S128, .f32⟩
  | 18 => ⟨S_, .f32⟩
  | 19 => ⟨S128x64, .f32⟩
  | 20 => ⟨S100000x1, .i32⟩
  | 21 => ⟨S128x64, .f32⟩
  | 22 => ⟨S_, .f32⟩
  | 23 => ⟨S128, .f32⟩
  | 24 => ⟨S128, .f32⟩
  | 25 => ⟨S128x1, .f32⟩
  | 26 => ⟨S128x64, .f32⟩
  | 27 => ⟨S128x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v18 : Ref sig .tc := ⟨.hbm, 33, rfl⟩
abbrev main_c : Ref sig .tc := ⟨.hbm, 34, rfl⟩
abbrev main_v19 : Ref sig .tc := ⟨.hbm, 35, rfl⟩
abbrev main_v20 : Ref sig .tc := ⟨.hbm, 36, rfl⟩
abbrev main_c_4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_c_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c_7 : Ref sig .tc := ⟨.hbm, 54, rfl⟩
abbrev main_v35 : Ref sig .tc := ⟨.hbm, 55, rfl⟩
abbrev main_v36 : Ref sig .tc := ⟨.hbm, 56, rfl⟩
abbrev main_c_8 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_9 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_call1_cst : Ref sig .tc := ⟨.hbm, 73, rfl⟩
abbrev main_call1_v0 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_10 : Ref sig .tc := ⟨.hbm, 80, rfl⟩
abbrev main_v56 : Ref sig .tc := ⟨.hbm, 81, rfl⟩
abbrev main_v57 : Ref sig .tc := ⟨.hbm, 82, rfl⟩
abbrev main_cst_11 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_12 : Ref sig .tc := ⟨.hbm, 87, rfl⟩
abbrev main_v61 : Ref sig .tc := ⟨.hbm, 88, rfl⟩
abbrev main_v62 : Ref sig .tc := ⟨.hbm, 89, rfl⟩
abbrev main_cst_13 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_14 : Ref sig .tc := ⟨.hbm, 94, rfl⟩
abbrev main_call2_v0 : Ref sig .tc := ⟨.hbm, 95, rfl⟩
abbrev main_call2_v1 : Ref sig .tc := ⟨.hbm, 96, rfl⟩
abbrev main_v66 : Ref sig .tc := ⟨.hbm, 97, rfl⟩
abbrev main_c_15 : Ref sig .tc := ⟨.hbm, 98, rfl⟩
abbrev main_v67 : Ref sig .tc := ⟨.hbm, 99, rfl⟩
abbrev main_v68 : Ref sig .tc := ⟨.hbm, 100, rfl⟩
abbrev main_c_16 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_c_17 : Ref sig .tc := ⟨.hbm, 108, rfl⟩
abbrev main_v75 : Ref sig .tc := ⟨.hbm, 109, rfl⟩
abbrev main_v76 : Ref sig .tc := ⟨.hbm, 110, rfl⟩
abbrev main_c_18 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_c_19 : Ref sig .tc := ⟨.hbm, 118, rfl⟩
abbrev main_v83 : Ref sig .tc := ⟨.hbm, 119, rfl⟩
abbrev main_v84 : Ref sig .tc := ⟨.hbm, 120, rfl⟩
abbrev main_c_20 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_cst_21 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_call3_cst : Ref sig .tc := ⟨.hbm, 137, rfl⟩
abbrev main_call3_v0 : Ref sig .tc := ⟨.hbm, 138, rfl⟩
abbrev main_v99 : Ref sig .tc := ⟨.hbm, 139, rfl⟩
abbrev main_cst_22 : Ref sig .tc := ⟨.hbm, 140, rfl⟩
abbrev main_v100 : Ref sig .tc := ⟨.hbm, 141, rfl⟩
abbrev main_cst_23 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_cst_24 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_cst_25 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  concatenates_S1000000_S100000_S1100000_d0 : Shape.Concatenates [S1000000, S100000] S1100000 0
  bcast_S_S100000 : S_.BroadcastsInDim S100000 (![] : Fin 0 → Fin S100000.rank)
  bcast_S1100000_S1100000x1_0 : S1100000.BroadcastsInDim S1100000x1 (![0] : Fin 1 → Fin S1100000x1.rank)
  bcast_S_S1100000 : S_.BroadcastsInDim S1100000 (![] : Fin 0 → Fin S1100000.rank)
  bcast_S1100000x1_S1100000x64_0_1 : S1100000x1.BroadcastsInDim S1100000x64 (![0, 1] : Fin 2 → Fin S1100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S128 : S_.BroadcastsInDim S128 (![] : Fin 0 → Fin S128.rank)
  bcast_S100000_S100000x1_0 : S100000.BroadcastsInDim S100000x1 (![0] : Fin 1 → Fin S100000x1.rank)
  bcast_S_S128x64 : S_.BroadcastsInDim S128x64 (![] : Fin 0 → Fin S128x64.rank)
  bcast_S128_S128x1_0 : S128.BroadcastsInDim S128x1 (![0] : Fin 1 → Fin S128x1.rank)
  bcast_S128x1_S128x64_0_1 : S128x1.BroadcastsInDim S128x64 (![0, 1] : Fin 2 → Fin S128x64.rank)
  dot_S100000x64_S64x64_S100000x64_1_0_0_1_n_n_wf : DotDims.WF S100000x64 S64x64 S100000x64 [1] [0] [0] [1] [] []
  scatter_S100000_S1100000x1_S1100000_n_0_0_1_wf : ScatterDims.WF S100000 S1100000x1 S1100000 [] [0] [0] 1
  gather_S100000_S1100000x1_S1100000_n_0_n_n_0_1_1_wf : GatherDims.WF S100000 S1100000x1 S1100000 [] [0] [] [0] [] 1 ![1]
  gather_S100000x64_S1100000x1_S1100000x64_1_0_n_n_0_1_164_wf : GatherDims.WF S100000x64 S1100000x1 S1100000x64 [1] [0] [] [0] [] 1 ![1, 64]
  scatter_S100000x64_S1100000x1_S1100000x64_1_0_0_1_wf : ScatterDims.WF S100000x64 S1100000x1 S1100000x64 [1] [0] [0] 1
  scatter_S128_S100000x1_S100000_n_0_0_1_wf : ScatterDims.WF S128 S100000x1 S100000 [] [0] [0] 1
  scatter_S128x64_S100000x1_S100000x64_1_0_0_1_wf : ScatterDims.WF S128x64 S100000x1 S100000x64 [1] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def gather_S100000x64_S1100000x1_S1100000x64_1_0_n_n_0_1_164 : GatherDims S100000x64 S1100000x1 S1100000x64 where
  offsetDims := [1]
  collapsedSliceDims := [0]
  operandBatchingDims := []
  startIndicesBatchingDims := []
  startIndexMap := [0]
  indexVectorDim := 1
  sliceSizes := ![1, 64]
  wf := gather_S100000x64_S1100000x1_S1100000x64_1_0_n_n_0_1_164_wf
def scatter_S100000x64_S1100000x1_S1100000x64_1_0_0_1 : ScatterDims S100000x64 S1100000x1 S1100000x64 where
  updateWindowDims := [1]
  insertedWindowDims := [0]
  scatterDimsToOperandDims := [0]
  indexVectorDim := 1
  wf := scatter_S100000x64_S1100000x1_S1100000x64_1_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def scatter_S128x64_S100000x1_S100000x64_1_0_0_1 : ScatterDims S128x64 S100000x1 S100000x64 where
  updateWindowDims := [1]
  insertedWindowDims := [0]
  scatterDimsToOperandDims := [0]
  indexVectorDim := 1
  wf := scatter_S128x64_S100000x1_S100000x64_1_0_0_1_wf

class Facts : Prop extends Facts₀ where

variable [Facts]
-- ==== Proof.K.Reg0.lean ====
import proofs.«427723_j89670327206505_1_alg».proof.Proof.Gen.Kernel.Launch
import proofs.«427723_j89670327206505_1_alg».proof.Proof.Gen.Kernel.Skeleton
import proofs.«427723_j89670327206505_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The first launch: a block of rows times the weight matrix

At a grid point the body reads a block of 5000 rows of the node features and the whole 64 × 64 weight matrix, and
stores their matrix product into the output block. Stated at a parameter `V`, the contents of the buffers when the
launch is entered: what each staging buffer holds after the body, the body's triple, and the proof data of the
pipeline (the arrays as found, each input block left in place, the output block at the product).
-/

set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows' staging buffer holds the point's block of rows, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The weights' staging buffer holds the whole matrix at every point: it is fetched once and its index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole 5000 × 64 block and the whole 64 × 64 matrix, as rectangles. -/
abbrev rRows0 : Rect S5000x64 := Rect.unit (s := S5000x64) ![0, 0] S5000x64.size inb_S5000x64_S5000x64_0_0
abbrev rMat0 : Rect S64x64 := Rect.unit (s := S64x64) ![0, 0] S64x64.size inb_S64x64_S64x64_0_0

/-- The output block after the body: its one store, the product of the block of rows and the matrix. -/
def out0_2 (x0 : Vec F S5000x64 .f32) (x1 : Vec F S64x64 .f32) : Vec F S5000x64 .f32 :=
  View.canon [⟨rRows0, k0_pay1 (View.ld x0 rRows0) (View.ld x1 rMat0)⟩]

/-- The one store covers the output block. -/
theorem cover0_2 (p0 : Vec F S5000x64 .f32) (y : S5000x64.Idx) :
    ∃ pc ∈ ([⟨rRows0, p0⟩] : List (View.Piece (Elt F) S5000x64 .f32)), y ∈ pc.1.set :=
  View.cover_of_tiled [⟨rRows0, p0⟩] S5000x64.size (by rfl) y

set_option maxHeartbeats 1000000 in
/-- The body on whole staging buffers, the inputs at `x0`, `x1` and the output at anything, runs to the end with the
    inputs as they were and the output at `out0_2 x0 x1`. -/
theorem sound_kernel0 (c : Dev nD) (E : Set ℕ) (i : grid0.Coords) (arg1 : Memref sig .tc .vmem S5000x64 .f32) (harg1 : arg1.IsWhole) (arg2 : Memref sig .tc .vmem S64x64 .f32) (harg2 : arg2.IsWhole) (arg3 : Memref sig .tc .vmem S5000x64 .f32) (harg3 : arg3.IsWhole)
    (x0 : Vec F S5000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the first pipeline on core `c`: the arrays as found; after the body each input's buffer at its
    block and the output's at the product of the two blocks; the invariant the scoped rest and the generator register,
    untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the first pipeline, at every point. -/
theorem body_obligation0 (c : Dev nD) : BodyObligation (dat0 (F := F) V c) (defs₀ (F := F)) Variants.none () Set.univ := fun t => by
  rw [bigSep_W0, bigSep_W0]
  exact sound_body0 V c t

end Cert.Kernel.H

end
-- ==== Proof.K.Reg1.lean ====
import proofs.«427723_j89670327206505_1_alg».proof.Proof.Gen.Kernel.Launch
import proofs.«427723_j89670327206505_1_alg».proof.Proof.Gen.Kernel.Skeleton
import proofs.«427723_j89670327206505_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The second launch: a block of rows plus the bias row, clamped at zero, times the weight matrix

At a grid point the body reads a block of 5000 rows of the first aggregation, the 1 × 64 bias row and the whole 64 × 64
weight matrix; it adds the row to every row of the block, takes the maximum with zero, multiplies by the matrix and
stores the product into the output block. Stated at a parameter `V`, the contents of the buffers when the launch is
entered: what each staging buffer holds after the body, the body's triple, and the proof data of the pipeline.
-/

set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The rows' staging buffer holds the point's block of rows, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The bias row's staging buffer holds the whole row at every point: it is fetched once and its index never moves. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The weights' staging buffer holds the whole matrix at every point, likewise. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole 5000 × 64 block, the whole 1 × 64 bias row and the whole 64 × 64 matrix, as rectangles. -/
abbrev rRows1 : Rect S5000x64 := Rect.unit (s := S5000x64) ![0, 0] S5000x64.size inb_S5000x64_S5000x64_0_0
abbrev rBias1 : Rect S1x64 := Rect.unit (s := S1x64) ![0, 0] S1x64.size inb_S1x64_S1x64_0_0
abbrev rMat1 : Rect S64x64 := Rect.unit (s := S64x64) ![0, 0] S64x64.size inb_S64x64_S64x64_0_0

/-- The output block after the body: its one store, the clamped sum of the block of rows and the bias row, times the matrix. -/
def out1_3 (x0 : Vec F S5000x64 .f32) (x1 : Vec F S1x64 .f32) (x2 : Vec F S64x64 .f32) : Vec F S5000x64 .f32 :=
  View.canon [⟨rRows1, k1_pay1 (View.ld x0 rRows1) (View.ld x1 rBias1) (View.ld x2 rMat1)⟩]

/-- The one store covers the output block. -/
theorem cover1_3 (p0 : Vec F S5000x64 .f32) (y : S5000x64.Idx) :
    ∃ pc ∈ ([⟨rRows1, p0⟩] : List (View.Piece (Elt F) S5000x64 .f32)), y ∈ pc.1.set :=
  View.cover_of_tiled [⟨rRows1, p0⟩] S5000x64.size (by rfl) y

set_option maxHeartbeats 1000000 in
/-- The body on whole staging buffers, the inputs at `x0`, `x1`, `x2` and the output at anything, runs to the end with the
    inputs as they were and the output at `out1_3 x0 x1 x2`. -/
theorem sound_kernel1 (c : Dev nD) (E : Set ℕ) (i : grid1.Coords) (arg1 : Memref sig .tc .vmem S5000x64 .f32) (harg1 : arg1.IsWhole) (arg2 : Memref sig .tc .vmem S1x64 .f32) (harg2 : arg2.IsWhole) (arg3 : Memref sig .tc .vmem S64x64 .f32) (harg3 : arg3.IsWhole) (arg4 : Memref sig .tc .vmem S5000x64 .f32) (harg4 : arg4.IsWhole)
    (x0 : Vec F S5000x64 .f32) (x1 : Vec F S1x64 .f32) (x2 : Vec F S64x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__bias_relu_matmul_kernel i arg1 harg1 arg2 harg2 arg3 harg3 arg4 harg4) K := by
  simp only [cc1__bias_relu_matmul_kernel_eq_skeleton]; unfold cc1__bias_relu_matmul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of the second pipeline on core `c`: the arrays as found; after the body each input's buffer at its
    block and the output's at the product of the clamped sum with the matrix; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the second pipeline, at every point. -/
theorem body_obligation1 (c : Dev nD) : BodyObligation (dat1 (F := F) V c) (defs₀ (F := F)) Variants.none () Set.univ := fun t => by
  rw [bigSep_W1, bigSep_W1]
  exact sound_body1 V c t

end Cert.Kernel.H

end
-- ==== Proof.K.Reg2.lean ====
import proofs.«427723_j89670327206505_1_alg».proof.Proof.Gen.Kernel.Launch
import proofs.«427723_j89670327206505_1_alg».proof.Proof.Gen.Kernel.Skeleton
import proofs.«427723_j89670327206505_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The third launch: a block of rows plus the bias row, clamped at zero

At a grid point the body reads a block of 5000 rows of the second aggregation and the 1 × 64 bias row, adds the row to
every row of the block and takes the maximum with zero, and stores that into the output block. Stated at a parameter
`V`, the contents of the buffers when the launch is entered: what each staging buffer holds after the body, the body's
triple, and the proof data of the pipeline.
-/

set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The rows' staging buffer holds the point's block of rows, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The bias row's staging buffer holds the whole row at every point: it is fetched once and its index never moves. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The whole 5000 × 64 block and the whole 1 × 64 bias row, as rectangles. -/
abbrev rRows2 : Rect S5000x64 := Rect.unit (s := S5000x64) ![0, 0] S5000x64.size inb_S5000x64_S5000x64_0_0
abbrev rBias2 : Rect S1x64 := Rect.unit (s := S1x64) ![0, 0] S1x64.size inb_S1x64_S1x64_0_0

/-- The output block after the body: its one store, the block of rows plus the bias row, clamped at zero. -/
def out2_2 (x0 : Vec F S5000x64 .f32) (x1 : Vec F S1x64 .f32) : Vec F S5000x64 .f32 :=
  View.canon [⟨rRows2, k2_pay1 (View.ld x0 rRows2) (View.ld x1 rBias2)⟩]

/-- The one store covers the output block. -/
theorem cover2_2 (p0 : Vec F S5000x64 .f32) (y : S5000x64.Idx) :
    ∃ pc ∈ ([⟨rRows2, p0⟩] : List (View.Piece (Elt F) S5000x64 .f32)), y ∈ pc.1.set :=
  View.cover_of_tiled [⟨rRows2, p0⟩] S5000x64.size (by rfl) y

set_option maxHeartbeats 1000000 in
/-- The body on whole staging buffers, the inputs at `x0`, `x1` and the output at anything, runs to the end with the
    inputs as they were and the output at `out2_2 x0 x1`. -/
theorem sound_kernel2 (c : Dev nD) (E : Set ℕ) (i : grid2.Coords) (arg1 : Memref sig .tc .vmem S5000x64 .f32) (harg1 : arg1.IsWhole) (arg2 : Memref sig .tc .vmem S1x64 .f32) (harg2 : arg2.IsWhole) (arg3 : Memref sig .tc .vmem S5000x64 .f32) (harg3 : arg3.IsWhole)
    (x0 : Vec F S5000x64 .f32) (x1 : Vec F S1x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__bias_relu_kernel i arg1 harg1 arg2 harg2 arg3 harg3) K := by
  simp only [cc2__bias_relu_kernel_eq_skeleton]; unfold cc2__bias_relu_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data of the third pipeline on core `c`: the arrays as found; after the body each input's buffer at its
    block and the output's at the clamped sum of the two blocks; the invariant the scoped rest and the generator register,
    untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the third pipeline, at every point. -/
theorem body_obligation2 (c : Dev nD) : BodyObligation (dat2 (F := F) V c) (defs₀ (F := F)) Variants.none () Set.univ := fun t => by
  rw [bigSep_W2, bigSep_W2]
  exact sound_body2 V c t

end Cert.Kernel.H

end
-- ==== Proof.K.Reg3.lean ====
import proofs.«427723_j89670327206505_1_alg».proof.Proof.Gen.Kernel.Launch
import proofs.«427723_j89670327206505_1_alg».proof.Proof.Gen.Kernel.Skeleton
import proofs.«427723_j89670327206505_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-!
# The fourth launch: per-graph sums accumulated over the blocks of rows

At a grid point the body reads a block of 5000 rows of node features and the block's 5000 graph ids. At the first point
it first clears a 128 × 64 accumulator that it keeps in a buffer of its own between points. At every point it adds to
the accumulator, for each graph id `g` in `0 … 127`, the sum of the block's rows whose id is `g` (a product with the
0/1 matrix "row `r` has id `g`"). At the last point it copies the accumulator into the output block, which is written
back there and nowhere else. Stated at a parameter `V`, the contents of the buffers when the launch is entered: the
accumulator after each point, by recursion on the point; the proof data; the body obligation.
-/

set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The cleared accumulator. -/
def zero3 : Vec F S128x64 .f32 := k3_pay1

/-- One point's update: the accumulator `acc` plus, per graph id, the sum of the rows of `rows` whose id in `ids` is it. -/
def step3 (ids : Vec F S5000x1 .i32) (rows : Vec F S5000x64 .f32) (acc : Vec F S128x64 .f32) : Vec F S128x64 .f32 :=
  k3_pay2 ids rows acc

/-- THE ACCUMULATION. What the accumulator holds after the body at point `n`: cleared and updated once at the first
    point, then what the point before left, updated with this point's blocks. -/
def accAt3 (c : Dev nD) : (n : ℕ) → n < cfg3.N → Vec F S128x64 .f32
  | 0, hn => step3 (iblk3 V c 1 ⟨0, hn⟩) (iblk3 V c 0 ⟨0, hn⟩) zero3
  | n + 1, hn => step3 (iblk3 V c 1 ⟨n + 1, hn⟩) (iblk3 V c 0 ⟨n + 1, hn⟩) (accAt3 c n (Nat.lt_of_succ_lt hn))

theorem accAt3_zero (c : Dev nD) (h0 : 0 < cfg3.N) :
    accAt3 V c 0 h0 = step3 (iblk3 V c 1 ⟨0, h0⟩) (iblk3 V c 0 ⟨0, h0⟩) zero3 := rfl
theorem accAt3_succ (c : Dev nD) (n : ℕ) (hn : n + 1 < cfg3.N) :
    accAt3 V c (n + 1) hn = step3 (iblk3 V c 1 ⟨n + 1, hn⟩) (iblk3 V c 0 ⟨n + 1, hn⟩) (accAt3 V c n (Nat.lt_of_succ_lt hn)) := rfl

/-- The accumulator's buffer, whole. -/
abbrev scM3 : Memref sig .tc .vmem S128x64 .f32 := Memref.whole cc3_scratch0

/-- The staging buffers of the other three launches, each whole at some contents: they ride through this launch untouched. -/
def others3 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg2_1), ((c : Thread nD τ).loc cc2_stg2_1) ↦{fullShare} f))

/-- The launch's invariant before position `n`: before the first point every scoped buffer at anything and the
    generator register at some state; afterwards the same with the accumulator at what the point before left in it. -/
def PhiS3 (c : Dev nD) : (n : ℕ) → n ≤ cfg3.N → sProp 𝕄
  | 0, _ => Pipeline.ΦA spec3 c
  | n + 1, hn => iprop(others3 c ∗ owns (c : Thread nD τ) scM3 fullShare (accAt3 V c n hn) ∗ (∃ r, prngReg c r))

/-- The proof data of the fourth pipeline on core `c`: the arrays as found; after the body each input's buffer at its
    block and the output's at the accumulator (it is stored at the last point only, and consulted only there); the
    invariant `PhiS3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => accAt3 V c t.val t.isLt
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = accAt3 V c t.val t.isLt := by dsimp only [dat3]

/-! ## The two conditionals of the body, over the grid -/

/-- The condition of the body's first conditional: the point is the first along the grid. -/
abbrev cond3_0 (i : grid3.Coords) : Prop := Scalar.cmpi .ne (Scalar.extui (Scalar.cmpi .eq (BitVec.ofNat 32 (i 0).val) 0#32)) 0#32 = 1#1
/-- The condition of its second: the point is the last. -/
abbrev cond3_1 (i : grid3.Coords) : Prop := k3_cond2 i = 1#1

/-- The first holds at point 0 only, -/
theorem hcond3_0 : ∀ t : Fin cfg3.N, cond3_0 (grid3.coords t) ↔ t.val % 20 = 0 :=
  (by decide +kernel : ∀ t : Fin grid3.N, cond3_0 (grid3.coords t) ↔ t.val % 20 = 0)
/-- the second at point 19 only. -/
theorem hcond3_1 : ∀ t : Fin cfg3.N, cond3_1 (grid3.coords t) ↔ t.val % 20 = 19 :=
  (by decide +kernel : ∀ t : Fin grid3.N, cond3_1 (grid3.coords t) ↔ t.val % 20 = 19)

/-! ## The body on whole buffers, case by case -/

/-- The two zero offsets of a whole rectangle of a matrix, as a constant function. -/
theorem zeroOff3 : (![0, 0] : Fin 2 → Nat) = fun _ => 0 := funext fun a => by fin_cases a <;> rfl

/-- A 128 × 64 buffer whose last store went through its whole rectangle reads as the block stored, whatever was
    stored before. -/
theorem read_stored3 {κ : Kind} {sp : Space} (v : View sig κ sp S128x64 .f32) (f : v.ty.Contents (Elt F)) (w : Vec F S128x64 .f32)
    (L : List (View.Piece (Elt F) S128x64 .f32)) :
    v.read (Elt F) (v.writes (Elt F) f (⟨Rect.unit (s := S128x64) ![0, 0] S128x64.size inb_S128x64_S128x64_0_0, w⟩ :: L)) = w := by
  rw [View.read_writes_eq_canon _ _ _ (fun y => ⟨_, List.mem_cons_self, View.mem_set_unit_zero zeroOff3 inb_S128x64_S128x64_0_0 y⟩),
    View.canon_cons_unit_zero (S := S128x64) zeroOff3]

/-- The update's payload over loads through the whole rectangles is `step3` of the buffers' contents. -/
theorem pay_loads3 {κ : Kind} {sp : Space} (v1 : View sig κ sp S5000x64 .f32) (v2 : View sig κ sp S5000x1 .i32) (f0 : v1.ty.Contents (Elt F)) (f1 : v2.ty.Contents (Elt F))
    (acc : Vec F S128x64 .f32) :
    k3_pay2 (View.readAt (Elt F) v2 (Rect.unit (s := S5000x1) ![0, 0] S5000x1.size inb_S5000x1_S5000x1_0_0).toLoadRect f1)
        (View.readAt (Elt F) v1 (Rect.unit (s := S5000x64) ![0, 0] S5000x64.size inb_S5000x64_S5000x64_0_0).toLoadRect f0) acc
      = step3 (v2.read (Elt F) f1) (v1.read (Elt F) f0) acc := by
  simp only [View.readAt_eq_ld, View.ld_unit_zero (S := S5000x64) zeroOff3, View.ld_unit_zero (S := S5000x1) zeroOff3]
  rfl

set_option maxHeartbeats 1000000 in
/-- FIRST POINT. The accumulator, at anything, is cleared and then updated with the point's blocks; the output's buffer
    is handed back as found. -/
theorem sound_kernel3_first (c : Dev nD) (E : Set ℕ) (i : grid3.Coords) (arg1 : Memref sig .tc .vmem S5000x64 .f32) (harg1 : arg1.IsWhole) (arg2 : Memref sig .tc .vmem S5000x1 .i32) (harg2 : arg2.IsWhole) (arg3 : Memref sig .tc .vmem S128x64 .f32) (harg3 : arg3.IsWhole) (arg4 : Memref sig .tc .vmem S128x64 .f32) (harg4 : arg4.IsWhole)
    (h1 : cond3_0 i) (h2 : ¬ cond3_1 i)
    (x0 : Vec F S5000x64 .f32) (x1 : Vec F S5000x1 .i32) (x2 : Vec F S128x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (step3 x1 x0 zero3)) -∗ K ⟨⟩))
      ⊢ wp frame (wpE (defs₀ (F := F)) Variants.none c none) E (cc3__pool_kernel i arg1 harg1 arg2 harg2 arg3 harg3 arg4 harg4) K := by
  simp only [cc3__pool_kernel_eq_skeleton]; unfold cc3__pool_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [read_stored3]
  sl_unfold_words
  rw [View.readCov_unit_zero (S := S128x64) _ zeroOff3, pay_loads3]
  rfl

set_option maxHeartbeats 1000000 in
/-- A MIDDLE POINT. The accumulator, at `acc`, is updated with the point's blocks; the output's buffer is handed back
    as found. -/
theorem sound_kernel3_mid (c : Dev nD) (E : Set ℕ) (i : grid3.Coords) (arg1 : Memref sig .tc .vmem S5000x64 .f32) (harg1 : arg1.IsWhole) (arg2 : Memref sig .tc .vmem S5000x1 .i32) (harg2 : arg2.IsWhole) (arg3 : Memref sig .tc .vmem S128x64 .f32) (harg3 : arg3.IsWhole) (arg4 : Memref sig .tc .vmem S128x64 .f32) (harg4 : arg4.IsWhole)
    (h1 : ¬ cond3_0 i) (h2 : ¬ cond3_1 i)
    (x0 : Vec F S5000x64 .f32) (x1 : Vec F S5000x1 .i32) (x2 : Vec F S128x64 .f32) (acc : Vec F S128x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare acc
        ∗ (iprop(owns (c : Thread nD τ) arg1 fullShare x0 ∗ owns (c : Thread nD τ) arg2 fullShare x1 ∗ owns (c : Thread nD τ) arg3 fullShare x2 ∗ owns (c : Thread nD τ) arg4 fullShare (step3 x1 x0 acc)) -∗ K ⟨⟩))
      ⊢ wp frame (wpE (defs₀ (F := F)) Variants.none c none) E (cc3__pool_kernel i arg1 harg1 arg2 harg2 arg3 harg3 arg4 harg4) K := by
  simp only [cc3__pool_kernel_eq_skeleton]; unfold cc3__pool_kernel_skel
  unfold owns
  iintro ⟨⟨%f0, %hf0, H0⟩, ⟨%f1, %hf1, H1⟩, ⟨%f2, %hf2, H2⟩, ⟨%f3, %hf3, H3⟩, Hk⟩
  subst hf0 hf1 hf2 hf3
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [read_stored3, pay_loads3, View.readAt_eq_ld, View.ld_unit_zero (S := S128x64) zeroOff3]

set_option maxHeartbeats 1000000 in
/-- THE LAST POINT. The accumulator, at `acc`, is updated with the point's blocks and then copied into the output's
    buffer, found at anything. -/
theorem sound_kernel3_last (c : Dev nD) (E : Set ℕ) (i : grid3.Coords) (arg1 : Memref sig .tc .vmem S5000x64 .f32) (harg1 : arg1.IsWhole) (arg2 : Memref sig .tc .vmem S5000x1 .i32) (harg2 : arg2.IsWhole) (arg3 : Memref sig .tc .vmem S128x64 .f32) (harg3 : arg3.IsWhole) (arg4 : Memref sig .tc .vmem S128x64 .f32) (harg4 : arg4.IsWhole)
    (h1 : ¬ cond3_0 i) (h2 : cond3_1 i)
    (x0 : Vec F S5000x64 .f32) (x1 : Vec F S5000x1 .i32) (acc : Vec F S128x64 .f32) (K : PUnit → sProp 𝕄) :
    iprop(owns (c : Thread nD τ) arg1 fullShare x0 ∗ owns (c : Thread nD τ) arg2 fullShare x1 ∗ (∃ d, owns (c : Thread nD τ) arg3 fullShare d) ∗ owns (c : Thread nD τ) arg4 fullShare acc
        ∗ (iprop(owns (c : Thread nD τ) arg1 fullShare x0 ∗ owns (c : Thread nD τ) arg2 fullShare x1 ∗ owns (c : Thread nD τ) arg3 fullShare (step3 x1 x0 acc) ∗ owns (c : Thread nD τ) arg4 fullShare (step3 x1 x0 acc)) -∗ K ⟨⟩))
      ⊢ wp frame (wpE (defs₀ (F := F)) Variants.none c none) E (cc3__pool_kernel i arg1 harg1 arg2 harg2 arg3 harg3 arg4 harg4) K := by
  simp only [cc3__pool_kernel_eq_skeleton]; unfold cc3__pool_kernel_skel
  unfold owns
  iintro ⟨⟨%f0, %hf0, H0⟩, ⟨%f1, %hf1, H1⟩, ⟨%d2, %f2, -, H2⟩, ⟨%f3, %hf3, H3⟩, Hk⟩
  subst hf0 hf1 hf3
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    rw [read_stored3]
    sl_unfold_words
    rw [View.readCov_unit_zero (S := S128x64) _ zeroOff3, pay_loads3, View.readAt_eq_ld, View.ld_unit_zero (S := S128x64) zeroOff3]
  iexists _; isplitr
  swap; · iexact H3
  ipureintro
  sl_unfold_words
  rw [read_stored3, pay_loads3, View.readAt_eq_ld, View.ld_unit_zero (S := S128x64) zeroOff3]

/-! ## Where the windows are idle, over the grid -/

/-- The two inputs are never idle. -/
theorem liveAt3_0 : ∀ t : Fin cfg3.N, cfg3.idle 0 (grid3.coords t) = false := by decide +kernel
theorem liveAt3_1 : ∀ t : Fin cfg3.N, cfg3.idle 1 (grid3.coords t) = false := by decide +kernel
/-- The output is idle, and not written back, at every point but the last; -/
theorem idleAt3_2 : ∀ t : Fin cfg3.N, ¬cond3_1 (grid3.coords t) → cfg3.idle 2 (grid3.coords t) = true := by decide +kernel
theorem noFlush3_2 : ∀ t : Fin cfg3.N, ¬cond3_1 (grid3.coords t) → (cfg3.win 2).flush t = false := by decide +kernel
/-- at the last it is live. -/
theorem liveAt3_2 : ∀ t : Fin cfg3.N, cond3_1 (grid3.coords t) → cfg3.idle 2 (grid3.coords t) = false := by decide +kernel

/-! ## The inputs' buffers at a point -/

/-- The rows' staging buffer holds the point's block of rows, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- The ids' staging buffer holds the point's block of ids, fetched there or not. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The invariant, point by point -/

/-- What the launch hands the pipeline, with the accumulator's buffer apart from the other launches' staging buffers. -/
theorem PhiA3_split (c : Dev nD) :
    (Pipeline.ΦA spec3 c : sProp 𝕄) ⊢ iprop(others3 c ∗ (∃ d, owns (c : Thread nD τ) scM3 fullShare d) ∗ (∃ r, prngReg c r)) := by
  unfold Pipeline.ΦA others3; rw [scopedRest3_eq]; simp only [scM3, owns_whole]
  iintro ⟨⟨H1, H2, H3, H4, H5, H6, H7, H8, H9, H10, H11, H12, H13, H14, H15, H16, HS⟩, Hg⟩
  isplitl [H1 H2 H3 H4 H5 H6 H7 H8 H9 H10 H11 H12 H13 H14 H15 H16]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  isplitl [HS]; · iexact HS
  iexact Hg

/-- And back. -/
theorem PhiA3_join (c : Dev nD) :
    iprop(others3 c ∗ (∃ d, owns (c : Thread nD τ) scM3 fullShare d) ∗ (∃ r, prngReg c r)) ⊢ (Pipeline.ΦA spec3 c : sProp 𝕄) := by
  unfold Pipeline.ΦA others3; rw [scopedRest3_eq]; simp only [scM3, owns_whole]
  iintro ⟨⟨H1, H2, H3, H4, H5, H6, H7, H8, H9, H10, H11, H12, H13, H14, H15, H16⟩, HS, Hg⟩
  isplitr [Hg]
  swap; · iexact Hg
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact HS

theorem PhiS3_zero (c : Dev nD) (n : ℕ) (h : n ≤ cfg3.N) (hz : n = 0) : PhiS3 V c n h = Pipeline.ΦA spec3 c := by
  subst hz; rfl

/-- After point `n`: the accumulator at that point's contents. -/
theorem PhiS3_succ (c : Dev nD) (n : ℕ) (hn : n < cfg3.N) :
    PhiS3 V c (n + 1) hn = iprop(others3 c ∗ owns (c : Thread nD τ) scM3 fullShare (accAt3 V c n hn) ∗ (∃ r, prngReg c r)) := rfl

/-- Before a point that is not the first: the accumulator at what the point before left. -/
theorem PhiS3_pos (c : Dev nD) (n : ℕ) (h : n ≤ cfg3.N) (hz : n ≠ 0) :
    PhiS3 V c n h = iprop(others3 c ∗ owns (c : Thread nD τ) scM3 fullShare (accAt3 V c (n - 1) (by omega)) ∗ (∃ r, prngReg c r)) := by
  cases n with
  | zero => exact absurd rfl hz
  | succ n => rfl

/-- The invariant at a point's start, restated at the point's number. -/
theorem PhiS3_castSucc (c : Dev nD) (t : Fin cfg3.N) :
    (dat3 V c).Φ t.castSucc = PhiS3 V c t.val (Nat.le_of_lt t.isLt) := by
  dsimp only [dat3]; simp only [Fin.coe_castSucc]

/-- The accumulator after the first point: the cleared one, updated. -/
theorem accAt3_first (c : Dev nD) (t : Fin cfg3.N) (hz : t.val = 0) :
    accAt3 V c t.val t.isLt = step3 (iblk3 V c 1 t) (iblk3 V c 0 t) zero3 := by
  obtain ⟨n, hn⟩ := t
  cases n with
  | zero => rfl
  | succ n => exact absurd hz (Nat.succ_ne_zero n)

/-- The accumulator after a later point: what the point before left, updated. -/
theorem accAt3_later (c : Dev nD) (t : Fin cfg3.N) (hz : t.val ≠ 0) :
    accAt3 V c t.val t.isLt = step3 (iblk3 V c 1 t) (iblk3 V c 0 t) (accAt3 V c (t.val - 1) (Nat.lt_of_le_of_lt (Nat.sub_le _ _) t.isLt)) := by
  obtain ⟨n, hn⟩ := t
  cases n with
  | zero => exact absurd rfl hz
  | succ n => rfl

/-! ## The body obligation -/

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns: the output's buffer as found where the window is idle, at the accumulator at the last point. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 4000000 in
/-- The body at any point. The inputs' buffers hold their blocks; the closed forms of the two conditions say which of
    the three cases the point is in; the invariant hands the body the accumulator (at anything at the first point, at
    what the point before left afterwards) and takes it back at this point's contents; the other launches' buffers, the
    generator register and the core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (st3_0 t) fullShare ((dat3 V c).after 0 t) from by
    unfold Dat.leavesExact; rw [liveAt3_0 t], after3_0]
  rw [show (dat3 V c).leavesExact 1 t = owns (c : Thread nD τ) (st3_1 t) fullShare ((dat3 V c).after 1 t) from by
    unfold Dat.leavesExact; rw [liveAt3_1 t], after3_1]
  have hN : t.val < 20 := lt_of_lt_of_eq t.isLt (show cfg3.N = 20 from N_3)
  by_cases h0 : t.val % 20 = 0
  · have hz : t.val = 0 := by omega
    have h1 : ¬ t.val % 20 = 19 := by omega
    have hc0 : cond3_0 (grid3.coords t) := (hcond3_0 t).mpr h0
    have hc1 : ¬ cond3_1 (grid3.coords t) := fun h => h1 ((hcond3_1 t).mp h)
    rw [Dat.leavesExact_idle (dat3 V c) 2 t (idleAt3_2 t hc1) (noFlush3_2 t hc1)]
    rw [accAt3_first V c t hz, PhiS3_castSucc V c t, PhiS3_zero V c _ _ hz]
    iintro ⟨HΦ, Ho, ⟨%d0, H0⟩, ⟨%d1, H1⟩, ⟨%d2, H2⟩⟩
    ihave HΦ' := (PhiA3_split c) $$ HΦ
    icases HΦ' with ⟨Hoth, HS, Hg⟩
    iapply (sound_kernel3_first c Set.univ (grid3.coords t) _ _ _ _ _ _ _ _ hc0 hc1 (iblk3 V c 0 t) (iblk3 V c 1 t) _ _)
    isplitl [H0]; · iexact H0
    isplitl [H1]; · iexact H1
    isplitl [H2]; · iexact H2
    isplitl [HS]; · iexact HS
    iintro ⟨H0, H1, H2, HS⟩
    isplitl [Hoth HS Hg]
    · isplitl [Hoth]; · iexact Hoth
      isplitl [HS]; · iexact HS
      iexact Hg
    isplitl [Ho]; · iexact Ho
    isplitl [H0]; · iexact H0
    isplitl [H1]; · iexact H1
    iexists _; iexact H2
  · have hz : t.val ≠ 0 := by omega
    have hc0 : ¬ cond3_0 (grid3.coords t) := fun h => h0 ((hcond3_0 t).mp h)
    by_cases h1 : t.val % 20 = 19
    · have hc1 : cond3_1 (grid3.coords t) := (hcond3_1 t).mpr h1
      rw [show (dat3 V c).leavesExact 2 t = owns (c : Thread nD τ) (st3_2 t) fullShare ((dat3 V c).after 2 t) from by
        unfold Dat.leavesExact; rw [liveAt3_2 t hc1], after3_2]
      rw [accAt3_later V c t hz, PhiS3_castSucc V c t, PhiS3_pos V c _ _ hz]
      iintro ⟨⟨Hoth, HS, Hg⟩, Ho, ⟨%d0, H0⟩, ⟨%d1, H1⟩, ⟨%d2, H2⟩⟩
      iapply (sound_kernel3_last c Set.univ (grid3.coords t) _ _ _ _ _ _ _ _ hc0 hc1 (iblk3 V c 0 t) (iblk3 V c 1 t) _ _)
      isplitl [H0]; · iexact H0
      isplitl [H1]; · iexact H1
      isplitl [H2]; · iexists _; iexact H2
      isplitl [HS]; · iexact HS
      iintro ⟨H0, H1, H2, HS⟩
      isplitl [Hoth HS Hg]
      · isplitl [Hoth]; · iexact Hoth
        isplitl [HS]; · iexact HS
        iexact Hg
      isplitl [Ho]; · iexact Ho
      isplitl [H0]; · iexact H0
      isplitl [H1]; · iexact H1
      iexact H2
    · have hc1 : ¬ cond3_1 (grid3.coords t) := fun h => h1 ((hcond3_1 t).mp h)
      rw [Dat.leavesExact_idle (dat3 V c) 2 t (idleAt3_2 t hc1) (noFlush3_2 t hc1)]
      rw [accAt3_later V c t hz, PhiS3_castSucc V c t, PhiS3_pos V c _ _ hz]
      iintro ⟨⟨Hoth, HS, Hg⟩, Ho, ⟨%d0, H0⟩, ⟨%d1, H1⟩, ⟨%d2, H2⟩⟩
      iapply (sound_kernel3_mid c Set.univ (grid3.coords t) _ _ _ _ _ _ _ _ hc0 hc1 (iblk3 V c 0 t) (iblk3 V c 1 t) _ _ _)
      isplitl [H0]; · iexact H0
      isplitl [H1]; · iexact H1
      isplitl [H2]; · iexact H2
      isplitl [HS]; · iexact HS
      iintro ⟨H0, H1, H2, HS⟩
      isplitl [Hoth HS Hg]
      · isplitl [Hoth]; · iexact Hoth
        isplitl [HS]; · iexact HS
        iexact Hg
      isplitl [Ho]; · iexact Ho
      isplitl [H0]; · iexact H0
      isplitl [H1]; · iexact H1
      iexists _; iexact H2

/-- The body obligation of the fourth pipeline, at every point. -/
theorem body_obligation3 (c : Dev nD) : BodyObligation (dat3 (F := F) V c) (defs₀ (F := F)) Variants.none () Set.univ := fun t => by
  rw [bigSep_W3, bigSep_W3]
  exact sound_body3 V c t

/-- What the launch hands the pipeline is the invariant before the first point. -/
theorem hin3 (c : Dev nD) : (Pipeline.ΦA spec3 c : sProp 𝕄) ⊢ (dat3 V c).Φ 0 := by
  rw [show (dat3 V c).Φ 0 = PhiS3 V c 0 (Nat.zero_le _) from rfl, PhiS3_zero V c 0 _ rfl]
  try exact Idealize.SL.BI.Entails.refl _

/-- After the last point the invariant gives the scoped buffers and the generator register back: what the accumulator
    holds is forgotten. -/
theorem hout3 (c : Dev nD) : (dat3 V c).Φ (Fin.last cfg3.N) ⊢ (Pipeline.ΦA spec3 c : sProp 𝕄) := by
  have hN : cfg3.N = 20 := N_3
  rw [show (dat3 V c).Φ (Fin.last cfg3.N) = PhiS3 V c (Fin.last cfg3.N).val (Nat.le_of_lt_succ (Fin.last cfg3.N).isLt) from rfl,
    PhiS3_pos V c _ _ (by rw [Fin.val_last]; omega)]
  iintro ⟨Hoth, HS, Hg⟩
  iapply (PhiA3_join c)
  isplitl [Hoth]; · iexact Hoth
  isplitl [HS]; · iexists _; iexact HS
  iexact Hg

end Cert.Kernel.H

end
-- ==== Proof.K.Run.lean ====
import proofs.«427723_j89670327206505_1_alg».proof.Proof.K.Reg0
import proofs.«427723_j89670327206505_1_alg».proof.Proof.K.Reg1
import proofs.«427723_j89670327206505_1_alg».proof.Proof.K.Reg2
import proofs.«427723_j89670327206505_1_alg».proof.Proof.K.Reg3
import proofs.«427723_j89670327206505_1_alg».proof.Proof.Gen.Kernel.Regions

/-!
# The run of the whole program

The program is ten segments in a row: three stretches of host operations, the first launch, a stretch, the second
launch, a stretch, the third and the fourth launch, a last stretch. Between two segments every unscoped buffer is held
whole at contents named here by a fold from the launch memory: a stretch's operations applied in order; a launch's
arrays at what its write-backs leave, every other buffer as entered. The run ends with every unscoped buffer at the
last contents of the fold; the argument arrays and the two results are then read off the fold.
-/

set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

/-- Core `c`'s buffers at launch. -/
abbrev W0 : Dev nD → Valuation τ sig (Elt F) := fun c b => m (c, b)
/-- After the first, the second and the third stretch of host operations. -/
abbrev W1 : Dev nD → Valuation τ sig (Elt F) := fun c => StableHlo.after hostOps0 (W0 m c)
abbrev W2 : Dev nD → Valuation τ sig (Elt F) := fun c => StableHlo.after hostOps0_1 (W1 m c)
abbrev W3 : Dev nD → Valuation τ sig (Elt F) := fun c => StableHlo.after hostOps0_2 (W2 m c)
abbrev V3 : (c : Dev nD) → (b : Ref sig .tc) → Buf (Elt F) ((c : Thread nD τ).loc b) := fun c b => W3 m c b

/-- At launch 0's exit: its arrays at what the pipeline leaves (the inputs as entered, the output's write-backs
    folded), every other buffer as entered. -/
def W4 (c : Dev nD) : Valuation τ sig (Elt F) :=
  Pipeline.withArrays spec0 c (W3 m c) fun w => (dat0 (V3 m) c).arrAt w cfg0.N
theorem W4_arr (c : Dev nD) (w : Fin cfg0.W) :
    W4 m c (Proc.devRef .tc (Pipeline.arrRef spec0 w)) = (dat0 (V3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
/-- The same read at the TensorCore's references. -/
abbrev V4 : (c : Dev nD) → (b : Ref sig .tc) → Buf (Elt F) ((c : Thread nD τ).loc b) := fun c b => W4 m c b
theorem hF0 (c : Dev nD) (w : Fin cfg0.W) : (dat0 (V3 m) c).arrAt w cfg0.N = V4 m c (Pipeline.arrRef spec0 w) :=
  (W4_arr m c w).symm
theorem hrest0 (c : Dev nD) : ∀ b, b ∉ Finset.univ.image (Pipeline.arrRef spec0) → V4 m c b = V3 m c b :=
  fun b hb => W4_of_ne m c b fun w e => hb (Finset.mem_image.mpr ⟨w, Finset.mem_univ _, e⟩)

/-- After the stretch between the first and the second launch. -/
abbrev W5 : Dev nD → Valuation τ sig (Elt F) := fun c => StableHlo.after hostOps1 (W4 m c)
abbrev V5 : (c : Dev nD) → (b : Ref sig .tc) → Buf (Elt F) ((c : Thread nD τ).loc b) := fun c b => W5 m c b

/-- At launch 1's exit: its arrays at what the pipeline leaves (the inputs as entered, the output's write-backs
    folded), every other buffer as entered. -/
def W6 (c : Dev nD) : Valuation τ sig (Elt F) :=
  Pipeline.withArrays spec1 c (W5 m c) fun w => (dat1 (V5 m) c).arrAt w cfg1.N
theorem W6_arr (c : Dev nD) (w : Fin cfg1.W) :
    W6 m c (Proc.devRef .tc (Pipeline.arrRef spec1 w)) = (dat1 (V5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
/-- The same read at the TensorCore's references. -/
abbrev V6 : (c : Dev nD) → (b : Ref sig .tc) → Buf (Elt F) ((c : Thread nD τ).loc b) := fun c b => W6 m c b
theorem hF1 (c : Dev nD) (w : Fin cfg1.W) : (dat1 (V5 m) c).arrAt w cfg1.N = V6 m c (Pipeline.arrRef spec1 w) :=
  (W6_arr m c w).symm
theorem hrest1 (c : Dev nD) : ∀ b, b ∉ Finset.univ.image (Pipeline.arrRef spec1) → V6 m c b = V5 m c b :=
  fun b hb => W6_of_ne m c b fun w e => hb (Finset.mem_image.mpr ⟨w, Finset.mem_univ _, e⟩)

/-- After the stretch between the second and the third launch. -/
abbrev W7 : Dev nD → Valuation τ sig (Elt F) := fun c => StableHlo.after hostOps2 (W6 m c)
abbrev V7 : (c : Dev nD) → (b : Ref sig .tc) → Buf (Elt F) ((c : Thread nD τ).loc b) := fun c b => W7 m c b

/-- At launch 2's exit: its arrays at what the pipeline leaves (the inputs as entered, the output's write-backs
    folded), every other buffer as entered. -/
def W8 (c : Dev nD) : Valuation τ sig (Elt F) :=
  Pipeline.withArrays spec2 c (W7 m c) fun w => (dat2 (V7 m) c).arrAt w cfg2.N
theorem W8_arr (c : Dev nD) (w : Fin cfg2.W) :
    W8 m c (Proc.devRef .tc (Pipeline.arrRef spec2 w)) = (dat2 (V7 m) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) := by
  unfold W8; exact Pipeline.withArrays_of_ne spec2 c _ _ b hb
/-- The same read at the TensorCore's references. -/
abbrev V8 : (c : Dev nD) → (b : Ref sig .tc) → Buf (Elt F) ((c : Thread nD τ).loc b) := fun c b => W8 m c b
theorem hF2 (c : Dev nD) (w : Fin cfg2.W) : (dat2 (V7 m) c).arrAt w cfg2.N = V8 m c (Pipeline.arrRef spec2 w) :=
  (W8_arr m c w).symm
theorem hrest2 (c : Dev nD) : ∀ b, b ∉ Finset.univ.image (Pipeline.arrRef spec2) → V8 m c b = V7 m c b :=
  fun b hb => W8_of_ne m c b fun w e => hb (Finset.mem_image.mpr ⟨w, Finset.mem_univ _, e⟩)

/-- At launch 3's exit: its arrays at what the pipeline leaves (the inputs as entered, the output's write-backs
    folded), every other buffer as entered. -/
def W9 (c : Dev nD) : Valuation τ sig (Elt F) :=
  Pipeline.withArrays spec3 c (W8 m c) fun w => (dat3 (V8 m) c).arrAt w cfg3.N
theorem W9_arr (c : Dev nD) (w : Fin cfg3.W) :
    W9 m c (Proc.devRef .tc (Pipeline.arrRef spec3 w)) = (dat3 (V8 m) c).arrAt w cfg3.N := by
  unfold W9; exact Pipeline.withArrays_arr spec3 launch3.win.arr_inj c _ _ w
theorem W9_of_ne (c : Dev nD) (b : Ref sig .tc) (hb : ∀ w, Pipeline.arrRef spec3 w ≠ b) :
    W9 m c (Proc.devRef .tc b) = W8 m c (Proc.devRef .tc b) := by
  unfold W9; exact Pipeline.withArrays_of_ne spec3 c _ _ b hb
/-- The same read at the TensorCore's references. -/
abbrev V9 : (c : Dev nD) → (b : Ref sig .tc) → Buf (Elt F) ((c : Thread nD τ).loc b) := fun c b => W9 m c b
theorem hF3 (c : Dev nD) (w : Fin cfg3.W) : (dat3 (V8 m) c).arrAt w cfg3.N = V9 m c (Pipeline.arrRef spec3 w) :=
  (W9_arr m c w).symm
theorem hrest3 (c : Dev nD) : ∀ b, b ∉ Finset.univ.image (Pipeline.arrRef spec3) → V9 m c b = V8 m c b :=
  fun b hb => W9_of_ne m c b fun w e => hb (Finset.mem_image.mpr ⟨w, Finset.mem_univ _, e⟩)

/-- After the last stretch. -/
abbrev W10 : Dev nD → Valuation τ sig (Elt F) := fun c => StableHlo.after hostOps4 (W9 m c)

/-! ## The proof data family and the thread state -/

abbrev adm : (p : Fin 4) → (pcfgs (F := F) p).Adm := fun p => (cfgs p).toPCfg_adm
/-- Every pipeline's proof data, each at its launch's entry contents. -/
def pdats : (p : Fin 4) → (c : Dev nD) → Dat τ (Elt F) Unit ℕ (UR sig nD τ) ℕ (Pipeline.pin (pcfgs (F := F)) adm p) c
  | ⟨0, _⟩ => fun c => dat0 (V3 m) c
  | ⟨1, _⟩ => fun c => dat1 (V5 m) c
  | ⟨2, _⟩ => fun c => dat2 (V7 m) c
  | ⟨3, _⟩ => fun c => dat3 (V8 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W10 m c) ∗ ∃ r, prngReg c r)

/-- After its last point the fourth launch gives back the scoped buffers and the generator register. -/
theorem hout3' (V : (c : Dev nD) → (b : Ref sig .tc) → Buf (Elt F) ((c : Thread nD τ).loc b)) (c : Dev nD) :
    (dat3 V c).Φ (Fin.last cfg3.N)
      ⊢ (iprop((∃ r, prngReg c r) ∗ BI.emp
          ∗ Pipeline.scopedRest (Ix := Unit) (Name := ℕ) (U := UR sig nD τ) (Lvl := ℕ) (Val := Elt F) spec3 c) : sProp 𝕄) :=
  (hout3 V c).trans (show (Pipeline.ΦA spec3 c : sProp 𝕄)
      ⊢ iprop((∃ r, prngReg c r) ∗ BI.emp
          ∗ Pipeline.scopedRest (Ix := Unit) (Name := ℕ) (U := UR sig nD τ) (Lvl := ℕ) (Val := Elt F) spec3 c) from by
    unfold Pipeline.ΦA
    iintro ⟨Hr, Hp⟩
    isplitl [Hp]; · iexact Hp
    isplitr; · iempintro
    iexact Hr)

/-! ## The launches as segments -/

set_option backward.isDefEq.respectTransparency.types false in
/-- Launch 0 over the thread state: entered from every unscoped buffer at `W3`, left at `W4`. Its arrays are split
    out of the unscoped buffers and put back at what the write-backs leave; the generator register goes into the
    launch's invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (V3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V3 m c) (V4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 over the thread state: entered from every unscoped buffer at `W5`, left at `W6`. Its arrays are split
    out of the unscoped buffers and put back at what the write-backs leave; the generator register goes into the
    launch's invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (V5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V5 m c) (V6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 2 over the thread state: entered from every unscoped buffer at `W7`, left at `W8`. Its arrays are split
    out of the unscoped buffers and put back at what the write-backs leave; the generator register goes into the
    launch's invariant and comes out; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m) c).loose
  hwaits := Pipeline.hwaits_of_owed_zero _ _ _ _ L lv 2 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec2 c (V7 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V7 m c) (V8 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 3 over the thread state: entered from every unscoped buffer at `W8`, left at `W9`. Its arrays are split
    out of the unscoped buffers and put back at what the write-backs leave; the generator register goes into the
    launch's invariant and comes out; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V8 m) c).loose
  hwaits := Pipeline.hwaits_of_owed_zero _ _ _ _ L lv 3 fun _ _ => rfl
  pre c := iprop(StableHlo.held (c : Thread nD τ) (Pipeline.ucRefs τ sig) (W8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := UR sig nD τ) (Lvl := ℕ) spec3 c (V8 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none]
    exact hout3' (V8 m) c
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V8 m c) (V9 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m),
    .host (hseg hostOps2 hostOps2_sub hostOps2_fresh (W6 m)),
    .region (reg2 m),
    .region (reg3 m),
    .host (hseg hostOps4 hostOps4_sub hostOps4_fresh (W9 m)) ]

set_option backward.isDefEq.respectTransparency.types false in
/-- THE RUN. From any memory with zero counters every weakly fair execution of the program terminates, nothing
    faulting, and every final memory holds every unscoped buffer at the last contents of the fold. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W10 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          Prog.lift (.customCall (Pipeline.entry 3) ()),
          StableHlo.seq hostOps4 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl,
      fun _ => .rfl, fun _ => .rfl, fun c =>
        (show (iprop(StableHlo.held (c : Thread nD τ) (Pipeline.ucRefs τ sig) (W10 m c) ∗ R c) : sProp 𝕄)
            ⊢ iprop(Tₙ m c ∗ ∃ W, owes (c : Thread nD τ) (0 : CellTallies nD τ sig Unit) W) from by
          iintro ⟨Hh, Hp, HO⟩
          isplitl [Hh Hp]
          · isplitl [Hh]; · iexact Hh
            iexact Hp
          iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h => h)

end Cert.Kernel.H

end
-- ==== Proof.K.Keep.lean ====
import proofs.«427723_j89670327206505_1_alg».proof.Proof.K.Run

/-!
# What each segment leaves unchanged

A stretch of host operations writes only its own result buffers, and a launch only its output array. So a buffer that
no later segment writes is read at the end of the run as it was when last written; in particular every argument array
ends as launched.
-/

set_option maxRecDepth 16384

noncomputable section

namespace Cert.Kernel.H

open Cert.Kernel Cert.Kernel.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

theorem W1_keep (c : Dev nD) (b : Ref sig .tc) (h : b ∉ hostOps0_W) : W1 m c (Proc.devRef .tc b) = W0 m c (Proc.devRef .tc b) :=
  StableHlo.after_of_writes_sub hostOps0 _ hostOps0_writes h
theorem W2_keep (c : Dev nD) (b : Ref sig .tc) (h : b ∉ hostOps0_1_W) : W2 m c (Proc.devRef .tc b) = W1 m c (Proc.devRef .tc b) :=
  StableHlo.after_of_writes_sub hostOps0_1 _ hostOps0_1_writes h
theorem W3_keep (c : Dev nD) (b : Ref sig .tc) (h : b ∉ hostOps0_2_W) : W3 m c (Proc.devRef .tc b) = W2 m c (Proc.devRef .tc b) :=
  StableHlo.after_of_writes_sub hostOps0_2 _ hostOps0_2_writes h
theorem W5_keep (c : Dev nD) (b : Ref sig .tc) (h : b ∉ hostOps1_W) : W5 m c (Proc.devRef .tc b) = W4 m c (Proc.devRef .tc b) :=
  StableHlo.after_of_writes_sub hostOps1 _ hostOps1_writes h
theorem W7_keep (c : Dev nD) (b : Ref sig .tc) (h : b ∉ hostOps2_W) : W7 m c (Proc.devRef .tc b) = W6 m c (Proc.devRef .tc b) :=
  StableHlo.after_of_writes_sub hostOps2 _ hostOps2_writes h
theorem W10_keep (c : Dev nD) (b : Ref sig .tc) (h : b ∉ hostOps4_W) : W10 m c (Proc.devRef .tc b) = W9 m c (Proc.devRef .tc b) :=
  StableHlo.after_of_writes_sub hostOps4 _ hostOps4_writes h

/-- Launch 0 changes no buffer but its output array `main_v35`: an input array ends as entered, and so does a buffer it bypasses. -/
theorem W4_keep (c : Dev nD) (b : Ref sig .tc) (hb : b ≠ main_v35) : W4 m c (Proc.devRef .tc b) = W3 m c (Proc.devRef .tc b) := by
  by_cases h : ∃ w, Pipeline.arrRef spec0 w = b
  · obtain ⟨w, rfl⟩ := h
    rw [W4_arr]
    match w with
      | ⟨0, _⟩ => exact ((dat0 (V3 m) c).arrAt_in 0 rfl _).trans (A_eq0 (V3 m) c 0)
      | ⟨1, _⟩ => exact ((dat0 (V3 m) c).arrAt_in 1 rfl _).trans (A_eq0 (V3 m) c 1)
      | ⟨2, _⟩ => exact absurd rfl hb
  · exact W4_of_ne m c b fun w e => h ⟨w, e⟩

/-- Launch 1 changes no buffer but its output array `main_v50`: an input array ends as entered, and so does a buffer it bypasses. -/
theorem W6_keep (c : Dev nD) (b : Ref sig .tc) (hb : b ≠ main_v50) : W6 m c (Proc.devRef .tc b) = W5 m c (Proc.devRef .tc b) := by
  by_cases h : ∃ w, Pipeline.arrRef spec1 w = b
  · obtain ⟨w, rfl⟩ := h
    rw [W6_arr]
    match w with
      | ⟨0, _⟩ => exact ((dat1 (V5 m) c).arrAt_in 0 rfl _).trans (A_eq1 (V5 m) c 0)
      | ⟨1, _⟩ => exact ((dat1 (V5 m) c).arrAt_in 1 rfl _).trans (A_eq1 (V5 m) c 1)
      | ⟨2, _⟩ => exact ((dat1 (V5 m) c).arrAt_in 2 rfl _).trans (A_eq1 (V5 m) c 2)
      | ⟨3, _⟩ => exact absurd rfl hb
  · exact W6_of_ne m c b fun w e => h ⟨w, e⟩

/-- Launch 2 changes no buffer but its output array `main_v65`: an input array ends as entered, and so does a buffer it bypasses. -/
theorem W8_keep (c : Dev nD) (b : Ref sig .tc) (hb : b ≠ main_v65) : W8 m c (Proc.devRef .tc b) = W7 m c (Proc.devRef .tc b) := by
  by_cases h : ∃ w, Pipeline.arrRef spec2 w = b
  · obtain ⟨w, rfl⟩ := h
    rw [W8_arr]
    match w with
      | ⟨0, _⟩ => exact ((dat2 (V7 m) c).arrAt_in 0 rfl _).trans (A_eq2 (V7 m) c 0)
      | ⟨1, _⟩ => exact ((dat2 (V7 m) c).arrAt_in 1 rfl _).trans (A_eq2 (V7 m) c 1)
      | ⟨2, _⟩ => exact absurd rfl hb
  · exact W8_of_ne m c b fun w e => h ⟨w, e⟩

/-- Launch 3 changes no buffer but its output array `main_v66`: an input array ends as entered, and so does a buffer it bypasses. -/
theorem W9_keep (c : Dev nD) (b : Ref sig .tc) (hb : b ≠ main_v66) : W9 m c (Proc.devRef .tc b) = W8 m c (Proc.devRef .tc b) := by
  by_cases h : ∃ w, Pipeline.arrRef spec3 w = b
  · obtain ⟨w, rfl⟩ := h
    rw [W9_arr]
    match w with
      | ⟨0, _⟩ => exact ((dat3 (V8 m) c).arrAt_in 0 rfl _).trans (A_eq3 (V8 m) c 0)
      | ⟨1, _⟩ => exact ((dat3 (V8 m) c).arrAt_in 1 rfl _).trans (A_eq3 (V8 m) c 1)
      | ⟨2, _⟩ => exact absurd rfl hb
  · exact W9_of_ne m c b fun w e => h ⟨w, e⟩

/-- A buffer that no segment writes ends as launched. -/
theorem W10_unwritten (c : Dev nD) (b : Ref sig .tc) (h0 : b ∉ hostOps0_W) (h01 : b ∉ hostOps0_1_W) (h02 : b ∉ hostOps0_2_W)
    (h1 : b ∉ hostOps1_W) (h2 : b ∉ hostOps2_W) (h4 : b ∉ hostOps4_W)
    (o0 : b ≠ main_v35) (o1 : b ≠ main_v50) (o2 : b ≠ main_v65) (o3 : b ≠ main_v66) :
    W10 m c (Proc.devRef .tc b) = m ((c : Thread nD τ).loc b) :=
  (W10_keep m c b h4).trans <| (W9_keep m c b o3).trans <| (W8_keep m c b o2).trans <| (W7_keep m c b h2).trans <|
    (W6_keep m c b o1).trans <| (W5_keep m c b h1).trans <| (W4_keep m c b o0).trans <| (W3_keep m c b h02).trans <|
    (W2_keep m c b h01).trans <| (W1_keep m c b h0).trans rfl

theorem W10_arg0 (c : Dev nD) : W10 m c (Proc.devRef .tc main_arg0) = m ((c : Thread nD τ).loc main_arg0) :=
  W10_unwritten m c main_arg0 (by decide) (by decide) (by decide) (by decide) (by decide) (by decide) (by decide) (by decide) (by decide) (by decide)
theorem W10_arg1 (c : Dev nD) : W10 m c (Proc.devRef .tc main_arg1) = m ((c : Thread nD τ).loc main_arg1) :=
  W10_unwritten m c main_arg1 (by decide) (by decide) (by decide) (by decide) (by decide) (by decide) (by decide) (by decide) (by decide) (by decide)
theorem W10_arg2 (c : Dev nD) : W10 m c (Proc.devRef .tc main_arg2) = m ((c : Thread nD τ).loc main_arg2) :=
  W10_unwritten m c main_arg2 (by decide) (by decide) (by decide) (by decide) (by decide) (by decide) (by decide) (by decide) (by decide) (by decide)
theorem W10_arg3 (c : Dev nD) : W10 m c (Proc.devRef .tc main_arg3) = m ((c : Thread nD τ).loc main_arg3) :=
  W10_unwritten m c main_arg3 (by decide) (by decide) (by decide) (by decide) (by decide) (by decide) (by decide) (by decide) (by decide) (by decide)
theorem W10_arg4 (c : Dev nD) : W10 m c (Proc.devRef .tc main_arg4) = m ((c : Thread nD τ).loc main_arg4) :=
  W10_unwritten m c main_arg4 (by decide) (by decide) (by decide) (by decide) (by decide) (by decide) (by decide) (by decide) (by decide) (by decide)
theorem W10_arg5 (c : Dev nD) : W10 m c (Proc.devRef .tc main_arg5) = m ((c : Thread nD τ).loc main_arg5) :=
  W10_unwritten m c main_arg5 (by decide) (by decide) (by decide) (by decide) (by decide) (by decide) (by decide) (by decide) (by decide) (by decide)
theorem W10_arg6 (c : Dev nD) : W10 m c (Proc.devRef .tc main_arg6) = m ((c : Thread nD τ).loc main_arg6) :=
  W10_unwritten m c main_arg6 (by decide) (by decide) (by decide) (by decide) (by decide) (by decide) (by decide) (by decide) (by decide) (by decide)
theorem W10_arg7 (c : Dev nD) : W10 m c (Proc.devRef .tc main_arg7) = m ((c : Thread nD τ).loc main_arg7) :=
  W10_unwritten m c main_arg7 (by decide) (by decide) (by decide) (by decide) (by decide) (by decide) (by decide) (by decide) (by decide) (by decide)

/-- THE FRAME: every weakly fair execution terminates, nothing faulting, and the argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (W10_arg0 m c), (h c _ (mem_uc main_arg1 (by decide))).trans (W10_arg1 m c),
     (h c _ (mem_uc main_arg2 (by decide))).trans (W10_arg2 m c), (h c _ (mem_uc main_arg3 (by decide))).trans (W10_arg3 m c),
     (h c _ (mem_uc main_arg4 (by decide))).trans (W10_arg4 m c), (h c _ (mem_uc main_arg5 (by decide))).trans (W10_arg5 m c),
     (h c _ (mem_uc main_arg6 (by decide))).trans (W10_arg6 m c), (h c _ (mem_uc main_arg7 (by decide))).trans (W10_arg7 m c)⟩)
    (run_main m ρ)

end Cert.Kernel.H

end
-- ==== Proof.KI.Reg0.lean ====
import proofs.«427723_j89670327206505_1_alg».proof.Proof.Gen.KernelIdeal.Launch
import proofs.«427723_j89670327206505_1_alg».proof.Proof.Gen.KernelIdeal.Skeleton
import proofs.«427723_j89670327206505_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The first launch: a block of rows times the weight matrix

At a grid point the body reads a block of 5000 rows of the node features and the whole 64 × 64 weight matrix, and
stores their matrix product into the output block. Stated at a parameter `V`, the contents of the buffers when the
launch is entered: what each staging buffer holds after the body, the body's triple, and the proof data of the
pipeline (the arrays as found, each input block left in place, the output block at the product).
-/

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows' staging buffer holds the point's block of rows, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The weights' staging buffer holds the whole matrix at every point: it is fetched once and its index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole 5000 × 64 block and the whole 64 × 64 matrix, as rectangles. -/
abbrev rRows0 : Rect S5000x64 := Rect.unit (s := S5000x64) ![0, 0] S5000x64.size inb_S5000x64_S5000x64_0_0
abbrev rMat0 : Rect S64x64 := Rect.unit (s := S64x64) ![0, 0] S64x64.size inb_S64x64_S64x64_0_0

/-- The output block after the body: its one store, the product of the block of rows and the matrix. -/
def out0_2 (x0 : Vec F S5000x64 .f32) (x1 : Vec F S64x64 .f32) : Vec F S5000x64 .f32 :=
  View.canon [⟨rRows0, k0_pay1 (View.ld x0 rRows0) (View.ld x1 rMat0)⟩]

/-- The one store covers the output block. -/
theorem cover0_2 (p0 : Vec F S5000x64 .f32) (y : S5000x64.Idx) :
    ∃ pc ∈ ([⟨rRows0, p0⟩] : List (View.Piece (Elt F) S5000x64 .f32)), y ∈ pc.1.set :=
  View.cover_of_tiled [⟨rRows0, p0⟩] S5000x64.size (by rfl) y

set_option maxHeartbeats 1000000 in
/-- The body on whole staging buffers, the inputs at `x0`, `x1` and the output at anything, runs to the end with the
    inputs as they were and the output at `out0_2 x0 x1`. -/
theorem sound_kernel0 (c : Dev nD) (E : Set ℕ) (i : grid0.Coords) (arg1 : Memref sig .tc .vmem S5000x64 .f32) (harg1 : arg1.IsWhole) (arg2 : Memref sig .tc .vmem S64x64 .f32) (harg2 : arg2.IsWhole) (arg3 : Memref sig .tc .vmem S5000x64 .f32) (harg3 : arg3.IsWhole)
    (x0 : Vec F S5000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the first pipeline on core `c`: the arrays as found; after the body each input's buffer at its
    block and the output's at the product of the two blocks; the invariant the scoped rest and the generator register,
    untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the first pipeline, at every point. -/
theorem body_obligation0 (c : Dev nD) : BodyObligation (dat0 (F := F) V c) (defs₀ (F := F)) Variants.none () Set.univ := fun t => by
  rw [bigSep_W0, bigSep_W0]
  exact sound_body0 V c t

end Cert.KernelIdeal.H

end
-- ==== Proof.KI.Reg1.lean ====
import proofs.«427723_j89670327206505_1_alg».proof.Proof.Gen.KernelIdeal.Launch
import proofs.«427723_j89670327206505_1_alg».proof.Proof.Gen.KernelIdeal.Skeleton
import proofs.«427723_j89670327206505_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The second launch: a block of rows plus the bias row, clamped at zero, times the weight matrix

At a grid point the body reads a block of 5000 rows of the first aggregation, the 1 × 64 bias row and the whole 64 × 64
weight matrix; it adds the row to every row of the block, takes the maximum with zero, multiplies by the matrix and
stores the product into the output block. Stated at a parameter `V`, the contents of the buffers when the launch is
entered: what each staging buffer holds after the body, the body's triple, and the proof data of the pipeline.
-/

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The rows' staging buffer holds the point's block of rows, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The bias row's staging buffer holds the whole row at every point: it is fetched once and its index never moves. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The weights' staging buffer holds the whole matrix at every point, likewise. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole 5000 × 64 block, the whole 1 × 64 bias row and the whole 64 × 64 matrix, as rectangles. -/
abbrev rRows1 : Rect S5000x64 := Rect.unit (s := S5000x64) ![0, 0] S5000x64.size inb_S5000x64_S5000x64_0_0
abbrev rBias1 : Rect S1x64 := Rect.unit (s := S1x64) ![0, 0] S1x64.size inb_S1x64_S1x64_0_0
abbrev rMat1 : Rect S64x64 := Rect.unit (s := S64x64) ![0, 0] S64x64.size inb_S64x64_S64x64_0_0

/-- The output block after the body: its one store, the clamped sum of the block of rows and the bias row, times the matrix. -/
def out1_3 (x0 : Vec F S5000x64 .f32) (x1 : Vec F S1x64 .f32) (x2 : Vec F S64x64 .f32) : Vec F S5000x64 .f32 :=
  View.canon [⟨rRows1, k1_pay1 (View.ld x0 rRows1) (View.ld x1 rBias1) (View.ld x2 rMat1)⟩]

/-- The one store covers the output block. -/
theorem cover1_3 (p0 : Vec F S5000x64 .f32) (y : S5000x64.Idx) :
    ∃ pc ∈ ([⟨rRows1, p0⟩] : List (View.Piece (Elt F) S5000x64 .f32)), y ∈ pc.1.set :=
  View.cover_of_tiled [⟨rRows1, p0⟩] S5000x64.size (by rfl) y

set_option maxHeartbeats 1000000 in
/-- The body on whole staging buffers, the inputs at `x0`, `x1`, `x2` and the output at anything, runs to the end with the
    inputs as they were and the output at `out1_3 x0 x1 x2`. -/
theorem sound_kernel1 (c : Dev nD) (E : Set ℕ) (i : grid1.Coords) (arg1 : Memref sig .tc .vmem S5000x64 .f32) (harg1 : arg1.IsWhole) (arg2 : Memref sig .tc .vmem S1x64 .f32) (harg2 : arg2.IsWhole) (arg3 : Memref sig .tc .vmem S64x64 .f32) (harg3 : arg3.IsWhole) (arg4 : Memref sig .tc .vmem S5000x64 .f32) (harg4 : arg4.IsWhole)
    (x0 : Vec F S5000x64 .f32) (x1 : Vec F S1x64 .f32) (x2 : Vec F S64x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__bias_relu_matmul_kernel i arg1 harg1 arg2 harg2 arg3 harg3 arg4 harg4) K := by
  simp only [cc1__bias_relu_matmul_kernel_eq_skeleton]; unfold cc1__bias_relu_matmul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of the second pipeline on core `c`: the arrays as found; after the body each input's buffer at its
    block and the output's at the product of the clamped sum with the matrix; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the second pipeline, at every point. -/
theorem body_obligation1 (c : Dev nD) : BodyObligation (dat1 (F := F) V c) (defs₀ (F := F)) Variants.none () Set.univ := fun t => by
  rw [bigSep_W1, bigSep_W1]
  exact sound_body1 V c t

end Cert.KernelIdeal.H

end
-- ==== Proof.KI.Reg2.lean ====
import proofs.«427723_j89670327206505_1_alg».proof.Proof.Gen.KernelIdeal.Launch
import proofs.«427723_j89670327206505_1_alg».proof.Proof.Gen.KernelIdeal.Skeleton
import proofs.«427723_j89670327206505_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The third launch: a block of rows plus the bias row, clamped at zero

At a grid point the body reads a block of 5000 rows of the second aggregation and the 1 × 64 bias row, adds the row to
every row of the block and takes the maximum with zero, and stores that into the output block. Stated at a parameter
`V`, the contents of the buffers when the launch is entered: what each staging buffer holds after the body, the body's
triple, and the proof data of the pipeline.
-/

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The rows' staging buffer holds the point's block of rows, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The bias row's staging buffer holds the whole row at every point: it is fetched once and its index never moves. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The whole 5000 × 64 block and the whole 1 × 64 bias row, as rectangles. -/
abbrev rRows2 : Rect S5000x64 := Rect.unit (s := S5000x64) ![0, 0] S5000x64.size inb_S5000x64_S5000x64_0_0
abbrev rBias2 : Rect S1x64 := Rect.unit (s := S1x64) ![0, 0] S1x64.size inb_S1x64_S1x64_0_0

/-- The output block after the body: its one store, the block of rows plus the bias row, clamped at zero. -/
def out2_2 (x0 : Vec F S5000x64 .f32) (x1 : Vec F S1x64 .f32) : Vec F S5000x64 .f32 :=
  View.canon [⟨rRows2, k2_pay1 (View.ld x0 rRows2) (View.ld x1 rBias2)⟩]

/-- The one store covers the output block. -/
theorem cover2_2 (p0 : Vec F S5000x64 .f32) (y : S5000x64.Idx) :
    ∃ pc ∈ ([⟨rRows2, p0⟩] : List (View.Piece (Elt F) S5000x64 .f32)), y ∈ pc.1.set :=
  View.cover_of_tiled [⟨rRows2, p0⟩] S5000x64.size (by rfl) y

set_option maxHeartbeats 1000000 in
/-- The body on whole staging buffers, the inputs at `x0`, `x1` and the output at anything, runs to the end with the
    inputs as they were and the output at `out2_2 x0 x1`. -/
theorem sound_kernel2 (c : Dev nD) (E : Set ℕ) (i : grid2.Coords) (arg1 : Memref sig .tc .vmem S5000x64 .f32) (harg1 : arg1.IsWhole) (arg2 : Memref sig .tc .vmem S1x64 .f32) (harg2 : arg2.IsWhole) (arg3 : Memref sig .tc .vmem S5000x64 .f32) (harg3 : arg3.IsWhole)
    (x0 : Vec F S5000x64 .f32) (x1 : Vec F S1x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__bias_relu_kernel i arg1 harg1 arg2 harg2 arg3 harg3) K := by
  simp only [cc2__bias_relu_kernel_eq_skeleton]; unfold cc2__bias_relu_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data of the third pipeline on core `c`: the arrays as found; after the body each input's buffer at its
    block and the output's at the clamped sum of the two blocks; the invariant the scoped rest and the generator register,
    untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the third pipeline, at every point. -/
theorem body_obligation2 (c : Dev nD) : BodyObligation (dat2 (F := F) V c) (defs₀ (F := F)) Variants.none () Set.univ := fun t => by
  rw [bigSep_W2, bigSep_W2]
  exact sound_body2 V c t

end Cert.KernelIdeal.H

end
-- ==== Proof.KI.Reg3.lean ====
import proofs.«427723_j89670327206505_1_alg».proof.Proof.Gen.KernelIdeal.Launch
import proofs.«427723_j89670327206505_1_alg».proof.Proof.Gen.KernelIdeal.Skeleton
import proofs.«427723_j89670327206505_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-!
# The fourth launch: per-graph sums accumulated over the blocks of rows

At a grid point the body reads a block of 5000 rows of node features and the block's 5000 graph ids. At the first point
it first clears a 128 × 64 accumulator that it keeps in a buffer of its own between points. At every point it adds to
the accumulator, for each graph id `g` in `0 … 127`, the sum of the block's rows whose id is `g` (a product with the
0/1 matrix "row `r` has id `g`"). At the last point it copies the accumulator into the output block, which is written
back there and nowhere else. Stated at a parameter `V`, the contents of the buffers when the launch is entered: the
accumulator after each point, by recursion on the point; the proof data; the body obligation.
-/

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The cleared accumulator. -/
def zero3 : Vec F S128x64 .f32 := k3_pay1

/-- One point's update: the accumulator `acc` plus, per graph id, the sum of the rows of `rows` whose id in `ids` is it. -/
def step3 (ids : Vec F S5000x1 .i32) (rows : Vec F S5000x64 .f32) (acc : Vec F S128x64 .f32) : Vec F S128x64 .f32 :=
  k3_pay2 ids rows acc

/-- THE ACCUMULATION. What the accumulator holds after the body at point `n`: cleared and updated once at the first
    point, then what the point before left, updated with this point's blocks. -/
def accAt3 (c : Dev nD) : (n : ℕ) → n < cfg3.N → Vec F S128x64 .f32
  | 0, hn => step3 (iblk3 V c 1 ⟨0, hn⟩) (iblk3 V c 0 ⟨0, hn⟩) zero3
  | n + 1, hn => step3 (iblk3 V c 1 ⟨n + 1, hn⟩) (iblk3 V c 0 ⟨n + 1, hn⟩) (accAt3 c n (Nat.lt_of_succ_lt hn))

theorem accAt3_zero (c : Dev nD) (h0 : 0 < cfg3.N) :
    accAt3 V c 0 h0 = step3 (iblk3 V c 1 ⟨0, h0⟩) (iblk3 V c 0 ⟨0, h0⟩) zero3 := rfl
theorem accAt3_succ (c : Dev nD) (n : ℕ) (hn : n + 1 < cfg3.N) :
    accAt3 V c (n + 1) hn = step3 (iblk3 V c 1 ⟨n + 1, hn⟩) (iblk3 V c 0 ⟨n + 1, hn⟩) (accAt3 V c n (Nat.lt_of_succ_lt hn)) := rfl

/-- The accumulator's buffer, whole. -/
abbrev scM3 : Memref sig .tc .vmem S128x64 .f32 := Memref.whole cc3_scratch0

/-- The staging buffers of the other three launches, each whole at some contents: they ride through this launch untouched. -/
def others3 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg2_1), ((c : Thread nD τ).loc cc2_stg2_1) ↦{fullShare} f))

/-- The launch's invariant before position `n`: before the first point every scoped buffer at anything and the
    generator register at some state; afterwards the same with the accumulator at what the point before left in it. -/
def PhiS3 (c : Dev nD) : (n : ℕ) → n ≤ cfg3.N → sProp 𝕄
  | 0, _ => Pipeline.ΦA spec3 c
  | n + 1, hn => iprop(others3 c ∗ owns (c : Thread nD τ) scM3 fullShare (accAt3 V c n hn) ∗ (∃ r, prngReg c r))

/-- The proof data of the fourth pipeline on core `c`: the arrays as found; after the body each input's buffer at its
    block and the output's at the accumulator (it is stored at the last point only, and consulted only there); the
    invariant `PhiS3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => accAt3 V c t.val t.isLt
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = accAt3 V c t.val t.isLt := by dsimp only [dat3]

/-! ## The two conditionals of the body, over the grid -/

/-- The condition of the body's first conditional: the point is the first along the grid. -/
abbrev cond3_0 (i : grid3.Coords) : Prop := Scalar.cmpi .ne (Scalar.extui (Scalar.cmpi .eq (BitVec.ofNat 32 (i 0).val) 0#32)) 0#32 = 1#1
/-- The condition of its second: the point is the last. -/
abbrev cond3_1 (i : grid3.Coords) : Prop := k3_cond2 i = 1#1

/-- The first holds at point 0 only, -/
theorem hcond3_0 : ∀ t : Fin cfg3.N, cond3_0 (grid3.coords t) ↔ t.val % 20 = 0 :=
  (by decide +kernel : ∀ t : Fin grid3.N, cond3_0 (grid3.coords t) ↔ t.val % 20 = 0)
/-- the second at point 19 only. -/
theorem hcond3_1 : ∀ t : Fin cfg3.N, cond3_1 (grid3.coords t) ↔ t.val % 20 = 19 :=
  (by decide +kernel : ∀ t : Fin grid3.N, cond3_1 (grid3.coords t) ↔ t.val % 20 = 19)

/-! ## The body on whole buffers, case by case -/

/-- The two zero offsets of a whole rectangle of a matrix, as a constant function. -/
theorem zeroOff3 : (![0, 0] : Fin 2 → Nat) = fun _ => 0 := funext fun a => by fin_cases a <;> rfl

/-- A 128 × 64 buffer whose last store went through its whole rectangle reads as the block stored, whatever was
    stored before. -/
theorem read_stored3 {κ : Kind} {sp : Space} (v : View sig κ sp S128x64 .f32) (f : v.ty.Contents (Elt F)) (w : Vec F S128x64 .f32)
    (L : List (View.Piece (Elt F) S128x64 .f32)) :
    v.read (Elt F) (v.writes (Elt F) f (⟨Rect.unit (s := S128x64) ![0, 0] S128x64.size inb_S128x64_S128x64_0_0, w⟩ :: L)) = w := by
  rw [View.read_writes_eq_canon _ _ _ (fun y => ⟨_, List.mem_cons_self, View.mem_set_unit_zero zeroOff3 inb_S128x64_S128x64_0_0 y⟩),
    View.canon_cons_unit_zero (S := S128x64) zeroOff3]

/-- The update's payload over loads through the whole rectangles is `step3` of the buffers' contents. -/
theorem pay_loads3 {κ : Kind} {sp : Space} (v1 : View sig κ sp S5000x64 .f32) (v2 : View sig κ sp S5000x1 .i32) (f0 : v1.ty.Contents (Elt F)) (f1 : v2.ty.Contents (Elt F))
    (acc : Vec F S128x64 .f32) :
    k3_pay2 (View.readAt (Elt F) v2 (Rect.unit (s := S5000x1) ![0, 0] S5000x1.size inb_S5000x1_S5000x1_0_0).toLoadRect f1)
        (View.readAt (Elt F) v1 (Rect.unit (s := S5000x64) ![0, 0] S5000x64.size inb_S5000x64_S5000x64_0_0).toLoadRect f0) acc
      = step3 (v2.read (Elt F) f1) (v1.read (Elt F) f0) acc := by
  simp only [View.readAt_eq_ld, View.ld_unit_zero (S := S5000x64) zeroOff3, View.ld_unit_zero (S := S5000x1) zeroOff3]
  rfl

set_option maxHeartbeats 1000000 in
/-- FIRST POINT. The accumulator, at anything, is cleared and then updated with the point's blocks; the output's buffer
    is handed back as found. -/
theorem sound_kernel3_first (c : Dev nD) (E : Set ℕ) (i : grid3.Coords) (arg1 : Memref sig .tc .vmem S5000x64 .f32) (harg1 : arg1.IsWhole) (arg2 : Memref sig .tc .vmem S5000x1 .i32) (harg2 : arg2.IsWhole) (arg3 : Memref sig .tc .vmem S128x64 .f32) (harg3 : arg3.IsWhole) (arg4 : Memref sig .tc .vmem S128x64 .f32) (harg4 : arg4.IsWhole)
    (h1 : cond3_0 i) (h2 : ¬ cond3_1 i)
    (x0 : Vec F S5000x64 .f32) (x1 : Vec F S5000x1 .i32) (x2 : Vec F S128x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (step3 x1 x0 zero3)) -∗ K ⟨⟩))
      ⊢ wp frame (wpE (defs₀ (F := F)) Variants.none c none) E (cc3__pool_kernel i arg1 harg1 arg2 harg2 arg3 harg3 arg4 harg4) K := by
  simp only [cc3__pool_kernel_eq_skeleton]; unfold cc3__pool_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [read_stored3]
  sl_unfold_words
  rw [View.readCov_unit_zero (S := S128x64) _ zeroOff3, pay_loads3]
  rfl

set_option maxHeartbeats 1000000 in
/-- A MIDDLE POINT. The accumulator, at `acc`, is updated with the point's blocks; the output's buffer is handed back
    as found. -/
theorem sound_kernel3_mid (c : Dev nD) (E : Set ℕ) (i : grid3.Coords) (arg1 : Memref sig .tc .vmem S5000x64 .f32) (harg1 : arg1.IsWhole) (arg2 : Memref sig .tc .vmem S5000x1 .i32) (harg2 : arg2.IsWhole) (arg3 : Memref sig .tc .vmem S128x64 .f32) (harg3 : arg3.IsWhole) (arg4 : Memref sig .tc .vmem S128x64 .f32) (harg4 : arg4.IsWhole)
    (h1 : ¬ cond3_0 i) (h2 : ¬ cond3_1 i)
    (x0 : Vec F S5000x64 .f32) (x1 : Vec F S5000x1 .i32) (x2 : Vec F S128x64 .f32) (acc : Vec F S128x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare acc
        ∗ (iprop(owns (c : Thread nD τ) arg1 fullShare x0 ∗ owns (c : Thread nD τ) arg2 fullShare x1 ∗ owns (c : Thread nD τ) arg3 fullShare x2 ∗ owns (c : Thread nD τ) arg4 fullShare (step3 x1 x0 acc)) -∗ K ⟨⟩))
      ⊢ wp frame (wpE (defs₀ (F := F)) Variants.none c none) E (cc3__pool_kernel i arg1 harg1 arg2 harg2 arg3 harg3 arg4 harg4) K := by
  simp only [cc3__pool_kernel_eq_skeleton]; unfold cc3__pool_kernel_skel
  unfold owns
  iintro ⟨⟨%f0, %hf0, H0⟩, ⟨%f1, %hf1, H1⟩, ⟨%f2, %hf2, H2⟩, ⟨%f3, %hf3, H3⟩, Hk⟩
  subst hf0 hf1 hf2 hf3
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [read_stored3, pay_loads3, View.readAt_eq_ld, View.ld_unit_zero (S := S128x64) zeroOff3]

set_option maxHeartbeats 1000000 in
/-- THE LAST POINT. The accumulator, at `acc`, is updated with the point's blocks and then copied into the output's
    buffer, found at anything. -/
theorem sound_kernel3_last (c : Dev nD) (E : Set ℕ) (i : grid3.Coords) (arg1 : Memref sig .tc .vmem S5000x64 .f32) (harg1 : arg1.IsWhole) (arg2 : Memref sig .tc .vmem S5000x1 .i32) (harg2 : arg2.IsWhole) (arg3 : Memref sig .tc .vmem S128x64 .f32) (harg3 : arg3.IsWhole) (arg4 : Memref sig .tc .vmem S128x64 .f32) (harg4 : arg4.IsWhole)
    (h1 : ¬ cond3_0 i) (h2 : cond3_1 i)
    (x0 : Vec F S5000x64 .f32) (x1 : Vec F S5000x1 .i32) (acc : Vec F S128x64 .f32) (K : PUnit → sProp 𝕄) :
    iprop(owns (c : Thread nD τ) arg1 fullShare x0 ∗ owns (c : Thread nD τ) arg2 fullShare x1 ∗ (∃ d, owns (c : Thread nD τ) arg3 fullShare d) ∗ owns (c : Thread nD τ) arg4 fullShare acc
        ∗ (iprop(owns (c : Thread nD τ) arg1 fullShare x0 ∗ owns (c : Thread nD τ) arg2 fullShare x1 ∗ owns (c : Thread nD τ) arg3 fullShare (step3 x1 x0 acc) ∗ owns (c : Thread nD τ) arg4 fullShare (step3 x1 x0 acc)) -∗ K ⟨⟩))
      ⊢ wp frame (wpE (defs₀ (F := F)) Variants.none c none) E (cc3__pool_kernel i arg1 harg1 arg2 harg2 arg3 harg3 arg4 harg4) K := by
  simp only [cc3__pool_kernel_eq_skeleton]; unfold cc3__pool_kernel_skel
  unfold owns
  iintro ⟨⟨%f0, %hf0, H0⟩, ⟨%f1, %hf1, H1⟩, ⟨%d2, %f2, -, H2⟩, ⟨%f3, %hf3, H3⟩, Hk⟩
  subst hf0 hf1 hf3
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    rw [read_stored3]
    sl_unfold_words
    rw [View.readCov_unit_zero (S := S128x64) _ zeroOff3, pay_loads3, View.readAt_eq_ld, View.ld_unit_zero (S := S128x64) zeroOff3]
  iexists _; isplitr
  swap; · iexact H3
  ipureintro
  sl_unfold_words
  rw [read_stored3, pay_loads3, View.readAt_eq_ld, View.ld_unit_zero (S := S128x64) zeroOff3]

/-! ## Where the windows are idle, over the grid -/

/-- The two inputs are never idle. -/
theorem liveAt3_0 : ∀ t : Fin cfg3.N, cfg3.idle 0 (grid3.coords t) = false := by decide +kernel
theorem liveAt3_1 : ∀ t : Fin cfg3.N, cfg3.idle 1 (grid3.coords t) = false := by decide +kernel
/-- The output is idle, and not written back, at every point but the last; -/
theorem idleAt3_2 : ∀ t : Fin cfg3.N, ¬cond3_1 (grid3.coords t) → cfg3.idle 2 (grid3.coords t) = true := by decide +kernel
theorem noFlush3_2 : ∀ t : Fin cfg3.N, ¬cond3_1 (grid3.coords t) → (cfg3.win 2).flush t = false := by decide +kernel
/-- at the last it is live. -/
theorem liveAt3_2 : ∀ t : Fin cfg3.N, cond3_1 (grid3.coords t) → cfg3.idle 2 (grid3.coords t) = false := by decide +kernel

/-! ## The inputs' buffers at a point -/

/-- The rows' staging buffer holds the point's block of rows, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- The ids' staging buffer holds the point's block of ids, fetched there or not. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The invariant, point by point -/

/-- What the launch hands the pipeline, with the accumulator's buffer apart from the other launches' staging buffers. -/
theorem PhiA3_split (c : Dev nD) :
    (Pipeline.ΦA spec3 c : sProp 𝕄) ⊢ iprop(others3 c ∗ (∃ d, owns (c : Thread nD τ) scM3 fullShare d) ∗ (∃ r, prngReg c r)) := by
  unfold Pipeline.ΦA others3; rw [scopedRest3_eq]; simp only [scM3, owns_whole]
  iintro ⟨⟨H1, H2, H3, H4, H5, H6, H7, H8, H9, H10, H11, H12, H13, H14, H15, H16, HS⟩, Hg⟩
  isplitl [H1 H2 H3 H4 H5 H6 H7 H8 H9 H10 H11 H12 H13 H14 H15 H16]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  isplitl [HS]; · iexact HS
  iexact Hg

/-- And back. -/
theorem PhiA3_join (c : Dev nD) :
    iprop(others3 c ∗ (∃ d, owns (c : Thread nD τ) scM3 fullShare d) ∗ (∃ r, prngReg c r)) ⊢ (Pipeline.ΦA spec3 c : sProp 𝕄) := by
  unfold Pipeline.ΦA others3; rw [scopedRest3_eq]; simp only [scM3, owns_whole]
  iintro ⟨⟨H1, H2, H3, H4, H5, H6, H7, H8, H9, H10, H11, H12, H13, H14, H15, H16⟩, HS, Hg⟩
  isplitr [Hg]
  swap; · iexact Hg
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact HS

theorem PhiS3_zero (c : Dev nD) (n : ℕ) (h : n ≤ cfg3.N) (hz : n = 0) : PhiS3 V c n h = Pipeline.ΦA spec3 c := by
  subst hz; rfl

/-- After point `n`: the accumulator at that point's contents. -/
theorem PhiS3_succ (c : Dev nD) (n : ℕ) (hn : n < cfg3.N) :
    PhiS3 V c (n + 1) hn = iprop(others3 c ∗ owns (c : Thread nD τ) scM3 fullShare (accAt3 V c n hn) ∗ (∃ r, prngReg c r)) := rfl

/-- Before a point that is not the first: the accumulator at what the point before left. -/
theorem PhiS3_pos (c : Dev nD) (n : ℕ) (h : n ≤ cfg3.N) (hz : n ≠ 0) :
    PhiS3 V c n h = iprop(others3 c ∗ owns (c : Thread nD τ) scM3 fullShare (accAt3 V c (n - 1) (by omega)) ∗ (∃ r, prngReg c r)) := by
  cases n with
  | zero => exact absurd rfl hz
  | succ n => rfl

/-- The invariant at a point's start, restated at the point's number. -/
theorem PhiS3_castSucc (c : Dev nD) (t : Fin cfg3.N) :
    (dat3 V c).Φ t.castSucc = PhiS3 V c t.val (Nat.le_of_lt t.isLt) := by
  dsimp only [dat3]; simp only [Fin.coe_castSucc]

/-- The accumulator after the first point: the cleared one, updated. -/
theorem accAt3_first (c : Dev nD) (t : Fin cfg3.N) (hz : t.val = 0) :
    accAt3 V c t.val t.isLt = step3 (iblk3 V c 1 t) (iblk3 V c 0 t) zero3 := by
  obtain ⟨n, hn⟩ := t
  cases n with
  | zero => rfl
  | succ n => exact absurd hz (Nat.succ_ne_zero n)

/-- The accumulator after a later point: what the point before left, updated. -/
theorem accAt3_later (c : Dev nD) (t : Fin cfg3.N) (hz : t.val ≠ 0) :
    accAt3 V c t.val t.isLt = step3 (iblk3 V c 1 t) (iblk3 V c 0 t) (accAt3 V c (t.val - 1) (Nat.lt_of_le_of_lt (Nat.sub_le _ _) t.isLt)) := by
  obtain ⟨n, hn⟩ := t
  cases n with
  | zero => exact absurd rfl hz
  | succ n => rfl

/-! ## The body obligation -/

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns: the output's buffer as found where the window is idle, at the accumulator at the last point. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 4000000 in
/-- The body at any point. The inputs' buffers hold their blocks; the closed forms of the two conditions say which of
    the three cases the point is in; the invariant hands the body the accumulator (at anything at the first point, at
    what the point before left afterwards) and takes it back at this point's contents; the other launches' buffers, the
    generator register and the core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (st3_0 t) fullShare ((dat3 V c).after 0 t) from by
    unfold Dat.leavesExact; rw [liveAt3_0 t], after3_0]
  rw [show (dat3 V c).leavesExact 1 t = owns (c : Thread nD τ) (st3_1 t) fullShare ((dat3 V c).after 1 t) from by
    unfold Dat.leavesExact; rw [liveAt3_1 t], after3_1]
  have hN : t.val < 20 := lt_of_lt_of_eq t.isLt (show cfg3.N = 20 from N_3)
  by_cases h0 : t.val % 20 = 0
  · have hz : t.val = 0 := by omega
    have h1 : ¬ t.val % 20 = 19 := by omega
    have hc0 : cond3_0 (grid3.coords t) := (hcond3_0 t).mpr h0
    have hc1 : ¬ cond3_1 (grid3.coords t) := fun h => h1 ((hcond3_1 t).mp h)
    rw [Dat.leavesExact_idle (dat3 V c) 2 t (idleAt3_2 t hc1) (noFlush3_2 t hc1)]
    rw [accAt3_first V c t hz, PhiS3_castSucc V c t, PhiS3_zero V c _ _ hz]
    iintro ⟨HΦ, Ho, ⟨%d0, H0⟩, ⟨%d1, H1⟩, ⟨%d2, H2⟩⟩
    ihave HΦ' := (PhiA3_split c) $$ HΦ
    icases HΦ' with ⟨Hoth, HS, Hg⟩
    iapply (sound_kernel3_first c Set.univ (grid3.coords t) _ _ _ _ _ _ _ _ hc0 hc1 (iblk3 V c 0 t) (iblk3 V c 1 t) _ _)
    isplitl [H0]; · iexact H0
    isplitl [H1]; · iexact H1
    isplitl [H2]; · iexact H2
    isplitl [HS]; · iexact HS
    iintro ⟨H0, H1, H2, HS⟩
    isplitl [Hoth HS Hg]
    · isplitl [Hoth]; · iexact Hoth
      isplitl [HS]; · iexact HS
      iexact Hg
    isplitl [Ho]; · iexact Ho
    isplitl [H0]; · iexact H0
    isplitl [H1]; · iexact H1
    iexists _; iexact H2
  · have hz : t.val ≠ 0 := by omega
    have hc0 : ¬ cond3_0 (grid3.coords t) := fun h => h0 ((hcond3_0 t).mp h)
    by_cases h1 : t.val % 20 = 19
    · have hc1 : cond3_1 (grid3.coords t) := (hcond3_1 t).mpr h1
      rw [show (dat3 V c).leavesExact 2 t = owns (c : Thread nD τ) (st3_2 t) fullShare ((dat3 V c).after 2 t) from by
        unfold Dat.leavesExact; rw [liveAt3_2 t hc1], after3_2]
      rw [accAt3_later V c t hz, PhiS3_castSucc V c t, PhiS3_pos V c _ _ hz]
      iintro ⟨⟨Hoth, HS, Hg⟩, Ho, ⟨%d0, H0⟩, ⟨%d1, H1⟩, ⟨%d2, H2⟩⟩
      iapply (sound_kernel3_last c Set.univ (grid3.coords t) _ _ _ _ _ _ _ _ hc0 hc1 (iblk3 V c 0 t) (iblk3 V c 1 t) _ _)
      isplitl [H0]; · iexact H0
      isplitl [H1]; · iexact H1
      isplitl [H2]; · iexists _; iexact H2
      isplitl [HS]; · iexact HS
      iintro ⟨H0, H1, H2, HS⟩
      isplitl [Hoth HS Hg]
      · isplitl [Hoth]; · iexact Hoth
        isplitl [HS]; · iexact HS
        iexact Hg
      isplitl [Ho]; · iexact Ho
      isplitl [H0]; · iexact H0
      isplitl [H1]; · iexact H1
      iexact H2
    · have hc1 : ¬ cond3_1 (grid3.coords t) := fun h => h1 ((hcond3_1 t).mp h)
      rw [Dat.leavesExact_idle (dat3 V c) 2 t (idleAt3_2 t hc1) (noFlush3_2 t hc1)]
      rw [accAt3_later V c t hz, PhiS3_castSucc V c t, PhiS3_pos V c _ _ hz]
      iintro ⟨⟨Hoth, HS, Hg⟩, Ho, ⟨%d0, H0⟩, ⟨%d1, H1⟩, ⟨%d2, H2⟩⟩
      iapply (sound_kernel3_mid c Set.univ (grid3.coords t) _ _ _ _ _ _ _ _ hc0 hc1 (iblk3 V c 0 t) (iblk3 V c 1 t) _ _ _)
      isplitl [H0]; · iexact H0
      isplitl [H1]; · iexact H1
      isplitl [H2]; · iexact H2
      isplitl [HS]; · iexact HS
      iintro ⟨H0, H1, H2, HS⟩
      isplitl [Hoth HS Hg]
      · isplitl [Hoth]; · iexact Hoth
        isplitl [HS]; · iexact HS
        iexact Hg
      isplitl [Ho]; · iexact Ho
      isplitl [H0]; · iexact H0
      isplitl [H1]; · iexact H1
      iexists _; iexact H2

/-- The body obligation of the fourth pipeline, at every point. -/
theorem body_obligation3 (c : Dev nD) : BodyObligation (dat3 (F := F) V c) (defs₀ (F := F)) Variants.none () Set.univ := fun t => by
  rw [bigSep_W3, bigSep_W3]
  exact sound_body3 V c t

/-- What the launch hands the pipeline is the invariant before the first point. -/
theorem hin3 (c : Dev nD) : (Pipeline.ΦA spec3 c : sProp 𝕄) ⊢ (dat3 V c).Φ 0 := by
  rw [show (dat3 V c).Φ 0 = PhiS3 V c 0 (Nat.zero_le _) from rfl, PhiS3_zero V c 0 _ rfl]
  try exact Idealize.SL.BI.Entails.refl _

/-- After the last point the invariant gives the scoped buffers and the generator register back: what the accumulator
    holds is forgotten. -/
theorem hout3 (c : Dev nD) : (dat3 V c).Φ (Fin.last cfg3.N) ⊢ (Pipeline.ΦA spec3 c : sProp 𝕄) := by
  have hN : cfg3.N = 20 := N_3
  rw [show (dat3 V c).Φ (Fin.last cfg3.N) = PhiS3 V c (Fin.last cfg3.N).val (Nat.le_of_lt_succ (Fin.last cfg3.N).isLt) from rfl,
    PhiS3_pos V c _ _ (by rw [Fin.val_last]; omega)]
  iintro ⟨Hoth, HS, Hg⟩
  iapply (PhiA3_join c)
  isplitl [Hoth]; · iexact Hoth
  isplitl [HS]; · iexists _; iexact HS
  iexact Hg

end Cert.KernelIdeal.H

end
-- ==== Proof.KI.Run.lean ====
import proofs.«427723_j89670327206505_1_alg».proof.Proof.KI.Reg0
import proofs.«427723_j89670327206505_1_alg».proof.Proof.KI.Reg1
import proofs.«427723_j89670327206505_1_alg».proof.Proof.KI.Reg2
import proofs.«427723_j89670327206505_1_alg».proof.Proof.KI.Reg3
import proofs.«427723_j89670327206505_1_alg».proof.Proof.Gen.KernelIdeal.Regions

/-!
# The run of the whole program

The program is ten segments in a row: three stretches of host operations, the first launch, a stretch, the second
launch, a stretch, the third and the fourth launch, a last stretch. Between two segments every unscoped buffer is held
whole at contents named here by a fold from the launch memory: a stretch's operations applied in order; a launch's
arrays at what its write-backs leave, every other buffer as entered. The run ends with every unscoped buffer at the
last contents of the fold; the argument arrays and the two results are then read off the fold.
-/

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

/-- Core `c`'s buffers at launch. -/
abbrev W0 : Dev nD → Valuation τ sig (Elt F) := fun c b => m (c, b)
/-- After the first, the second and the third stretch of host operations. -/
abbrev W1 : Dev nD → Valuation τ sig (Elt F) := fun c => StableHlo.after hostOps0 (W0 m c)
abbrev W2 : Dev nD → Valuation τ sig (Elt F) := fun c => StableHlo.after hostOps0_1 (W1 m c)
abbrev W3 : Dev nD → Valuation τ sig (Elt F) := fun c => StableHlo.after hostOps0_2 (W2 m c)
abbrev V3 : (c : Dev nD) → (b : Ref sig .tc) → Buf (Elt F) ((c : Thread nD τ).loc b) := fun c b => W3 m c b

/-- At launch 0's exit: its arrays at what the pipeline leaves (the inputs as entered, the output's write-backs
    folded), every other buffer as entered. -/
def W4 (c : Dev nD) : Valuation τ sig (Elt F) :=
  Pipeline.withArrays spec0 c (W3 m c) fun w => (dat0 (V3 m) c).arrAt w cfg0.N
theorem W4_arr (c : Dev nD) (w : Fin cfg0.W) :
    W4 m c (Proc.devRef .tc (Pipeline.arrRef spec0 w)) = (dat0 (V3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
/-- The same read at the TensorCore's references. -/
abbrev V4 : (c : Dev nD) → (b : Ref sig .tc) → Buf (Elt F) ((c : Thread nD τ).loc b) := fun c b => W4 m c b
theorem hF0 (c : Dev nD) (w : Fin cfg0.W) : (dat0 (V3 m) c).arrAt w cfg0.N = V4 m c (Pipeline.arrRef spec0 w) :=
  (W4_arr m c w).symm
theorem hrest0 (c : Dev nD) : ∀ b, b ∉ Finset.univ.image (Pipeline.arrRef spec0) → V4 m c b = V3 m c b :=
  fun b hb => W4_of_ne m c b fun w e => hb (Finset.mem_image.mpr ⟨w, Finset.mem_univ _, e⟩)

/-- After the stretch between the first and the second launch. -/
abbrev W5 : Dev nD → Valuation τ sig (Elt F) := fun c => StableHlo.after hostOps1 (W4 m c)
abbrev V5 : (c : Dev nD) → (b : Ref sig .tc) → Buf (Elt F) ((c : Thread nD τ).loc b) := fun c b => W5 m c b

/-- At launch 1's exit: its arrays at what the pipeline leaves (the inputs as entered, the output's write-backs
    folded), every other buffer as entered. -/
def W6 (c : Dev nD) : Valuation τ sig (Elt F) :=
  Pipeline.withArrays spec1 c (W5 m c) fun w => (dat1 (V5 m) c).arrAt w cfg1.N
theorem W6_arr (c : Dev nD) (w : Fin cfg1.W) :
    W6 m c (Proc.devRef .tc (Pipeline.arrRef spec1 w)) = (dat1 (V5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
/-- The same read at the TensorCore's references. -/
abbrev V6 : (c : Dev nD) → (b : Ref sig .tc) → Buf (Elt F) ((c : Thread nD τ).loc b) := fun c b => W6 m c b
theorem hF1 (c : Dev nD) (w : Fin cfg1.W) : (dat1 (V5 m) c).arrAt w cfg1.N = V6 m c (Pipeline.arrRef spec1 w) :=
  (W6_arr m c w).symm
theorem hrest1 (c : Dev nD) : ∀ b, b ∉ Finset.univ.image (Pipeline.arrRef spec1) → V6 m c b = V5 m c b :=
  fun b hb => W6_of_ne m c b fun w e => hb (Finset.mem_image.mpr ⟨w, Finset.mem_univ _, e⟩)

/-- After the stretch between the second and the third launch. -/
abbrev W7 : Dev nD → Valuation τ sig (Elt F) := fun c => StableHlo.after hostOps2 (W6 m c)
abbrev V7 : (c : Dev nD) → (b : Ref sig .tc) → Buf (Elt F) ((c : Thread nD τ).loc b) := fun c b => W7 m c b

/-- At launch 2's exit: its arrays at what the pipeline leaves (the inputs as entered, the output's write-backs
    folded), every other buffer as entered. -/
def W8 (c : Dev nD) : Valuation τ sig (Elt F) :=
  Pipeline.withArrays spec2 c (W7 m c) fun w => (dat2 (V7 m) c).arrAt w cfg2.N
theorem W8_arr (c : Dev nD) (w : Fin cfg2.W) :
    W8 m c (Proc.devRef .tc (Pipeline.arrRef spec2 w)) = (dat2 (V7 m) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) := by
  unfold W8; exact Pipeline.withArrays_of_ne spec2 c _ _ b hb
/-- The same read at the TensorCore's references. -/
abbrev V8 : (c : Dev nD) → (b : Ref sig .tc) → Buf (Elt F) ((c : Thread nD τ).loc b) := fun c b => W8 m c b
theorem hF2 (c : Dev nD) (w : Fin cfg2.W) : (dat2 (V7 m) c).arrAt w cfg2.N = V8 m c (Pipeline.arrRef spec2 w) :=
  (W8_arr m c w).symm
theorem hrest2 (c : Dev nD) : ∀ b, b ∉ Finset.univ.image (Pipeline.arrRef spec2) → V8 m c b = V7 m c b :=
  fun b hb => W8_of_ne m c b fun w e => hb (Finset.mem_image.mpr ⟨w, Finset.mem_univ _, e⟩)

/-- At launch 3's exit: its arrays at what the pipeline leaves (the inputs as entered, the output's write-backs
    folded), every other buffer as entered. -/
def W9 (c : Dev nD) : Valuation τ sig (Elt F) :=
  Pipeline.withArrays spec3 c (W8 m c) fun w => (dat3 (V8 m) c).arrAt w cfg3.N
theorem W9_arr (c : Dev nD) (w : Fin cfg3.W) :
    W9 m c (Proc.devRef .tc (Pipeline.arrRef spec3 w)) = (dat3 (V8 m) c).arrAt w cfg3.N := by
  unfold W9; exact Pipeline.withArrays_arr spec3 launch3.win.arr_inj c _ _ w
theorem W9_of_ne (c : Dev nD) (b : Ref sig .tc) (hb : ∀ w, Pipeline.arrRef spec3 w ≠ b) :
    W9 m c (Proc.devRef .tc b) = W8 m c (Proc.devRef .tc b) := by
  unfold W9; exact Pipeline.withArrays_of_ne spec3 c _ _ b hb
/-- The same read at the TensorCore's references. -/
abbrev V9 : (c : Dev nD) → (b : Ref sig .tc) → Buf (Elt F) ((c : Thread nD τ).loc b) := fun c b => W9 m c b
theorem hF3 (c : Dev nD) (w : Fin cfg3.W) : (dat3 (V8 m) c).arrAt w cfg3.N = V9 m c (Pipeline.arrRef spec3 w) :=
  (W9_arr m c w).symm
theorem hrest3 (c : Dev nD) : ∀ b, b ∉ Finset.univ.image (Pipeline.arrRef spec3) → V9 m c b = V8 m c b :=
  fun b hb => W9_of_ne m c b fun w e => hb (Finset.mem_image.mpr ⟨w, Finset.mem_univ _, e⟩)

/-- After the last stretch. -/
abbrev W10 : Dev nD → Valuation τ sig (Elt F) := fun c => StableHlo.after hostOps4 (W9 m c)

/-! ## The proof data family and the thread state -/

abbrev adm : (p : Fin 4) → (pcfgs (F := F) p).Adm := fun p => (cfgs p).toPCfg_adm
/-- Every pipeline's proof data, each at its launch's entry contents. -/
def pdats : (p : Fin 4) → (c : Dev nD) → Dat τ (Elt F) Unit ℕ (UR sig nD τ) ℕ (Pipeline.pin (pcfgs (F := F)) adm p) c
  | ⟨0, _⟩ => fun c => dat0 (V3 m) c
  | ⟨1, _⟩ => fun c => dat1 (V5 m) c
  | ⟨2, _⟩ => fun c => dat2 (V7 m) c
  | ⟨3, _⟩ => fun c => dat3 (V8 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W10 m c) ∗ ∃ r, prngReg c r)

/-- After its last point the fourth launch gives back the scoped buffers and the generator register. -/
theorem hout3' (V : (c : Dev nD) → (b : Ref sig .tc) → Buf (Elt F) ((c : Thread nD τ).loc b)) (c : Dev nD) :
    (dat3 V c).Φ (Fin.last cfg3.N)
      ⊢ (iprop((∃ r, prngReg c r) ∗ BI.emp
          ∗ Pipeline.scopedRest (Ix := Unit) (Name := ℕ) (U := UR sig nD τ) (Lvl := ℕ) (Val := Elt F) spec3 c) : sProp 𝕄) :=
  (hout3 V c).trans (show (Pipeline.ΦA spec3 c : sProp 𝕄)
      ⊢ iprop((∃ r, prngReg c r) ∗ BI.emp
          ∗ Pipeline.scopedRest (Ix := Unit) (Name := ℕ) (U := UR sig nD τ) (Lvl := ℕ) (Val := Elt F) spec3 c) from by
    unfold Pipeline.ΦA
    iintro ⟨Hr, Hp⟩
    isplitl [Hp]; · iexact Hp
    isplitr; · iempintro
    iexact Hr)

/-! ## The launches as segments -/

set_option backward.isDefEq.respectTransparency.types false in
/-- Launch 0 over the thread state: entered from every unscoped buffer at `W3`, left at `W4`. Its arrays are split
    out of the unscoped buffers and put back at what the write-backs leave; the generator register goes into the
    launch's invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (V3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V3 m c) (V4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 over the thread state: entered from every unscoped buffer at `W5`, left at `W6`. Its arrays are split
    out of the unscoped buffers and put back at what the write-backs leave; the generator register goes into the
    launch's invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (V5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V5 m c) (V6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 2 over the thread state: entered from every unscoped buffer at `W7`, left at `W8`. Its arrays are split
    out of the unscoped buffers and put back at what the write-backs leave; the generator register goes into the
    launch's invariant and comes out; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m) c).loose
  hwaits := Pipeline.hwaits_of_owed_zero _ _ _ _ L lv 2 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec2 c (V7 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V7 m c) (V8 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 3 over the thread state: entered from every unscoped buffer at `W8`, left at `W9`. Its arrays are split
    out of the unscoped buffers and put back at what the write-backs leave; the generator register goes into the
    launch's invariant and comes out; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V8 m) c).loose
  hwaits := Pipeline.hwaits_of_owed_zero _ _ _ _ L lv 3 fun _ _ => rfl
  pre c := iprop(StableHlo.held (c : Thread nD τ) (Pipeline.ucRefs τ sig) (W8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := UR sig nD τ) (Lvl := ℕ) spec3 c (V8 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none]
    exact hout3' (V8 m) c
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V8 m c) (V9 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m),
    .host (hseg hostOps2 hostOps2_sub hostOps2_fresh (W6 m)),
    .region (reg2 m),
    .region (reg3 m),
    .host (hseg hostOps4 hostOps4_sub hostOps4_fresh (W9 m)) ]

set_option backward.isDefEq.respectTransparency.types false in
/-- THE RUN. From any memory with zero counters every weakly fair execution of the program terminates, nothing
    faulting, and every final memory holds every unscoped buffer at the last contents of the fold. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W10 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          Prog.lift (.customCall (Pipeline.entry 3) ()),
          StableHlo.seq hostOps4 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl,
      fun _ => .rfl, fun _ => .rfl, fun c =>
        (show (iprop(StableHlo.held (c : Thread nD τ) (Pipeline.ucRefs τ sig) (W10 m c) ∗ R c) : sProp 𝕄)
            ⊢ iprop(Tₙ m c ∗ ∃ W, owes (c : Thread nD τ) (0 : CellTallies nD τ sig Unit) W) from by
          iintro ⟨Hh, Hp, HO⟩
          isplitl [Hh Hp]
          · isplitl [Hh]; · iexact Hh
            iexact Hp
          iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h => h)

end Cert.KernelIdeal.H

end
-- ==== Proof.KI.Keep.lean ====
import proofs.«427723_j89670327206505_1_alg».proof.Proof.KI.Run

/-!
# What each segment leaves unchanged

A stretch of host operations writes only its own result buffers, and a launch only its output array. So a buffer that
no later segment writes is read at the end of the run as it was when last written; in particular every argument array
ends as launched.
-/

set_option maxRecDepth 16384

noncomputable section

namespace Cert.KernelIdeal.H

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

theorem W1_keep (c : Dev nD) (b : Ref sig .tc) (h : b ∉ hostOps0_W) : W1 m c (Proc.devRef .tc b) = W0 m c (Proc.devRef .tc b) :=
  StableHlo.after_of_writes_sub hostOps0 _ hostOps0_writes h
theorem W2_keep (c : Dev nD) (b : Ref sig .tc) (h : b ∉ hostOps0_1_W) : W2 m c (Proc.devRef .tc b) = W1 m c (Proc.devRef .tc b) :=
  StableHlo.after_of_writes_sub hostOps0_1 _ hostOps0_1_writes h
theorem W3_keep (c : Dev nD) (b : Ref sig .tc) (h : b ∉ hostOps0_2_W) : W3 m c (Proc.devRef .tc b) = W2 m c (Proc.devRef .tc b) :=
  StableHlo.after_of_writes_sub hostOps0_2 _ hostOps0_2_writes h
theorem W5_keep (c : Dev nD) (b : Ref sig .tc) (h : b ∉ hostOps1_W) : W5 m c (Proc.devRef .tc b) = W4 m c (Proc.devRef .tc b) :=
  StableHlo.after_of_writes_sub hostOps1 _ hostOps1_writes h
theorem W7_keep (c : Dev nD) (b : Ref sig .tc) (h : b ∉ hostOps2_W) : W7 m c (Proc.devRef .tc b) = W6 m c (Proc.devRef .tc b) :=
  StableHlo.after_of_writes_sub hostOps2 _ hostOps2_writes h
theorem W10_keep (c : Dev nD) (b : Ref sig .tc) (h : b ∉ hostOps4_W) : W10 m c (Proc.devRef .tc b) = W9 m c (Proc.devRef .tc b) :=
  StableHlo.after_of_writes_sub hostOps4 _ hostOps4_writes h

/-- Launch 0 changes no buffer but its output array `main_v35`: an input array ends as entered, and so does a buffer it bypasses. -/
theorem W4_keep (c : Dev nD) (b : Ref sig .tc) (hb : b ≠ main_v35) : W4 m c (Proc.devRef .tc b) = W3 m c (Proc.devRef .tc b) := by
  by_cases h : ∃ w, Pipeline.arrRef spec0 w = b
  · obtain ⟨w, rfl⟩ := h
    rw [W4_arr]
    match w with
      | ⟨0, _⟩ => exact ((dat0 (V3 m) c).arrAt_in 0 rfl _).trans (A_eq0 (V3 m) c 0)
      | ⟨1, _⟩ => exact ((dat0 (V3 m) c).arrAt_in 1 rfl _).trans (A_eq0 (V3 m) c 1)
      | ⟨2, _⟩ => exact absurd rfl hb
  · exact W4_of_ne m c b fun w e => h ⟨w, e⟩

/-- Launch 1 changes no buffer but its output array `main_v50`: an input array ends as entered, and so does a buffer it bypasses. -/
theorem W6_keep (c : Dev nD) (b : Ref sig .tc) (hb : b ≠ main_v50) : W6 m c (Proc.devRef .tc b) = W5 m c (Proc.devRef .tc b) := by
  by_cases h : ∃ w, Pipeline.arrRef spec1 w = b
  · obtain ⟨w, rfl⟩ := h
    rw [W6_arr]
    match w with
      | ⟨0, _⟩ => exact ((dat1 (V5 m) c).arrAt_in 0 rfl _).trans (A_eq1 (V5 m) c 0)
      | ⟨1, _⟩ => exact ((dat1 (V5 m) c).arrAt_in 1 rfl _).trans (A_eq1 (V5 m) c 1)
      | ⟨2, _⟩ => exact ((dat1 (V5 m) c).arrAt_in 2 rfl _).trans (A_eq1 (V5 m) c 2)
      | ⟨3, _⟩ => exact absurd rfl hb
  · exact W6_of_ne m c b fun w e => h ⟨w, e⟩

/-- Launch 2 changes no buffer but its output array `main_v65`: an input array ends as entered, and so does a buffer it bypasses. -/
theorem W8_keep (c : Dev nD) (b : Ref sig .tc) (hb : b ≠ main_v65) : W8 m c (Proc.devRef .tc b) = W7 m c (Proc.devRef .tc b) := by
  by_cases h : ∃ w, Pipeline.arrRef spec2 w = b
  · obtain ⟨w, rfl⟩ := h
    rw [W8_arr]
    match w with
      | ⟨0, _⟩ => exact ((dat2 (V7 m) c).arrAt_in 0 rfl _).trans (A_eq2 (V7 m) c 0)
      | ⟨1, _⟩ => exact ((dat2 (V7 m) c).arrAt_in 1 rfl _).trans (A_eq2 (V7 m) c 1)
      | ⟨2, _⟩ => exact absurd rfl hb
  · exact W8_of_ne m c b fun w e => h ⟨w, e⟩

/-- Launch 3 changes no buffer but its output array `main_v66`: an input array ends as entered, and so does a buffer it bypasses. -/
theorem W9_keep (c : Dev nD) (b : Ref sig .tc) (hb : b ≠ main_v66) : W9 m c (Proc.devRef .tc b) = W8 m c (Proc.devRef .tc b) := by
  by_cases h : ∃ w, Pipeline.arrRef spec3 w = b
  · obtain ⟨w, rfl⟩ := h
    rw [W9_arr]
    match w with
      | ⟨0, _⟩ => exact ((dat3 (V8 m) c).arrAt_in 0 rfl _).trans (A_eq3 (V8 m) c 0)
      | ⟨1, _⟩ => exact ((dat3 (V8 m) c).arrAt_in 1 rfl _).trans (A_eq3 (V8 m) c 1)
      | ⟨2, _⟩ => exact absurd rfl hb
  · exact W9_of_ne m c b fun w e => h ⟨w, e⟩

/-- A buffer that no segment writes ends as launched. -/
theorem W10_unwritten (c : Dev nD) (b : Ref sig .tc) (h0 : b ∉ hostOps0_W) (h01 : b ∉ hostOps0_1_W) (h02 : b ∉ hostOps0_2_W)
    (h1 : b ∉ hostOps1_W) (h2 : b ∉ hostOps2_W) (h4 : b ∉ hostOps4_W)
    (o0 : b ≠ main_v35) (o1 : b ≠ main_v50) (o2 : b ≠ main_v65) (o3 : b ≠ main_v66) :
    W10 m c (Proc.devRef .tc b) = m ((c : Thread nD τ).loc b) :=
  (W10_keep m c b h4).trans <| (W9_keep m c b o3).trans <| (W8_keep m c b o2).trans <| (W7_keep m c b h2).trans <|
    (W6_keep m c b o1).trans <| (W5_keep m c b h1).trans <| (W4_keep m c b o0).trans <| (W3_keep m c b h02).trans <|
    (W2_keep m c b h01).trans <| (W1_keep m c b h0).trans rfl

theorem W10_arg0 (c : Dev nD) : W10 m c (Proc.devRef .tc main_arg0) = m ((c : Thread nD τ).loc main_arg0) :=
  W10_unwritten m c main_arg0 (by decide) (by decide) (by decide) (by decide) (by decide) (by decide) (by decide) (by decide) (by decide) (by decide)
theorem W10_arg1 (c : Dev nD) : W10 m c (Proc.devRef .tc main_arg1) = m ((c : Thread nD τ).loc main_arg1) :=
  W10_unwritten m c main_arg1 (by decide) (by decide) (by decide) (by decide) (by decide) (by decide) (by decide) (by decide) (by decide) (by decide)
theorem W10_arg2 (c : Dev nD) : W10 m c (Proc.devRef .tc main_arg2) = m ((c : Thread nD τ).loc main_arg2) :=
  W10_unwritten m c main_arg2 (by decide) (by decide) (by decide) (by decide) (by decide) (by decide) (by decide) (by decide) (by decide) (by decide)
theorem W10_arg3 (c : Dev nD) : W10 m c (Proc.devRef .tc main_arg3) = m ((c : Thread nD τ).loc main_arg3) :=
  W10_unwritten m c main_arg3 (by decide) (by decide) (by decide) (by decide) (by decide) (by decide) (by decide) (by decide) (by decide) (by decide)
theorem W10_arg4 (c : Dev nD) : W10 m c (Proc.devRef .tc main_arg4) = m ((c : Thread nD τ).loc main_arg4) :=
  W10_unwritten m c main_arg4 (by decide) (by decide) (by decide) (by decide) (by decide) (by decide) (by decide) (by decide) (by decide) (by decide)
theorem W10_arg5 (c : Dev nD) : W10 m c (Proc.devRef .tc main_arg5) = m ((c : Thread nD τ).loc main_arg5) :=
  W10_unwritten m c main_arg5 (by decide) (by decide) (by decide) (by decide) (by decide) (by decide) (by decide) (by decide) (by decide) (by decide)
theorem W10_arg6 (c : Dev nD) : W10 m c (Proc.devRef .tc main_arg6) = m ((c : Thread nD τ).loc main_arg6) :=
  W10_unwritten m c main_arg6 (by decide) (by decide) (by decide) (by decide) (by decide) (by decide) (by decide) (by decide) (by decide) (by decide)
theorem W10_arg7 (c : Dev nD) : W10 m c (Proc.devRef .tc main_arg7) = m ((c : Thread nD τ).loc main_arg7) :=
  W10_unwritten m c main_arg7 (by decide) (by decide) (by decide) (by decide) (by decide) (by decide) (by decide) (by decide) (by decide) (by decide)

/-- THE FRAME: every weakly fair execution terminates, nothing faulting, and the argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (W10_arg0 m c), (h c _ (mem_uc main_arg1 (by decide))).trans (W10_arg1 m c),
     (h c _ (mem_uc main_arg2 (by decide))).trans (W10_arg2 m c), (h c _ (mem_uc main_arg3 (by decide))).trans (W10_arg3 m c),
     (h c _ (mem_uc main_arg4 (by decide))).trans (W10_arg4 m c), (h c _ (mem_uc main_arg5 (by decide))).trans (W10_arg5 m c),
     (h c _ (mem_uc main_arg6 (by decide))).trans (W10_arg6 m c), (h c _ (mem_uc main_arg7 (by decide))).trans (W10_arg7 m c)⟩)
    (run_main m ρ)

end Cert.KernelIdeal.H

end
-- ==== Proof.Val.Stages.lean ====
import proofs.«427723_j89670327206505_1_alg».proof.Proof.Gen.ReferenceIdeal.Read

/-!
# The stages the two programs share

Both programs compute, twice, a normalised aggregation over the edge list: gather the rows of a feature array at the
edges' sources, scale each gathered row by the edge's normalisation factor, and add it into the row of the edge's
target. Between and after the aggregations stand a bias, a clamp at zero and a matrix product, and at the end the
per-graph sums of the rows and their quotient by the per-graph counts. Each stage is named here once, as one function of
the arrays it reads, over the reference program's own operations; the reference's stages are these by unfolding, and the
kernel program's buffers are shown to hold them.
-/

noncomputable section

namespace Cert.St

open Cert.ReferenceIdeal Cert.ReferenceIdeal.Gen Idealize.ShloMosaic Idealize.ShloMosaic.TcCoe

variable {F : FTy → Type} [FloatOps F]

/-- The aggregation: row `e` of `h` gathered at the source `src e` (a negative index counted from the end), scaled by
    `nrm e`, and added into row `dst e` of an array of zeros. -/
def agg (h : (⟨S100000x64, .f32⟩ : BufTy).Contents (Elt F)) (src dst : (⟨S1100000, .i32⟩ : BufTy).Contents (Elt F))
    (nrm : (⟨S1100000, .f32⟩ : BufTy).Contents (Elt F)) : (⟨S100000x64, .f32⟩ : BufTy).Contents (Elt F) :=
  Host.scatterAdd scatter_S100000x64_S1100000x1_S1100000x64_1_0_0_1
    (broadcastInDim S100000x64 ![] bcast_S_S100000x64 (constant S_ .f32 0x00000000#32))
    (broadcastInDim S1100000x1 ![0] bcast_S1100000_S1100000x1_0 dst)
    (mulf
      (Host.gather gather_S100000x64_S1100000x1_S1100000x64_1_0_n_n_0_1_164 h
        (broadcastInDim S1100000x1 ![0] bcast_S1100000_S1100000x1_0
          (select (cmpi .slt src (broadcastInDim S1100000 ![] bcast_S_S1100000 (constantI S_ 32 0#32)))
            (addi src (broadcastInDim S1100000 ![] bcast_S_S1100000 (constantI S_ 32 100000#32))) src)))
      (broadcastInDim S1100000x64 ![0, 1] bcast_S1100000x1_S1100000x64_0_1
        (broadcastInDim S1100000x1 ![0] bcast_S1100000_S1100000x1_0 nrm)))

/-- A bias row added to every row, clamped at zero. -/
def biasRelu (a : (⟨S100000x64, .f32⟩ : BufTy).Contents (Elt F)) (b : (⟨S1x64, .f32⟩ : BufTy).Contents (Elt F)) :
    (⟨S100000x64, .f32⟩ : BufTy).Contents (Elt F) :=
  maximumf (addf a (broadcastInDim S100000x64 ![0, 1] bcast_S1x64_S100000x64_0_1 b))
    (broadcastInDim S100000x64 ![] bcast_S_S100000x64 (constant S_ .f32 0x00000000#32))

/-- The rows times a 64 × 64 matrix. -/
def rowsTimes (a : (⟨S100000x64, .f32⟩ : BufTy).Contents (Elt F)) (w : (⟨S64x64, .f32⟩ : BufTy).Contents (Elt F)) :
    (⟨S100000x64, .f32⟩ : BufTy).Contents (Elt F) :=
  Host.dotGeneral dot_S100000x64_S64x64_S100000x64_1_0_0_1_n_n none a w

/-- The per-graph sums: row `r` of `h` added into row `ids r` of a 128 × 64 array of zeros (an id outside `0 … 127` adds nothing). -/
def graphSums (h : (⟨S100000x64, .f32⟩ : BufTy).Contents (Elt F)) (ids : (⟨S100000x1, .i32⟩ : BufTy).Contents (Elt F)) :
    (⟨S128x64, .f32⟩ : BufTy).Contents (Elt F) :=
  Host.scatterAdd scatter_S128x64_S100000x1_S100000x64_1_0_0_1
    (broadcastInDim S128x64 ![] bcast_S_S128x64 (constant S_ .f32 0x00000000#32)) ids h

/-- The per-graph means: the sums over the per-graph counts (at least one). -/
def graphMeans (sums : (⟨S128x64, .f32⟩ : BufTy).Contents (Elt F)) (x7 : (⟨S100000, .i32⟩ : BufTy).Contents (Elt F)) :
    (⟨S128x64, .f32⟩ : BufTy).Contents (Elt F) :=
  Host.divf sums (Read.val_main_v110 (F := F) x7)

/-! ## The reference's stages are these -/

open Cert.ReferenceIdeal.Read

theorem ref_v4 (x0 : (⟨S100000x64, .f32⟩ : BufTy).Contents (Elt F)) (x2 : (⟨S64x64, .f32⟩ : BufTy).Contents (Elt F)) :
    val_main_v4 (F := F) x0 x2 = rowsTimes x0 x2 := rfl

theorem ref_v47 (x0 x1 x2 x6) :
    val_main_v47 (F := F) x0 x1 x2 x6 = agg (val_main_v4 x0 x2) (val_main_v6 x6) (val_main_v7 x6) (val_main_v34 x1 x6) := rfl

theorem ref_v51 (x0 x1 x2 x3 x6) :
    val_main_v51 (F := F) x0 x1 x2 x3 x6 = biasRelu (val_main_v47 x0 x1 x2 x6) (val_main_v48 x3) := rfl

theorem ref_v52 (x0 x1 x2 x3 x4 x6) :
    val_main_v52 (F := F) x0 x1 x2 x3 x4 x6 = rowsTimes (val_main_v51 x0 x1 x2 x3 x6) x4 := rfl

theorem ref_v95 (x0 x1 x2 x3 x4 x6) :
    val_main_v95 (F := F) x0 x1 x2 x3 x4 x6 = agg (val_main_v52 x0 x1 x2 x3 x4 x6) (val_main_v6 x6) (val_main_v7 x6) (val_main_v34 x1 x6) := rfl

theorem ref_v99 (x0 x1 x2 x3 x4 x5 x6) :
    val_main_v99 (F := F) x0 x1 x2 x3 x4 x5 x6 = biasRelu (val_main_v95 x0 x1 x2 x3 x4 x6) (val_main_v96 x5) := rfl

theorem ref_v111 (x0 x1 x2 x3 x4 x5 x6 x7) :
    val_main_v111 (F := F) x0 x1 x2 x3 x4 x5 x6 x7 = graphMeans (graphSums (val_main_v99 x0 x1 x2 x3 x4 x5 x6) (val_main_v105 x7)) x7 := rfl

end Cert.St

end
-- ==== Proof.Val.R0.lean ====
import proofs.«427723_j89670327206505_1_alg».proof.Proof.KI.Reg0
import proofs.«427723_j89670327206505_1_alg».proof.Proof.Val.Stages
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HV

open Cert.KernelIdeal Cert.KernelIdeal.Gen Cert.KernelIdeal.H
open Idealize.ShloMosaic Idealize.ShloMosaic.TcCoe Idealize.SL.Sem
open Idealize.ShloMosaic.Pipeline (Dat)
open Idealize.ShloMosaic.ValueIdx (ix2 eq_ix2)

/-! ## A 5000 × 64 block times a 64 × 64 matrix, entry by entry -/

/-- The two zero offsets, however they are spelt. -/
theorem zeroOff2 : (![0, 0] : Fin 2 → Nat) = fun _ => 0 := funext fun a => by
  match a with
  | ⟨0, _⟩ => rfl
  | ⟨1, _⟩ => rfl

/-- The left factor's row is the entry's row, -/
theorem lhs_blockTimes_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- its column the summation index; -/
theorem lhs_blockTimes_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
/-- the right factor's row is the summation index, -/
theorem rhs_blockTimes_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
/-- its column the entry's column. -/
theorem rhs_blockTimes_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- Entry (p, q) of a 5000 × 64 block times a 64 × 64 matrix, accumulated into zeros: the sum over k of the block's
    (p, k) entry times the matrix's (k, q) entry. -/
theorem blockTimes_apply (a : FVec Ideal S5000x64 .bf16) (w : FVec Ideal S64x64 .bf16) (p : Fin 5000) (q : Fin 64) :
    matmul dot_S5000x64_S64x64_S5000x64_1_0_0_1_n_n none a w (constant (F := Ideal) S5000x64 .f32 0x00000000#32) (ix2 p q)
      = ∑ k : Fin 64, a (ix2 p k) * w (ix2 k q) := by
  simp only [matmul]
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun a => Fin.ext (by
    match a with
    | ⟨0, _⟩ => exact lhs_blockTimes_0 _ _
    | ⟨1, _⟩ => exact (lhs_blockTimes_1 _ _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun a => Fin.ext (by
    match a with
    | ⟨0, _⟩ => exact (rhs_blockTimes_0 _ _).trans hk
    | ⟨1, _⟩ => exact rhs_blockTimes_1 _ _)
  rw [el, er]

/-- The first launch's stored block, entry by entry: the narrowing of both factors changes nothing here. -/
theorem pay0_apply (x0 : Vec Ideal S5000x64 .f32) (x1 : Vec Ideal S64x64 .f32) (p : Fin 5000) (q : Fin 64) :
    k0_pay1 (F := Ideal) x0 x1 (ix2 p q) = ∑ k : Fin 64, x0 (ix2 p k) * x1 (ix2 k q) := by
  unfold k0_pay1
  exact blockTimes_apply _ _ p q

/-! ## The reference's product, entry by entry -/

/-- Entry (r, j) of the rows times the matrix: the sum over k of the (r, k) entry times the matrix's (k, j) entry. -/
theorem rowsTimes_apply (a : S100000x64.Idx → Elt Ideal .f32) (w : S64x64.Idx → Elt Ideal .f32) (r : Fin 100000) (j : Fin 64) :
    Cert.St.rowsTimes (F := Ideal) a w (ix2 r j) = ∑ k : Fin 64, a (ix2 r k) * w (ix2 k j) := by
  rw [← Cert.St.ref_v4, Cert.ReferenceIdeal.Read.val_main_v4_apply]
  refine Finset.sum_congr rfl fun k _ => ?_
  have el : Cert.ReferenceIdeal.Read.lidx_main_v4 (ix2 r j) k = ix2 r k := funext fun d => by
    match d with
    | ⟨0, _⟩ => rfl
    | ⟨1, _⟩ => rfl
  have er : Cert.ReferenceIdeal.Read.ridx_main_v4 (ix2 r j) k = ix2 k j := funext fun d => by
    match d with
    | ⟨0, _⟩ => rfl
    | ⟨1, _⟩ => rfl
  rw [el, er]

/-! ## The blocks of the first launch -/

variable (V : (c : Dev nD) → (b : Ref sig .tc) → Buf (Elt Ideal) ((c : Thread nD τ).loc b))

/-- The printed index maps over the grid: at point t the rows' block and the output's block are row-block t of their
    arrays, and the matrix's block is the whole matrix. -/
theorem blockIdx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of the rows' block at point t is row 5000 t + p of the first input. -/
theorem rowsBlk0_apply (c : Dev nD) (t : Fin cfg0.N) (p : Fin 5000) (k : Fin 64) (r : Fin 100000) (hr : r.val = 5000 * t.val + p.val) :
    (iblk0 (F := Ideal) V c 0 t : Vec Ideal S5000x64 .f32) (ix2 p k) = (V c main_arg0 : S100000x64.Idx → Elt Ideal .f32) (ix2 r k) := by
  obtain ⟨e0, e1, -⟩ := blockIdx0 t
  unfold iblk0
  rw [View.read_apply]
  show V c main_arg0 _ = V c main_arg0 _
  congr 1
  funext a
  apply Fin.ext
  match a with
  | ⟨0, _⟩ => show win0_0.index t (0 : Fin 2) * 5000 + 1 * p.val = r.val; rw [e0, hr]; omega
  | ⟨1, _⟩ => show win0_0.index t (1 : Fin 2) * 64 + 1 * k.val = k.val; rw [e1]; omega

/-- The matrix's block at every point is the whole second input. -/
theorem matBlk0_apply (c : Dev nD) (t : Fin cfg0.N) (k q : Fin 64) :
    (iblk0 (F := Ideal) V c 1 t : Vec Ideal S64x64 .f32) (ix2 k q) = (V c main_arg2 : S64x64.Idx → Elt Ideal .f32) (ix2 k q) := by
  obtain ⟨-, -, e2, e3, -⟩ := blockIdx0 t
  unfold iblk0
  rw [View.read_apply]
  show V c main_arg2 _ = V c main_arg2 _
  congr 1
  funext a
  apply Fin.ext
  match a with
  | ⟨0, _⟩ => show win0_1.index t (0 : Fin 2) * 64 + 1 * k.val = k.val; rw [e2]; omega
  | ⟨1, _⟩ => show win0_1.index t (1 : Fin 2) * 64 + 1 * q.val = q.val; rw [e3]; omega

/-- What point t writes back is block t of the rows of the first input times the second. -/
theorem flushed0_eq (c : Dev nD) (t : Fin cfg0.N) :
    (dat0 (F := Ideal) V c).flushed 2 t
      = ((cfg0.win 2).blk t).view.read (Elt Ideal) (Cert.St.rowsTimes (F := Ideal) (V c main_arg0) (V c main_arg2)) := by
  show (cfg0.win 2).cut (grid0.coords t) ((dat0 (F := Ideal) V c).after 2 t) = _
  rw [after0_2]
  unfold out0_2
  rw [View.canon_unit_zero zeroOff2]
  simp only [View.ld_unit_zero (S := S5000x64) zeroOff2, View.ld_unit_zero (S := S64x64) zeroOff2]
  obtain ⟨-, -, -, -, e4, e5⟩ := blockIdx0 t
  have hN : cfg0.N = 20 := N_0
  have ht : t.val < 20 := hN ▸ t.isLt
  funext j
  obtain ⟨p, q, rfl⟩ : ∃ (p : Fin 5000) (q : Fin 64), j = ix2 p q := ⟨j 0, j 1, eq_ix2 j⟩
  have hp : p.val < 5000 := p.isLt
  have hi : ((cfg0.win 2).blk t).view.emb (ix2 p q) = ix2 (⟨5000 * t.val + p.val, by omega⟩ : Fin 100000) q := by
    funext a
    apply Fin.ext
    match a with
    | ⟨0, _⟩ => show win0_2.index t (0 : Fin 2) * 5000 + 1 * p.val = 5000 * t.val + p.val; rw [e4]; omega
    | ⟨1, _⟩ => show win0_2.index t (1 : Fin 2) * 64 + 1 * q.val = q.val; rw [e5]; omega
  refine (pay0_apply (iblk0 (F := Ideal) V c 0 t) (iblk0 (F := Ideal) V c 1 t) p q).trans ?_
  show _ = Cert.St.rowsTimes (F := Ideal) (V c main_arg0) (V c main_arg2) (((cfg0.win 2).blk t).view.emb (ix2 p q))
  rw [hi]
  refine Eq.trans ?_ (rowsTimes_apply (V c main_arg0) (V c main_arg2) ⟨5000 * t.val + p.val, by omega⟩ q).symm
  refine Finset.sum_congr rfl fun k _ => ?_
  rw [rowsBlk0_apply V c t p k ⟨5000 * t.val + p.val, by omega⟩ rfl, matBlk0_apply V c t k q]

/-- An index of the output array is in point t's block iff each coordinate is in the block's range on its axis. -/
theorem mem_blk0 (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v35).slice (win0_2.rect t)).set ↔ _
  rw [View.set_slice_whole, Rect.mem_set_unit]
  exact Iff.rfl

/-- Row r of the output array is written back by point r / 5000. -/
theorem cover0 (i : S100000x64.Idx) : ∃ t : Fin cfg0.N, (cfg0.win 2).flush t = true ∧ i ∈ ((cfg0.win 2).blk t).view.set := by
  have h0 : (i 0).val < 100000 := (i 0).isLt
  have h1 : (i 1).val < 64 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨-, -, -, -, e4, e5⟩ := blockIdx0 t
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; rw [e4, ht]; omega
  | ⟨1, _⟩ => show win0_2.index t (1 : Fin 2) * 64 ≤ (i 1).val ∧ (i 1).val < win0_2.index t (1 : Fin 2) * 64 + 64; rw [e5]; omega

/-- After the first launch the output array holds the rows of the first input times the matrix in the second: each
    output block is that product restricted to the block's rows, and the twenty blocks tile the array. -/
theorem arr0_eq (c : Dev nD) :
    (dat0 (F := Ideal) V c).arrAt 2 cfg0.N = Cert.St.rowsTimes (F := Ideal) (V c main_arg0) (V c main_arg2) :=
  (dat0 (F := Ideal) V c).arrAt_eq_of_cover 2 (Cert.St.rowsTimes (F := Ideal) (V c main_arg0) (V c main_arg2))
    (fun t _ => flushed0_eq V c t) cover0

end Cert.KernelIdeal.HV

end
-- ==== Proof.Val.R1.lean ====
import proofs.«427723_j89670327206505_1_alg».proof.Proof.KI.Reg1
import proofs.«427723_j89670327206505_1_alg».proof.Proof.Val.Stages
import proofs.«427723_j89670327206505_1_alg».proof.Proof.Val.R0
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HV

open Cert.KernelIdeal Cert.KernelIdeal.Gen Cert.KernelIdeal.H
open Idealize.ShloMosaic Idealize.ShloMosaic.TcCoe Idealize.SL.Sem
open Idealize.ShloMosaic.Pipeline (Dat)
open Idealize.ShloMosaic.ValueIdx (ix2 eq_ix2)

variable (V : (c : Dev nD) → (b : Ref sig .tc) → Buf (Elt Ideal) ((c : Thread nD τ).loc b))

namespace L1

/-! ## The rows plus the bias row, clamped at zero, entry by entry -/

/-- Entry (r, k) of the rows plus the bias row, clamped at zero: the (r, k) entry plus the row's k-th entry, or zero if
    that is larger. -/
theorem biasRelu_apply (a : S100000x64.Idx → Elt Ideal .f32) (b : S1x64.Idx → Elt Ideal .f32) (r : Fin 100000) (k : Fin 64) :
    Cert.St.biasRelu (F := Ideal) a b (ix2 r k) = max (a (ix2 r k) + b (ix2 (0 : Fin 1) k)) 0 := by
  have e1 : broadcastInDim Cert.ReferenceIdeal.S100000x64 ![0, 1] Cert.ReferenceIdeal.Gen.bcast_S1x64_S100000x64_0_1 b (ix2 r k)
      = b (ix2 (0 : Fin 1) k) :=
    broadcastInDim_apply _ _ b (ix2 r k) (ix2 (0 : Fin 1) k) (fun d => match d with
      | ⟨0, _⟩ => by show 0 = if (1 : Nat) = 1 then 0 else r.val; rw [if_pos rfl]
      | ⟨1, _⟩ => by show k.val = if (64 : Nat) = 1 then 0 else k.val; rw [if_neg (by decide)])
  have e2 : broadcastInDim Cert.ReferenceIdeal.S100000x64 ![] Cert.ReferenceIdeal.Gen.bcast_S_S100000x64
      (constant (F := Ideal) Cert.ReferenceIdeal.S_ .f32 0x00000000#32) (ix2 r k) = 0 :=
    (broadcastInDim_apply _ _ (constant (F := Ideal) Cert.ReferenceIdeal.S_ .f32 0x00000000#32) (ix2 r k) ValueIdx.ix0 (fun d => d.elim0)).trans
      Ideal.ofBits_zero_f32
  unfold Cert.St.biasRelu
  rw [ValueIdx.maximumf_apply, ValueIdx.addf_apply, e1, e2]

/-- The second launch's stored block, entry by entry: the block plus the bias row, clamped at zero, times the matrix;
    the casts to the same shape and the narrowing of both factors change nothing here. -/
theorem pay1_apply (x0 : Vec Ideal S5000x64 .f32) (b : Vec Ideal S1x64 .f32) (w : Vec Ideal S64x64 .f32) (p : Fin 5000) (q : Fin 64) :
    k1_pay1 (F := Ideal) x0 b w (ix2 p q) = ∑ k : Fin 64, max (x0 (ix2 p k) + b (ix2 (0 : Fin 1) k)) 0 * w (ix2 k q) := by
  unfold k1_pay1
  refine (blockTimes_apply _ _ p q).trans ?_
  refine Finset.sum_congr rfl fun k _ => ?_
  rw [ValueIdx.truncf_apply, ValueIdx.truncf_apply, ValueIdx.maximumf_apply, ValueIdx.addf_apply, ValueIdx.broadcast_apply,
    shapeCast_self, shapeCast_self, ValueIdx.broadcastTo_1b_ab_apply]
  show max _ (Ideal.ofBits .f32 0x00000000#32) * _ = _
  rw [Ideal.ofBits_zero_f32]

/-! ## The blocks of the second launch -/

/-- The printed index maps over the grid: at point t the rows' block and the output's block are row-block t of their
    arrays; the bias row's block is the whole row and the matrix's block the whole matrix. -/
theorem blockIdx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row p of the rows' block at point t is row 5000 t + p of the first input. -/
theorem rowsBlk1_apply (c : Dev nD) (t : Fin cfg1.N) (p : Fin 5000) (k : Fin 64) (r : Fin 100000) (hr : r.val = 5000 * t.val + p.val) :
    (iblk1 (F := Ideal) V c 0 t : Vec Ideal S5000x64 .f32) (ix2 p k) = (V c main_v48 : S100000x64.Idx → Elt Ideal .f32) (ix2 r k) := by
  obtain ⟨e0, e1, -⟩ := blockIdx1 t
  unfold iblk1
  rw [View.read_apply]
  show V c main_v48 _ = V c main_v48 _
  congr 1
  funext a
  apply Fin.ext
  match a with
  | ⟨0, _⟩ => show win1_0.index t (0 : Fin 2) * 5000 + 1 * p.val = r.val; omega
  | ⟨1, _⟩ => show win1_0.index t (1 : Fin 2) * 64 + 1 * k.val = k.val; omega

/-- The bias row's block at every point is the whole row. -/
theorem biasBlk1_apply (c : Dev nD) (t : Fin cfg1.N) (k : Fin 64) :
    (iblk1 (F := Ideal) V c 1 t : Vec Ideal S1x64 .f32) (ix2 (0 : Fin 1) k) = (V c main_v49 : S1x64.Idx → Elt Ideal .f32) (ix2 (0 : Fin 1) k) := by
  obtain ⟨-, -, e2, e3, -⟩ := blockIdx1 t
  unfold iblk1
  rw [View.read_apply]
  show V c main_v49 _ = V c main_v49 _
  congr 1
  funext a
  apply Fin.ext
  match a with
  | ⟨0, _⟩ => show win1_1.index t (0 : Fin 2) * 1 + 1 * 0 = 0; omega
  | ⟨1, _⟩ => show win1_1.index t (1 : Fin 2) * 64 + 1 * k.val = k.val; omega

/-- The matrix's block at every point is the whole matrix. -/
theorem matBlk1_apply (c : Dev nD) (t : Fin cfg1.N) (k q : Fin 64) :
    (iblk1 (F := Ideal) V c 2 t : Vec Ideal S64x64 .f32) (ix2 k q) = (V c main_arg4 : S64x64.Idx → Elt Ideal .f32) (ix2 k q) := by
  obtain ⟨-, -, -, -, e4, e5, -⟩ := blockIdx1 t
  unfold iblk1
  rw [View.read_apply]
  show V c main_arg4 _ = V c main_arg4 _
  congr 1
  funext a
  apply Fin.ext
  match a with
  | ⟨0, _⟩ => show win1_2.index t (0 : Fin 2) * 64 + 1 * k.val = k.val; omega
  | ⟨1, _⟩ => show win1_2.index t (1 : Fin 2) * 64 + 1 * q.val = q.val; omega

/-- What point t writes back is block t of: the first input plus the bias row, clamped at zero, times the matrix. -/
theorem flushed1_eq (c : Dev nD) (t : Fin cfg1.N) :
    (dat1 (F := Ideal) V c).flushed 3 t
      = ((cfg1.win 3).blk t).view.read (Elt Ideal)
          (Cert.St.rowsTimes (F := Ideal) (Cert.St.biasRelu (F := Ideal) (V c main_v48) (V c main_v49)) (V c main_arg4)) := by
  show (cfg1.win 3).cut (grid1.coords t) ((dat1 (F := Ideal) V c).after 3 t) = _
  rw [after1_3]
  unfold out1_3
  rw [View.canon_unit_zero zeroOff2]
  simp only [View.ld_unit_zero (S := S5000x64) zeroOff2, View.ld_unit_zero (S := S1x64) zeroOff2, View.ld_unit_zero (S := S64x64) zeroOff2]
  obtain ⟨-, -, -, -, -, -, e6, e7⟩ := blockIdx1 t
  have hN : cfg1.N = 20 := N_1
  have ht : t.val < 20 := hN ▸ t.isLt
  funext j
  obtain ⟨p, q, rfl⟩ : ∃ (p : Fin 5000) (q : Fin 64), j = ix2 p q := ⟨j 0, j 1, eq_ix2 j⟩
  have hp : p.val < 5000 := p.isLt
  have hi : ((cfg1.win 3).blk t).view.emb (ix2 p q) = ix2 (⟨5000 * t.val + p.val, by omega⟩ : Fin 100000) q := by
    funext a
    apply Fin.ext
    match a with
    | ⟨0, _⟩ => show win1_3.index t (0 : Fin 2) * 5000 + 1 * p.val = 5000 * t.val + p.val; omega
    | ⟨1, _⟩ => show win1_3.index t (1 : Fin 2) * 64 + 1 * q.val = q.val; omega
  refine (pay1_apply (iblk1 (F := Ideal) V c 0 t) (iblk1 (F := Ideal) V c 1 t) (iblk1 (F := Ideal) V c 2 t) p q).trans ?_
  show _ = Cert.St.rowsTimes (F := Ideal) (Cert.St.biasRelu (F := Ideal) (V c main_v48) (V c main_v49)) (V c main_arg4)
    (((cfg1.win 3).blk t).view.emb (ix2 p q))
  rw [hi]
  refine Eq.trans ?_ (rowsTimes_apply (Cert.St.biasRelu (F := Ideal) (V c main_v48) (V c main_v49)) (V c main_arg4)
    ⟨5000 * t.val + p.val, by omega⟩ q).symm
  refine Finset.sum_congr rfl fun k _ => ?_
  rw [biasRelu_apply (V c main_v48) (V c main_v49) ⟨5000 * t.val + p.val, by omega⟩ k,
    rowsBlk1_apply V c t p k ⟨5000 * t.val + p.val, by omega⟩ rfl, biasBlk1_apply V c t k, matBlk1_apply V c t k q]

/-- An index of the output array is in point t's block iff each coordinate is in the block's range on its axis. -/
theorem mem_blk1 (t : Fin cfg1.N) (i : S100000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v50).slice (win1_3.rect t)).set ↔ _
  rw [View.set_slice_whole, Rect.mem_set_unit]
  exact Iff.rfl

/-- Row r of the output array is written back by point r / 5000. -/
theorem cover1 (i : S100000x64.Idx) : ∃ t : Fin cfg1.N, (cfg1.win 3).flush t = true ∧ i ∈ ((cfg1.win 3).blk t).view.set := by
  have h0 : (i 0).val < 100000 := (i 0).isLt
  have h1 : (i 1).val < 64 := (i 1).isLt
  have hN : cfg1.N = 20 := N_1
  obtain ⟨t, ht⟩ : ∃ t : Fin cfg1.N, t.val = (i 0).val / 5000 := ⟨⟨(i 0).val / 5000, by rw [hN]; omega⟩, rfl⟩
  obtain ⟨-, -, -, -, -, -, e6, e7⟩ := blockIdx1 t
  refine ⟨t, flush1_3 t, ?_⟩
  rw [mem_blk1]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 64 ≤ (i 1).val ∧ (i 1).val < win1_3.index t (1 : Fin 2) * 64 + 64; omega

end L1

/-- After the second launch the output array holds: the first input plus the bias row, clamped at zero, times the matrix. -/
theorem arr1_eq (c : Dev nD) :
    (dat1 (F := Ideal) V c).arrAt 3 cfg1.N
      = Cert.St.rowsTimes (F := Ideal) (Cert.St.biasRelu (F := Ideal) (V c main_v48) (V c main_v49)) (V c main_arg4) :=
  (dat1 (F := Ideal) V c).arrAt_eq_of_cover 3
    (Cert.St.rowsTimes (F := Ideal) (Cert.St.biasRelu (F := Ideal) (V c main_v48) (V c main_v49)) (V c main_arg4))
    (fun t _ => L1.flushed1_eq V c t) L1.cover1

end Cert.KernelIdeal.HV

end
-- ==== Proof.Val.R2.lean ====
import proofs.«427723_j89670327206505_1_alg».proof.Proof.KI.Reg2
import proofs.«427723_j89670327206505_1_alg».proof.Proof.Val.Stages
import Idealize.ShloMosaic.Lib.Pipeline.Value
import Idealize.ShloMosaic.Lib.ValueIdx
import Idealize.ShloMosaic.Lib.ValueLayout
import Idealize.ShloMosaic.PureOps.Ideal.Laws

/-!
# The value of the third launch: the second aggregation plus the bias row, clamped at zero

At grid point `t` the body stores, at row `p` and column `q` of its block, `max (x (p, q) + b (0, q)) 0`, where `x` is
the block of rows `5000 t … 5000 t + 4999` of the first input and `b` is the 1 × 64 bias row, whole at every point. The
whole-array clamp at row `r`, column `q` is `max (a (r, q) + b (0, q)) 0`; so the block stored at point `t` is the
whole-array clamp restricted to rows `5000 t … 5000 t + 4999`. Row `r` lies in the block of point `r / 5000`, every point
writes its block back, and the twenty blocks tile the 100000 rows: the array ends holding the whole-array clamp.
-/

set_option maxRecDepth 16384

noncomputable section

namespace Cert.KernelIdeal.HV

open Cert.KernelIdeal Cert.KernelIdeal.Gen Cert.KernelIdeal.H
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

namespace L2

/-- The block's store at row `p`, column `q`: the block's entry plus the bias row's entry in column `q`, clamped at
    zero. The shape casts are between equal shapes; the broadcast of the row reads its one row at column `q`. -/
theorem clampBlock_apply (x0 : Vec Ideal S5000x64 .f32) (x1 : Vec Ideal S1x64 .f32) (p : Fin 5000) (q : Fin 64) :
    k2_pay1 (F := Ideal) x0 x1 (ix2 p q) = max (x0 (ix2 p q) + x1 (ix2 (0 : Fin 1) q)) (Ideal.ofBits .f32 0x00000000#32) := by
  unfold k2_pay1
  rw [maximumf_apply, addf_apply, broadcast_apply, shapeCast_self, shapeCast_self, broadcastTo_1b_ab_apply]
  rfl

/-- The whole array's clamp at row `r`, column `q`: the array's entry plus the bias row's entry in column `q`, clamped
    at zero. The row is broadcast along the rows (its row axis has extent one, its column axis is kept); the zero is the
    scalar constant broadcast to every entry, the same word as the block's zero. -/
theorem biasRelu_apply (a : (⟨S100000x64, .f32⟩ : BufTy).Contents (Elt Ideal)) (b : (⟨S1x64, .f32⟩ : BufTy).Contents (Elt Ideal))
    (r : Fin 100000) (q : Fin 64) :
    Cert.St.biasRelu (F := Ideal) a b (ix2 r q) = max (a (ix2 r q) + b (ix2 (0 : Fin 1) q)) (Ideal.ofBits .f32 0x00000000#32) := by
  unfold Cert.St.biasRelu
  rw [maximumf_apply, addf_apply,
    broadcastInDim_apply _ _ b (ix2 r q) (ix2 (0 : Fin 1) q) (fun ax => by
      match ax with
      | ⟨0, _⟩ => rfl
      | ⟨1, _⟩ => show q.val = if (64 : ℕ) = 1 then 0 else q.val; rw [if_neg (by decide)]),
    broadcastInDim_apply _ _ (constant (F := Ideal) Cert.ReferenceIdeal.S_ .f32 0x00000000#32) (ix2 r q) ix0 (fun ax => ax.elim0),
    constant_apply]

/-- The zero offsets of a whole-block rectangle, as a constant function. -/
theorem zeroOff2 : (![0, 0] : Fin 2 → Nat) = fun _ => 0 := funext fun a => by fin_cases a <;> rfl

/-- The windows' index maps over the grid: at point `t` the rows' window and the output's window sit at block row `t`,
    block column 0; the bias row's window sits at block (0, 0). -/
theorem blockIdx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The rows' block at point `t` is rows `5000 t … 5000 t + 4999` of the first input, all 64 columns: a block's
    coordinate in the array is the block index times the block's extent plus the coordinate inside the block. -/
theorem rowsBlock_apply (c : Dev nD) (t : Fin cfg2.N) (x : S5000x64.Idx) (k : S100000x64.Idx)
    (hk0 : (k 0).val = 5000 * t.val + (x 0).val) (hk1 : (k 1).val = (x 1).val) :
    (iblk2 V c 0 t : Vec Ideal S5000x64 .f32) x = (V c main_v63 : S100000x64.Idx → Elt Ideal .f32) k := by
  obtain ⟨e0, e1, -⟩ := blockIdx2 t
  unfold iblk2
  rw [View.read_apply]
  show V c main_v63 _ = V c main_v63 _
  congr 1
  funext a
  apply Fin.ext
  match a with
  | ⟨0, _⟩ => show win2_0.index t 0 * 5000 + 1 * (x 0).val = (k 0).val; rw [e0, hk0]; omega
  | ⟨1, _⟩ => show win2_0.index t 1 * 64 + 1 * (x 1).val = (k 1).val; rw [e1, hk1]; omega

/-- The bias row's block is the whole row at every point: its block index is (0, 0). -/
theorem biasBlock_apply (c : Dev nD) (t : Fin cfg2.N) (x : S1x64.Idx) :
    (iblk2 V c 1 t : Vec Ideal S1x64 .f32) x = (V c main_v64 : S1x64.Idx → Elt Ideal .f32) x := by
  obtain ⟨-, -, e0, e1, -⟩ := blockIdx2 t
  unfold iblk2
  rw [View.read_apply]
  show V c main_v64 _ = V c main_v64 _
  congr 1
  funext a
  apply Fin.ext
  match a with
  | ⟨0, _⟩ => show win2_1.index t 0 * 1 + 1 * (x 0).val = (x 0).val; rw [e0]; omega
  | ⟨1, _⟩ => show win2_1.index t 1 * 64 + 1 * (x 1).val = (x 1).val; rw [e1]; omega

/-- The block's store at an entry is the whole array's clamp at the entry's place in the array: the store at row `p`
    of the block at point `t` depends on row `5000 t + p` of the first input and on the bias row, and so does the
    whole-array clamp at row `5000 t + p`. -/
theorem clampBlock_eq (c : Dev nD) (t : Fin cfg2.N) (x0 : Vec Ideal S5000x64 .f32) (x1 : Vec Ideal S1x64 .f32)
    (h0 : x0 = iblk2 V c 0 t) (h1 : x1 = iblk2 V c 1 t) (y : S5000x64.Idx) (k : S100000x64.Idx)
    (hk0 : (k 0).val = 5000 * t.val + (y 0).val) (hk1 : (k 1).val = (y 1).val) :
    k2_pay1 (F := Ideal) x0 x1 y = Cert.St.biasRelu (F := Ideal) (V c main_v63) (V c main_v64) k := by
  obtain ⟨p, q, rfl⟩ : ∃ (p : Fin 5000) (q : Fin 64), y = ix2 p q := ⟨y 0, y 1, eq_ix2 y⟩
  obtain ⟨r, q', rfl⟩ : ∃ (r : Fin 100000) (q' : Fin 64), k = ix2 r q' := ⟨k 0, k 1, eq_ix2 k⟩
  have hr : r.val = 5000 * t.val + p.val := hk0
  obtain rfl : q' = q := Fin.ext hk1
  rw [clampBlock_apply, biasRelu_apply, h0, h1,
    rowsBlock_apply V c t (ix2 p q') (ix2 r q') hr rfl, biasBlock_apply V c t (ix2 (0 : Fin 1) q')]

/-- What point `t` writes back is block `t` of the whole array's clamp: the output's block sits at block row `t`,
    block column 0, where the rows' block was read. -/
theorem flushed2_eq (c : Dev nD) (t : Fin cfg2.N) :
    (dat2 (F := Ideal) V c).flushed 2 t
      = ((cfg2.win 2).blk t).view.read (Elt Ideal) (Cert.St.biasRelu (F := Ideal) (V c main_v63) (V c main_v64)) := by
  show (cfg2.win 2).cut (grid2.coords t) ((dat2 V c).after 2 t) = _
  rw [after2_2]
  unfold out2_2
  rw [View.canon_unit_zero zeroOff2]
  simp only [View.ld_unit_zero (S := S5000x64) zeroOff2, View.ld_unit_zero (S := S1x64) zeroOff2]
  obtain ⟨-, -, -, -, e0, e1⟩ := blockIdx2 t
  funext j
  rw [View.read_apply]
  refine clampBlock_eq V c t _ _ rfl rfl ((cfg2.win 2).xinj (grid2.coords t) j) (((cfg2.win 2).blk t).view.emb j) ?_ ?_
  · show win2_2.index t 0 * 5000 + 1 * (j 0).val = 5000 * t.val + (j 0).val
    rw [e0]; omega
  · show win2_2.index t 1 * 64 + 1 * (j 1).val = (j 1).val
    rw [e1]; omega

/-- An entry of the array is in point `t`'s output block iff each coordinate is in the block's range on its axis. -/
theorem mem_block2 (t : Fin cfg2.N) (i : S100000x64.Idx) :
    i ∈ ((cfg2.win 2).blk t).view.set
      ↔ ∀ a : Fin 2, win2_2.index t a * S5000x64.size a ≤ (i a).val ∧ (i a).val < win2_2.index t a * S5000x64.size a + S5000x64.size a := by
  show i ∈ ((View.whole main_v65).slice (win2_2.rect t)).set ↔ _
  rw [View.set_slice_whole, Rect.mem_set_unit]
  exact Iff.rfl

/-- The twenty output blocks tile the array: row `r` lies in the block of point `r / 5000`, since
    `5000 (r / 5000) ≤ r < 5000 (r / 5000) + 5000`, every column lies in block column 0, and every point writes back. -/
theorem cover2 (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 20 := N_2
  obtain ⟨t, ht⟩ : ∃ t : Fin cfg2.N, t.val = (i 0).val / 5000 := ⟨⟨(i 0).val / 5000, by rw [hN]; omega⟩, rfl⟩
  obtain ⟨-, -, -, -, e0, e1⟩ := blockIdx2 t
  refine ⟨t, flush2_2 t, ?_⟩
  rw [mem_block2]
  intro a
  match a with
  | ⟨0, _⟩ =>
    show win2_2.index t (0 : Fin 2) * 5000 ≤ (i 0).val ∧ (i 0).val < win2_2.index t (0 : Fin 2) * 5000 + 5000
    rw [e0, ht]; omega
  | ⟨1, _⟩ =>
    show win2_2.index t (1 : Fin 2) * 64 ≤ (i 1).val ∧ (i 1).val < win2_2.index t (1 : Fin 2) * 64 + 64
    rw [e1]; omega

end L2

/-- After the third launch the output array holds the first input plus the bias row, clamped at zero. -/
theorem arr2_eq (c : Dev nD) :
    (dat2 (F := Ideal) V c).arrAt 2 cfg2.N = Cert.St.biasRelu (F := Ideal) (V c main_v63) (V c main_v64) :=
  (dat2 (F := Ideal) V c).arrAt_eq_of_cover 2 (Cert.St.biasRelu (F := Ideal) (V c main_v63) (V c main_v64))
    (fun t _ => L2.flushed2_eq V c t) L2.cover2

end Cert.KernelIdeal.HV

end
-- ==== Proof.Val.R3.lean ====
import proofs.«427723_j89670327206505_1_alg».proof.Proof.KI.Reg3
import proofs.«427723_j89670327206505_1_alg».proof.Proof.Val.Stages
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

/-!
# The value of the fourth launch: the per-graph sums

The accumulator after a point holds, at entry (`g`, `q`), the sum over the rows of the blocks read so far whose id, read
signed, is `g`, of the row's entry in column `q`: one point adds its block's such rows (the product with the 0/1 matrix
"row `r` has id `g`" keeps a row under a factor 1 and drops it under a factor 0; over the extended reals `1 * x = x` and
`0 * x = 0` for every `x`), and the blocks of points `0 … n` are the rows `0 … 5000·(n+1) − 1`. The reference's scatter
adds row `r` of the features into row `id r` of an array of zeros, so its entry (`g`, `q`) is the same sum over all the
rows; a row whose id is no row number of the result is added nowhere on either side. After the last point the twenty
blocks are all the rows; the output's block there is the whole array, and it is written back there and nowhere else.
-/

/-! ## The reference's per-graph sums at an entry

The scatter sends the update element in row `r`, column `c` to row `id r` (the id word of row `r`, read signed and not
clamped), column `c` of the result, when that row exists; otherwise nowhere. -/

namespace Cert.St.L3

open Cert.ReferenceIdeal Idealize.ShloMosaic Idealize.ShloMosaic.ValueIdx

/-- On the row axis the window starts at the id of the update's row … -/
theorem start0 (ids : IVec S100000x1 32) (r : Fin 100000) (c : Fin 64) :
    scatter_S128x64_S100000x1_S100000x64_1_0_0_1.start (ix2 r c) ids (0 : Fin S128x64.rank) = (ids (ix2 r (0 : Fin 1))).toInt := by
  unfold ScatterDims.start
  rw [dif_pos (show (0 : Fin S128x64.rank) ∈ scatter_S128x64_S100000x1_S100000x64_1_0_0_1.scatterDimsToOperandDims by decide)]
  congr 2
  funext b; refine Fin.ext ?_
  match b with
  | ⟨0, _⟩ => rfl
  | ⟨1, _⟩ => rfl

/-- … and on the column axis at 0; -/
theorem start1 (ids : IVec S100000x1 32) (r : Fin 100000) (c : Fin 64) :
    scatter_S128x64_S100000x1_S100000x64_1_0_0_1.start (ix2 r c) ids (1 : Fin S128x64.rank) = 0 := by
  unfold ScatterDims.start
  rw [dif_neg (show ¬ (1 : Fin S128x64.rank) ∈ scatter_S128x64_S100000x1_S100000x64_1_0_0_1.scatterDimsToOperandDims by decide)]

/-- the window has one row … -/
theorem window0 (r : Fin 100000) (c : Fin 64) :
    scatter_S128x64_S100000x1_S100000x64_1_0_0_1.window (ix2 r c) (0 : Fin S128x64.rank) = 0 := by
  unfold ScatterDims.window
  rw [dif_neg (show ¬ (0 : Fin S128x64.rank) ∈ scatter_S128x64_S100000x1_S100000x64_1_0_0_1.sKept by decide)]

/-- … and the update's column is its column. -/
theorem window1 (r : Fin 100000) (c : Fin 64) :
    scatter_S128x64_S100000x1_S100000x64_1_0_0_1.window (ix2 r c) (1 : Fin S128x64.rank) = c.val := by
  unfold ScatterDims.window
  rw [dif_pos (show (1 : Fin S128x64.rank) ∈ scatter_S128x64_S100000x1_S100000x64_1_0_0_1.sKept by decide)]
  rfl

/-- WHERE AN UPDATE ELEMENT LANDS: the element in row `r`, column `c` lands on entry (`g`, `q`) exactly when the id of
    row `r`, read signed, is `g` and `c` is `q`. (An id that is no row number of the result lands nowhere.) -/
theorem lands_iff (ids : IVec S100000x1 32) (r : Fin 100000) (c : Fin 64) (g : Fin 128) (q : Fin 64) :
    scatter_S128x64_S100000x1_S100000x64_1_0_0_1.resultIdx? (ix2 r c) ids = some (ix2 g q)
      ↔ (ids (ix2 r (0 : Fin 1))).toInt = (g.val : ℤ) ∧ c = q := by
  have s0 := start0 ids r c
  have s1 := start1 ids r c
  have w0 := window0 r c
  have w1 := window1 r c
  have hg : g.val < 128 := g.isLt
  have hc : c.val < 64 := c.isLt
  unfold ScatterDims.resultIdx?
  split
  · next h =>
    constructor
    · intro e
      have e' := Option.some.inj e
      have e0 : (scatter_S128x64_S100000x1_S100000x64_1_0_0_1.start (ix2 r c) ids (0 : Fin S128x64.rank)
          + (scatter_S128x64_S100000x1_S100000x64_1_0_0_1.window (ix2 r c) (0 : Fin S128x64.rank) : ℤ)).toNat = g.val :=
        congrArg Fin.val (congrFun e' (0 : Fin S128x64.rank))
      have e1 : (scatter_S128x64_S100000x1_S100000x64_1_0_0_1.start (ix2 r c) ids (1 : Fin S128x64.rank)
          + (scatter_S128x64_S100000x1_S100000x64_1_0_0_1.window (ix2 r c) (1 : Fin S128x64.rank) : ℤ)).toNat = q.val :=
        congrArg Fin.val (congrFun e' (1 : Fin S128x64.rank))
      have h0 := (h (0 : Fin S128x64.rank)).1
      rw [s0, w0] at e0 h0
      rw [s1, w1] at e1
      refine ⟨by omega, Fin.ext (by omega)⟩
    · rintro ⟨hA, rfl⟩
      refine congrArg some (funext fun a => Fin.ext ?_)
      match a with
      | ⟨0, _⟩ =>
        show (scatter_S128x64_S100000x1_S100000x64_1_0_0_1.start (ix2 r c) ids (0 : Fin S128x64.rank)
          + (scatter_S128x64_S100000x1_S100000x64_1_0_0_1.window (ix2 r c) (0 : Fin S128x64.rank) : ℤ)).toNat = g.val
        rw [s0, w0, hA]; omega
      | ⟨1, _⟩ =>
        show (scatter_S128x64_S100000x1_S100000x64_1_0_0_1.start (ix2 r c) ids (1 : Fin S128x64.rank)
          + (scatter_S128x64_S100000x1_S100000x64_1_0_0_1.window (ix2 r c) (1 : Fin S128x64.rank) : ℤ)).toNat = c.val
        rw [s1, w1]; omega
  · next h =>
    constructor
    · intro e; cases e
    · rintro ⟨hA, rfl⟩
      refine absurd (fun a => ?_) h
      match a with
      | ⟨0, _⟩ =>
        show 0 ≤ scatter_S128x64_S100000x1_S100000x64_1_0_0_1.start (ix2 r c) ids (0 : Fin S128x64.rank)
            + (scatter_S128x64_S100000x1_S100000x64_1_0_0_1.window (ix2 r c) (0 : Fin S128x64.rank) : ℤ)
          ∧ scatter_S128x64_S100000x1_S100000x64_1_0_0_1.start (ix2 r c) ids (0 : Fin S128x64.rank)
            + (scatter_S128x64_S100000x1_S100000x64_1_0_0_1.window (ix2 r c) (0 : Fin S128x64.rank) : ℤ) < ((128 : ℕ) : ℤ)
        rw [s0, w0, hA]; omega
      | ⟨1, _⟩ =>
        show 0 ≤ scatter_S128x64_S100000x1_S100000x64_1_0_0_1.start (ix2 r c) ids (1 : Fin S128x64.rank)
            + (scatter_S128x64_S100000x1_S100000x64_1_0_0_1.window (ix2 r c) (1 : Fin S128x64.rank) : ℤ)
          ∧ scatter_S128x64_S100000x1_S100000x64_1_0_0_1.start (ix2 r c) ids (1 : Fin S128x64.rank)
            + (scatter_S128x64_S100000x1_S100000x64_1_0_0_1.window (ix2 r c) (1 : Fin S128x64.rank) : ℤ) < ((64 : ℕ) : ℤ)
        rw [s1, w1]; omega

/-- THE PER-GRAPH SUMS AT AN ENTRY: the sum, over the rows whose id, read signed, is the entry's row number, of the
    row's entry in the entry's column. -/
theorem graphSums_apply (h : (⟨S100000x64, .f32⟩ : BufTy).Contents (Elt Ideal)) (ids : (⟨S100000x1, .i32⟩ : BufTy).Contents (Elt Ideal))
    (g : Fin 128) (q : Fin 64) :
    Cert.St.graphSums (F := Ideal) h ids (ix2 g q)
      = ∑ r : Fin 100000, if (ids (ix2 r (0 : Fin 1))).toInt = (g.val : ℤ) then h (ix2 r q) else 0 := by
  unfold Cert.St.graphSums
  simp only [Host.scatterAdd]
  rw [Ideal.hostScatterAdd_def]
  unfold Ideal.hostScatterAdd
  show Ideal.ofBits .f32 0x00000000#32 + _ = _
  rw [Ideal.ofBits_zero_f32, zero_add, Finset.sum_filter, sum_idx2]
  refine Finset.sum_congr rfl fun r _ => ?_
  simp only [lands_iff]
  by_cases hA : (ids (ix2 r (0 : Fin 1))).toInt = (g.val : ℤ)
  · simp only [hA, true_and, if_true]
    exact Finset.sum_ite_eq' Finset.univ q _ |>.trans (if_pos (Finset.mem_univ q))
  · simp only [hA, false_and, if_false]
    exact Finset.sum_const_zero

end Cert.St.L3

namespace Cert.KernelIdeal.HV

open Cert.KernelIdeal Cert.KernelIdeal.Gen Cert.KernelIdeal.H
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

namespace L3

/-! ## One point's update at an entry -/

/-- The entry of the 0/1 matrix as an integer: the comparison of a row's id word with the column number `g`, widened
    and read signed, is 1 when the id, read signed, is `g`, and 0 otherwise. -/
theorem oneHot_word (a : BitVec 32) (g : Fin 128) :
    ((IntOp.cmpi .eq a (BitVec.ofNat 32 g.val)).setWidth 32).toInt = if a.toInt = (g.val : ℤ) then 1 else 0 := by
  have hg : g.val < 128 := g.isLt
  have hm : g.val % 4294967296 = g.val := Nat.mod_eq_of_lt (by omega)
  have hgi : (BitVec.ofNat 32 g.val).toInt = (g.val : ℤ) := by
    unfold BitVec.toInt
    rw [BitVec.toNat_ofNat]
    simp only [Nat.reducePow, hm]
    rw [if_pos (by omega)]
  by_cases h : a = BitVec.ofNat 32 g.val
  · subst h
    rw [hgi, if_pos rfl]
    simp [IntOp.cmpi]
  · have hne : ¬ a.toInt = (g.val : ℤ) := fun e => h (BitVec.eq_of_toInt_eq (e.trans hgi.symm))
    rw [if_neg hne]
    have hb : (a == BitVec.ofNat 32 g.val) = false := beq_false_of_ne h
    simp [IntOp.cmpi, hb]

/-- The product's left operand is read at (contracted row, output row) … -/
theorem lhs_pool_0 (i : S128x64.Idx) (k : dot_S5000x128_S5000x64_S128x64_0_0_1_1_n_n.contr.Idx) :
    (dot_S5000x128_S5000x64_S128x64_0_0_1_1_n_n.lhsIdx i k 0).val = (k ⟨0, by decide⟩).val :=
  dot_S5000x128_S5000x64_S128x64_0_0_1_1_n_n.lhsIdx_val_of_single rfl i k
theorem lhs_pool_1 (i : S128x64.Idx) (k : dot_S5000x128_S5000x64_S128x64_0_0_1_1_n_n.contr.Idx) :
    (dot_S5000x128_S5000x64_S128x64_0_0_1_1_n_n.lhsIdx i k 1).val = (i 0).val := by
  unfold DotDims.lhsIdx
  rw [dif_neg (show ¬(1 : Fin S5000x128.rank) ∈ dot_S5000x128_S5000x64_S128x64_0_0_1_1_n_n.lhsBatch by decide), dif_pos (show (1 : Fin S5000x128.rank) ∈ dot_S5000x128_S5000x64_S128x64_0_0_1_1_n_n.lhsNonContracting by decide)]
  rfl
/-- … and its right operand at (contracted row, output column). -/
theorem rhs_pool_0 (i : S128x64.Idx) (k : dot_S5000x128_S5000x64_S128x64_0_0_1_1_n_n.contr.Idx) :
    (dot_S5000x128_S5000x64_S128x64_0_0_1_1_n_n.rhsIdx i k 0).val = (k ⟨0, by decide⟩).val :=
  dot_S5000x128_S5000x64_S128x64_0_0_1_1_n_n.rhsIdx_val_of_single rfl i k
theorem rhs_pool_1 (i : S128x64.Idx) (k : dot_S5000x128_S5000x64_S128x64_0_0_1_1_n_n.contr.Idx) :
    (dot_S5000x128_S5000x64_S128x64_0_0_1_1_n_n.rhsIdx i k 1).val = (i 1).val := by
  unfold DotDims.rhsIdx
  rw [dif_neg (show ¬(1 : Fin S5000x64.rank) ∈ dot_S5000x128_S5000x64_S128x64_0_0_1_1_n_n.rhsBatch by decide), dif_pos (show (1 : Fin S5000x64.rank) ∈ dot_S5000x128_S5000x64_S128x64_0_0_1_1_n_n.rhsNonContracting by decide)]
  rfl

/-- ONE POINT'S UPDATE AT AN ENTRY: the accumulator's entry plus the sum, over the block's rows whose id, read signed, is
    the entry's row number `g`, of the row's entry in column `q` (the product with the 0/1 matrix: a factor 1 keeps the
    row's entry, a factor 0 drops it). -/
theorem step3_apply (ids : Vec Ideal S5000x1 .i32) (rows : Vec Ideal S5000x64 .f32) (acc : Vec Ideal S128x64 .f32)
    (g : Fin 128) (q : Fin 64) :
    step3 ids rows acc (ix2 g q)
      = acc (ix2 g q) + ∑ r : Fin 5000, if (ids (ix2 r (0 : Fin 1))).toInt = (g.val : ℤ) then rows (ix2 r q) else 0 := by
  unfold step3 k3_pay2
  simp only [shapeCast_self]
  rw [addf_apply]
  congr 1
  simp only [matmul]
  rw [Ideal.matmul_constant_zero_apply, ← Equiv.sum_comp (contrEquiv1 dot_S5000x128_S5000x64_S128x64_0_0_1_1_n_n 5000 rfl rfl).symm]
  refine Finset.sum_congr rfl fun k _ => ?_
  have hk := contrEquiv1_symm_val dot_S5000x128_S5000x64_S128x64_0_0_1_1_n_n 5000 rfl rfl k
  have el : dot_S5000x128_S5000x64_S128x64_0_0_1_1_n_n.lhsIdx (ix2 g q) ((contrEquiv1 dot_S5000x128_S5000x64_S128x64_0_0_1_1_n_n 5000 rfl rfl).symm k) = ix2 k g := funext fun a => Fin.ext (by
    match a with
    | ⟨0, _⟩ => exact (lhs_pool_0 _ _).trans hk
    | ⟨1, _⟩ => exact lhs_pool_1 _ _)
  have er : dot_S5000x128_S5000x64_S128x64_0_0_1_1_n_n.rhsIdx (ix2 g q) ((contrEquiv1 dot_S5000x128_S5000x64_S128x64_0_0_1_1_n_n 5000 rfl rfl).symm k) = ix2 k q := funext fun a => Fin.ext (by
    match a with
    | ⟨0, _⟩ => exact (rhs_pool_0 _ _).trans hk
    | ⟨1, _⟩ => exact rhs_pool_1 _ _)
  rw [el, er, truncf_apply, truncf_apply, sitofp_apply, extui_apply]
  show Scalar.sitofp (F := Ideal) .f32 ((IntOp.cmpi .eq (broadcastTo S5000x128 ids broadcasts_S5000x1_S5000x128 (ix2 k g)) (iota .tc S5000x128 32 [1] iota_S5000x128_d1_w32 (ix2 k g))).setWidth 32) * rows (ix2 k q) = _
  rw [broadcastTo_apply ids broadcasts_S5000x1_S5000x128 (ix2 k g) (ix2 k (0 : Fin 1)) (fun a => by
      match a with
      | ⟨0, _⟩ => rfl
      | ⟨1, _⟩ => rfl),
    iota_single_apply]
  show Scalar.sitofp (F := Ideal) .f32 ((IntOp.cmpi .eq (ids (ix2 k (0 : Fin 1))) (BitVec.ofNat 32 g.val)).setWidth 32) * rows (ix2 k q) = _
  rw [Ideal.scalar_sitofp_def, oneHot_word]
  by_cases h : (ids (ix2 k (0 : Fin 1))).toInt = (g.val : ℤ)
  · rw [if_pos h, if_pos h]; simp
  · rw [if_neg h, if_neg h]; simp

/-- The cleared accumulator is zero at every entry. -/
theorem zero3_apply (g : Fin 128) (q : Fin 64) : (zero3 (F := Ideal)) (ix2 g q) = 0 := by
  unfold zero3 k3_pay1
  simp only [shapeCast_self]
  exact Ideal.ofBits_zero_f32

/-! ## The arrays and the blocks a point reads, at their literal types -/

/-- The node features the launch finds. -/
abbrev feat (c : Dev nD) : Vec Ideal S100000x64 .f32 := V c main_v65
/-- The graph ids the launch finds. -/
abbrev gid (c : Dev nD) : Vec Ideal S100000x1 .i32 := V c main_v4
/-- The block of features point `t` reads. -/
abbrev featBlk (c : Dev nD) (t : Fin cfg3.N) : Vec Ideal S5000x64 .f32 := iblk3 V c 0 t
/-- The block of ids point `t` reads. -/
abbrev gidBlk (c : Dev nD) (t : Fin cfg3.N) : Vec Ideal S5000x1 .i32 := iblk3 V c 1 t

/-- The printed index maps over the grid: at point `t` the features' and the ids' block is block `t` along the rows,
    and the output's block is the whole array. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0 :=
  (by decide +kernel : ∀ t : Fin grid3.N, _)

/-- Row `p` of the features' block at point `t` is row `5000·t + p` of the features. -/
theorem featBlk_apply (c : Dev nD) (t : Fin cfg3.N) (p : Fin 5000) (q : Fin 64) (hr : 5000 * t.val + p.val < 100000) :
    featBlk V c t (ix2 p q) = feat V c (ix2 (⟨5000 * t.val + p.val, hr⟩ : Fin 100000) q) := by
  unfold featBlk feat iblk3
  rw [View.read_apply]
  show V c main_v65 _ = V c main_v65 _
  congr 1
  funext a; apply Fin.ext
  match a with
  | ⟨0, _⟩ => show win3_0.index t (0 : Fin 2) * 5000 + 1 * p.val = 5000 * t.val + p.val; rw [(idx_facts t).1]; omega
  | ⟨1, _⟩ => show win3_0.index t (1 : Fin 2) * 64 + 1 * q.val = q.val; rw [(idx_facts t).2.1]; omega

/-- Row `p` of the ids' block at point `t` is row `5000·t + p` of the ids. -/
theorem gidBlk_apply (c : Dev nD) (t : Fin cfg3.N) (p : Fin 5000) (hr : 5000 * t.val + p.val < 100000) :
    gidBlk V c t (ix2 p (0 : Fin 1)) = gid V c (ix2 (⟨5000 * t.val + p.val, hr⟩ : Fin 100000) (0 : Fin 1)) := by
  unfold gidBlk gid iblk3
  rw [View.read_apply]
  show V c main_v4 _ = V c main_v4 _
  congr 1
  funext a; apply Fin.ext
  match a with
  | ⟨0, _⟩ => show win3_1.index t (0 : Fin 2) * 5000 + 1 * p.val = 5000 * t.val + p.val; rw [(idx_facts t).2.2.1]; omega
  | ⟨1, _⟩ => show win3_1.index t (1 : Fin 2) * 1 + 1 * (0 : Fin 1).val = (0 : Fin 1).val; rw [(idx_facts t).2.2.2.1]; rfl

/-! ## The accumulator after each point -/

/-- Row `k`'s share of entry (`g`, `q`) of the per-graph sums: its entry in column `q` when its id, read signed, is
    `g`, and nothing otherwise (nothing for a `k` that is no row of the array). -/
def share (c : Dev nD) (g : Fin 128) (q : Fin 64) (k : ℕ) : EReal :=
  if h : k < 100000 then
    (if (gid V c (ix2 (⟨k, h⟩ : Fin 100000) (0 : Fin 1))).toInt = (g.val : ℤ)
      then feat V c (ix2 (⟨k, h⟩ : Fin 100000) q) else 0)
  else 0

/-- What a point adds to an entry is the shares of its block's rows. -/
theorem blk_sum (c : Dev nD) (t : Fin cfg3.N) (g : Fin 128) (q : Fin 64) :
    (∑ p : Fin 5000, if (gidBlk V c t (ix2 p (0 : Fin 1))).toInt = (g.val : ℤ) then featBlk V c t (ix2 p q) else 0)
      = ∑ k ∈ Finset.range 5000, share V c g q (5000 * t.val + k) := by
  have ht : t.val < 20 := t.isLt.trans_eq N_3
  rw [← Fin.sum_univ_eq_sum_range (fun k => share V c g q (5000 * t.val + k)) 5000]
  refine Finset.sum_congr rfl fun p _ => ?_
  have hp : p.val < 5000 := p.isLt
  have hr : 5000 * t.val + p.val < 100000 := by omega
  rw [featBlk_apply V c t p q hr, gidBlk_apply V c t p hr]
  unfold share
  rw [dif_pos hr]

/-- THE ACCUMULATOR AFTER POINT `n` holds, at every entry, the shares of the rows of blocks `0 … n`. -/
theorem acc_apply (c : Dev nD) (g : Fin 128) (q : Fin 64) : ∀ (n : ℕ) (hn : n < cfg3.N),
    accAt3 V c n hn (ix2 g q) = ∑ k ∈ Finset.range (5000 * (n + 1)), share V c g q k
  | 0, hn => by
    rw [accAt3_zero]
    refine (step3_apply (gidBlk V c ⟨0, hn⟩) (featBlk V c ⟨0, hn⟩) zero3 g q).trans ?_
    rw [zero3_apply, zero_add, blk_sum V c ⟨0, hn⟩ g q]
    refine Finset.sum_congr rfl fun k _ => ?_
    show share V c g q (5000 * 0 + k) = _
    rw [Nat.mul_zero, Nat.zero_add]
  | n + 1, hn => by
    rw [accAt3_succ]
    refine (step3_apply (gidBlk V c ⟨n + 1, hn⟩) (featBlk V c ⟨n + 1, hn⟩) (accAt3 V c n (Nat.lt_of_succ_lt hn)) g q).trans ?_
    rw [acc_apply c g q n (Nat.lt_of_succ_lt hn), blk_sum V c ⟨n + 1, hn⟩ g q,
      show 5000 * (n + 1 + 1) = 5000 * (n + 1) + 5000 from by omega, Finset.sum_range_add]

/-- AFTER THE LAST POINT the accumulator holds the per-graph sums: the twenty blocks' rows are all the rows. -/
theorem acc_last (c : Dev nD) (h19 : 19 < cfg3.N) :
    accAt3 V c 19 h19 = Cert.St.graphSums (F := Ideal) (V c main_v65) (V c main_v4) := by
  funext j
  obtain ⟨g, q, rfl⟩ : ∃ (g : Fin 128) (q : Fin 64), j = ix2 g q := ⟨j 0, j 1, eq_ix2 j⟩
  rw [acc_apply V c g q 19 h19]
  refine Eq.trans ?_ (Cert.St.L3.graphSums_apply (feat V c) (gid V c) g q).symm
  show ∑ k ∈ Finset.range 100000, share V c g q k = _
  rw [← Fin.sum_univ_eq_sum_range (fun k => share V c g q k) 100000]
  refine Finset.sum_congr rfl fun r _ => ?_
  unfold share
  rw [dif_pos r.isLt]

/-! ## The output array -/

/-- The last point of the grid, the one that writes the output back. -/
abbrev tLast : Fin cfg3.N := ⟨19, by decide⟩

/-- The one write-back, at the last point, writes the per-graph sums: the output's block there is the whole array. -/
theorem flushed_eq (c : Dev nD) (t : Fin cfg3.N) (hf : (cfg3.win 2).flush t = true) :
    (dat3 V c).flushed 2 t
      = ((cfg3.win 2).blk t).view.read (Elt Ideal) (Cert.St.graphSums (F := Ideal) (V c main_v65) (V c main_v4)) := by
  have ht : t.val < 20 := t.isLt.trans_eq N_3
  have h19 : t.val = 19 := by have := (flush3_2 t).mp hf; omega
  obtain rfl : t = tLast := Fin.ext h19
  show (cfg3.win 2).cut (grid3.coords tLast) ((dat3 V c).after 2 tLast) = _
  rw [after3_2, acc_last]
  have hz' : (fun a => win3_2.index tLast a * main_v66.ty.shape.size a) = fun _ => 0 := funext fun a => by fin_cases a <;> decide
  exact (Memref.read_access_unit_zero (Elt Ideal) main_v66 hz' (fun a => by rw [congrFun hz' a]; simp)
    (Cert.St.graphSums (F := Ideal) (V c main_v65) (V c main_v4))).symm

end L3

/-- After the fourth launch the output array holds the per-graph sums of the rows of the first input, the graph of row
    `r` being the id in row `r` of the second: the accumulator after the last point is the sum over the twenty blocks of
    the blocks' per-graph sums, and a row whose id is none of `0 … 127` meets no column of the 0/1 matrix. -/
theorem arr3_eq (c : Dev nD) :
    (dat3 (F := Ideal) V c).arrAt 2 cfg3.N = Cert.St.graphSums (F := Ideal) (V c main_v65) (V c main_v4) :=
  (dat3 V c).arrAt_eq_of_cover 2 _ (L3.flushed_eq V c) fun i =>
    ⟨L3.tLast, (flush3_2 L3.tLast).mpr rfl, by
      show i ∈ ((View.whole main_v66).slice (win3_2.rect L3.tLast)).set
      rw [View.set_slice_whole, Rect.mem_set_unit]
      intro a
      have h0 : (i 0 : Nat) < 128 := (i 0).isLt
      have h1 : (i 1 : Nat) < 64 := (i 1).isLt
      match a with
      | ⟨0, _⟩ =>
        show win3_2.index L3.tLast 0 * win3_2.size 0 ≤ (i 0 : Nat) ∧ (i 0 : Nat) < win3_2.index L3.tLast 0 * win3_2.size 0 + win3_2.xsize (grid3.coords L3.tLast) 0
        rw [show win3_2.index L3.tLast 0 * win3_2.size 0 = 0 from by decide +kernel, show win3_2.xsize (grid3.coords L3.tLast) 0 = 128 from by decide +kernel]; omega
      | ⟨1, _⟩ =>
        show win3_2.index L3.tLast 1 * win3_2.size 1 ≤ (i 1 : Nat) ∧ (i 1 : Nat) < win3_2.index L3.tLast 1 * win3_2.size 1 + win3_2.xsize (grid3.coords L3.tLast) 1
        rw [show win3_2.index L3.tLast 1 * win3_2.size 1 = 0 from by decide +kernel, show win3_2.xsize (grid3.coords L3.tLast) 1 = 64 from by decide +kernel]; omega⟩

end Cert.KernelIdeal.HV

end
-- ==== Proof.Val.HostK.lean ====
import proofs.«427723_j89670327206505_1_alg».proof.Proof.Gen.KernelIdeal.Launch
import proofs.«427723_j89670327206505_1_alg».proof.Proof.Val.Stages
import Idealize.ShloMosaic.Lib.StableHlo.Run
import Idealize.ShloMosaic.Lib.Pipeline.Value
import Idealize.ShloMosaic.Lib.ValueIdx
import Idealize.ShloMosaic.Lib.ValueLayout

/-!
# The kernel program's host stretches compute the shared stages

Between its launches the kernel program runs the same host operations as the reference: the edge lists with the self
loops appended, the degree and the normalisation factors, and after each of the first two launches the aggregation of
the launch's result. Each stretch is read here from ANY contents `W` of the buffers before it: the buffers that later
steps read hold the shared stages of what `W` holds.
-/

set_option maxRecDepth 16384

noncomputable section

namespace Cert.KernelIdeal.HV

open Cert.KernelIdeal Cert.KernelIdeal.Gen
open Idealize.ShloMosaic Idealize.ShloMosaic.TcCoe Idealize.SL.Sem Idealize.ShloMosaic.StableHlo
open Cert.ReferenceIdeal.Read (val_main_v6 val_main_v7 val_main_v34 val_main_v48 val_main_v96 val_main_v105)

variable (W : Valuation τ sig (Elt Ideal))

/-- The contents after the three stretches before the first launch. -/
abbrev pre (W : Valuation τ sig (Elt Ideal)) : Valuation τ sig (Elt Ideal) :=
  StableHlo.after hostOps0_2 (StableHlo.after hostOps0_1 (StableHlo.after hostOps0 W))

open Cert.ReferenceIdeal.Read (val_main_v9 val_main_v14 val_main_v17 val_main_v18 val_main_cst_3)

/-! ## The three stretches before the first launch, one at a time

Each is read from any contents `X`: the first builds the edge lists with the self loops, the edge weights with a one per
self loop, the weighted in-degree of every node, and from it the test "degree positive" and the inverse square root of
the degree clamped from below; the second keeps that inverse root where the degree is positive and zero elsewhere; the
third multiplies every edge's weight by the kept inverse roots at its source and at its target. -/

section Stretches

variable (X : Valuation τ sig (Elt Ideal))

/-- First stretch: the sources, the first row of the edge array followed by `0 … N-1`. -/
theorem s0_v6 : StableHlo.after hostOps0 X (Proc.devRef .tc main_v6) = val_main_v6 (F := Ideal) (X (Proc.devRef .tc main_arg6)) := by
  dsimp only [hostOps0]
  after_results_simp
  rfl
/-- First stretch: the targets, the second row of the edge array followed by `0 … N-1`. -/
theorem s0_v7 : StableHlo.after hostOps0 X (Proc.devRef .tc main_v7) = val_main_v7 (F := Ideal) (X (Proc.devRef .tc main_arg6)) := by
  dsimp only [hostOps0]
  after_results_simp
  rfl
/-- First stretch: the edge weights followed by a one per self loop. -/
theorem s0_v9 : StableHlo.after hostOps0 X (Proc.devRef .tc main_v9) = val_main_v9 (F := Ideal) (X (Proc.devRef .tc main_arg1)) := by
  dsimp only [hostOps0]
  after_results_simp
  rfl
/-- First stretch: the test "the weighted in-degree is positive". -/
theorem s0_v14 : StableHlo.after hostOps0 X (Proc.devRef .tc main_v14)
    = val_main_v14 (F := Ideal) (X (Proc.devRef .tc main_arg1)) (X (Proc.devRef .tc main_arg6)) := by
  dsimp only [hostOps0]
  after_results_simp
  rfl
/-- First stretch: the inverse square root of the weighted in-degree clamped from below. -/
theorem s0_v17 : StableHlo.after hostOps0 X (Proc.devRef .tc main_v17)
    = val_main_v17 (F := Ideal) (X (Proc.devRef .tc main_arg1)) (X (Proc.devRef .tc main_arg6)) := by
  dsimp only [hostOps0]
  after_results_simp
  rfl
/-- First stretch: the zero that replaces the inverse root where the degree is not positive. -/
theorem s0_cst3 : StableHlo.after hostOps0 X (Proc.devRef .tc main_cst_3) = val_main_cst_3 (F := Ideal) := by
  dsimp only [hostOps0]
  after_results_simp
  rfl
/-- First stretch: the graph ids as a column. The reshape reads the entry with the same row-major position, the broadcast
    the entry at the row coordinate; with one column the two positions agree. -/
theorem s0_v4 : StableHlo.after hostOps0 X (Proc.devRef .tc main_v4) = val_main_v105 (F := Ideal) (X (Proc.devRef .tc main_arg7)) := by
  dsimp only [hostOps0]
  after_results_simp
  funext i
  rw [Cert.ReferenceIdeal.Read.val_main_v105_apply]
  refine shapeCast_apply _ _ i _ ?_
  show (S100000.rowMajor (Cert.ReferenceIdeal.Read.idx_main_v105 i)).val = (S100000x1.rowMajor i).val
  rw [Shape.rowMajor_val_two, Shape.rowMajor_val_one]
  have h1 : (i 1).val < 1 := (i 1).isLt
  show (i 0).val = (i 0).val * 1 + (i 1).val
  omega

/-- Second stretch: the inverse root where the degree is positive, zero elsewhere, from buffers that hold the test, the
    inverse root and the zero. -/
theorem s1_v18 (x1 : (⟨S1000000, .f32⟩ : BufTy).Contents (Elt Ideal)) (x6 : (⟨S2x1000000, .i32⟩ : BufTy).Contents (Elt Ideal))
    (h14 : X (Proc.devRef .tc main_v14) = val_main_v14 (F := Ideal) x1 x6)
    (h17 : X (Proc.devRef .tc main_v17) = val_main_v17 (F := Ideal) x1 x6)
    (hc : X (Proc.devRef .tc main_cst_3) = val_main_cst_3 (F := Ideal)) :
    StableHlo.after hostOps0_1 X (Proc.devRef .tc main_v18) = val_main_v18 (F := Ideal) x1 x6 := by
  dsimp only [hostOps0_1]
  after_results_simp
  simp only [TRef.ofBuf, TRef.toBuf, cast_eq]
  rw [h14, h17, hc]
  rfl
/-- The second stretch writes none of the edge lists, the weights and the id column. -/
theorem s1_v6 : StableHlo.after hostOps0_1 X (Proc.devRef .tc main_v6) = X (Proc.devRef .tc main_v6) := by
  dsimp only [hostOps0_1]
  after_results_simp
theorem s1_v7 : StableHlo.after hostOps0_1 X (Proc.devRef .tc main_v7) = X (Proc.devRef .tc main_v7) := by
  dsimp only [hostOps0_1]
  after_results_simp
theorem s1_v9 : StableHlo.after hostOps0_1 X (Proc.devRef .tc main_v9) = X (Proc.devRef .tc main_v9) := by
  dsimp only [hostOps0_1]
  after_results_simp
theorem s1_v4 : StableHlo.after hostOps0_1 X (Proc.devRef .tc main_v4) = X (Proc.devRef .tc main_v4) := by
  dsimp only [hostOps0_1]
  after_results_simp

/-- Third stretch: every edge's weight times the kept inverse roots at its source and at its target, from buffers that
    hold the edge lists, the weights and the kept inverse roots. -/
theorem s2_v34 (x1 : (⟨S1000000, .f32⟩ : BufTy).Contents (Elt Ideal)) (x6 : (⟨S2x1000000, .i32⟩ : BufTy).Contents (Elt Ideal))
    (h6 : X (Proc.devRef .tc main_v6) = val_main_v6 (F := Ideal) x6)
    (h7 : X (Proc.devRef .tc main_v7) = val_main_v7 (F := Ideal) x6)
    (h9 : X (Proc.devRef .tc main_v9) = val_main_v9 (F := Ideal) x1)
    (h18 : X (Proc.devRef .tc main_v18) = val_main_v18 (F := Ideal) x1 x6) :
    StableHlo.after hostOps0_2 X (Proc.devRef .tc main_v34) = val_main_v34 (F := Ideal) x1 x6 := by
  dsimp only [hostOps0_2]
  after_results_simp
  rw [h6, h7, h9, h18]
  rfl
/-- The third stretch writes neither edge list nor the id column. -/
theorem s2_v6 : StableHlo.after hostOps0_2 X (Proc.devRef .tc main_v6) = X (Proc.devRef .tc main_v6) := by
  dsimp only [hostOps0_2]
  after_results_simp
theorem s2_v7 : StableHlo.after hostOps0_2 X (Proc.devRef .tc main_v7) = X (Proc.devRef .tc main_v7) := by
  dsimp only [hostOps0_2]
  after_results_simp
theorem s2_v4 : StableHlo.after hostOps0_2 X (Proc.devRef .tc main_v4) = X (Proc.devRef .tc main_v4) := by
  dsimp only [hostOps0_2]
  after_results_simp

end Stretches

/-- The edges' sources with the self loops appended. -/
theorem pre_v6 : pre W (Proc.devRef .tc main_v6) = val_main_v6 (F := Ideal) (W (Proc.devRef .tc main_arg6)) := by
  show StableHlo.after hostOps0_2 (StableHlo.after hostOps0_1 (StableHlo.after hostOps0 W)) _ = _
  rw [s2_v6, s1_v6, s0_v6]
/-- The edges' targets with the self loops appended. -/
theorem pre_v7 : pre W (Proc.devRef .tc main_v7) = val_main_v7 (F := Ideal) (W (Proc.devRef .tc main_arg6)) := by
  show StableHlo.after hostOps0_2 (StableHlo.after hostOps0_1 (StableHlo.after hostOps0 W)) _ = _
  rw [s2_v7, s1_v7, s0_v7]
/-- The edges' normalisation factors. -/
theorem pre_v34 : pre W (Proc.devRef .tc main_v34)
    = val_main_v34 (F := Ideal) (W (Proc.devRef .tc main_arg1)) (W (Proc.devRef .tc main_arg6)) := by
  show StableHlo.after hostOps0_2 (StableHlo.after hostOps0_1 (StableHlo.after hostOps0 W)) _ = _
  refine s2_v34 _ _ _ ?_ ?_ ?_ (s1_v18 _ _ _ (s0_v14 W) (s0_v17 W) (s0_cst3 W))
  · rw [s1_v6, s0_v6]
  · rw [s1_v7, s0_v7]
  · rw [s1_v9, s0_v9]
/-- The graph ids as a column: a reshape here, a broadcast along a new unit axis in the reference; the same column. -/
theorem pre_v4 : pre W (Proc.devRef .tc main_v4) = val_main_v105 (F := Ideal) (W (Proc.devRef .tc main_arg7)) := by
  show StableHlo.after hostOps0_2 (StableHlo.after hostOps0_1 (StableHlo.after hostOps0 W)) _ = _
  rw [s2_v4, s1_v4, s0_v4]

/-- After the first launch: the aggregation of the launch's result, -/
theorem h1_v48 : StableHlo.after hostOps1 W (Proc.devRef .tc main_v48)
    = Cert.St.agg (F := Ideal) (W (Proc.devRef .tc main_v35)) (W (Proc.devRef .tc main_v6)) (W (Proc.devRef .tc main_v7))
        (W (Proc.devRef .tc main_v34)) := by
  dsimp only [hostOps1]
  after_results_simp
  rfl
/-- and the first bias as a row: a reshape here, a broadcast along a new unit axis in the reference; the same row. -/
theorem h1_v49 : StableHlo.after hostOps1 W (Proc.devRef .tc main_v49) = val_main_v48 (F := Ideal) (W (Proc.devRef .tc main_arg3)) := by
  dsimp only [hostOps1]
  after_results_simp
  funext i
  rw [Cert.ReferenceIdeal.Read.val_main_v48_apply]
  refine shapeCast_apply _ _ i _ ?_
  show (S64.rowMajor (Cert.ReferenceIdeal.Read.idx_main_v48 i)).val = (S1x64.rowMajor i).val
  rw [Shape.rowMajor_val_two, Shape.rowMajor_val_one]
  have h0 : (i 0).val < 1 := (i 0).isLt
  show (i 1).val = (i 0).val * 64 + (i 1).val
  omega

/-- After the second launch: the aggregation of the launch's result, -/
theorem h2_v63 : StableHlo.after hostOps2 W (Proc.devRef .tc main_v63)
    = Cert.St.agg (F := Ideal) (W (Proc.devRef .tc main_v50)) (W (Proc.devRef .tc main_v6)) (W (Proc.devRef .tc main_v7))
        (W (Proc.devRef .tc main_v34)) := by
  dsimp only [hostOps2]
  after_results_simp
  rfl
/-- and the second bias as a row. -/
theorem h2_v64 : StableHlo.after hostOps2 W (Proc.devRef .tc main_v64) = val_main_v96 (F := Ideal) (W (Proc.devRef .tc main_arg5)) := by
  dsimp only [hostOps2]
  after_results_simp
  funext i
  rw [Cert.ReferenceIdeal.Read.val_main_v96_apply]
  refine shapeCast_apply _ _ i _ ?_
  show (S64.rowMajor (Cert.ReferenceIdeal.Read.idx_main_v96 i)).val = (S1x64.rowMajor i).val
  rw [Shape.rowMajor_val_two, Shape.rowMajor_val_one]
  have h0 : (i 0).val < 1 := (i 0).isLt
  show (i 1).val = (i 0).val * 64 + (i 1).val
  omega

/-- After the last launch: the per-graph sums over the per-graph counts. -/
theorem h4_v75 : StableHlo.after hostOps4 W (Proc.devRef .tc main_v75)
    = Cert.St.graphMeans (F := Ideal) (W (Proc.devRef .tc main_v66)) (W (Proc.devRef .tc main_arg7)) := by
  dsimp only [hostOps4]
  after_results_simp
  rfl

end Cert.KernelIdeal.HV

end
-- ==== Proof.Val.Final.lean ====
import proofs.«427723_j89670327206505_1_alg».proof.Proof.KI.Keep
import proofs.«427723_j89670327206505_1_alg».proof.Proof.Val.R0
import proofs.«427723_j89670327206505_1_alg».proof.Proof.Val.R1
import proofs.«427723_j89670327206505_1_alg».proof.Proof.Val.R2
import proofs.«427723_j89670327206505_1_alg».proof.Proof.Val.R3
import proofs.«427723_j89670327206505_1_alg».proof.Proof.Val.HostK

/-!
# The two results of the kernel program are the reference's

The fold of the buffers' contents through the program is read at the two result buffers. Going through the segments
in order, each buffer that a later step reads is identified with a stage of the argument arrays: the host stretches
compute the shared stages of what they find, each launch's output array is the launch's stage of its input arrays, and a
buffer is carried unchanged through every segment that does not write it. The two results come out as the reference's
own last stages of the arguments.
-/

set_option maxRecDepth 16384

noncomputable section

namespace Cert.KernelIdeal.HV

open Cert.KernelIdeal Cert.KernelIdeal.Gen Cert.KernelIdeal.H
open Idealize.ShloMosaic Idealize.ShloMosaic.TcCoe Idealize.SL.Sem
open Cert.ReferenceIdeal.Read (val_main_v4 val_main_v6 val_main_v7 val_main_v34 val_main_v47 val_main_v48 val_main_v51 val_main_v52
  val_main_v95 val_main_v96 val_main_v99 val_main_v105 val_main_v111)
open Cert.St

variable (m : (ℓ : Loc nD τ sig) → Buf (Elt Ideal) ℓ) (c : Dev nD)

/-! ## The edge lists, the normalisation factors and the id column, carried to where they are read -/

theorem W3_v6 : W3 m c (Proc.devRef .tc main_v6) = val_main_v6 (F := Ideal) (m ((c : Thread nD τ).loc main_arg6)) := pre_v6 (W0 m c)
theorem W3_v7 : W3 m c (Proc.devRef .tc main_v7) = val_main_v7 (F := Ideal) (m ((c : Thread nD τ).loc main_arg6)) := pre_v7 (W0 m c)
theorem W3_v34 : W3 m c (Proc.devRef .tc main_v34) = val_main_v34 (F := Ideal) (m ((c : Thread nD τ).loc main_arg1)) (m ((c : Thread nD τ).loc main_arg6)) := pre_v34 (W0 m c)
theorem W3_v4 : W3 m c (Proc.devRef .tc main_v4) = val_main_v105 (F := Ideal) (m ((c : Thread nD τ).loc main_arg7)) := pre_v4 (W0 m c)

theorem W3_arg (b : Ref sig .tc) (h0 : b ∉ hostOps0_W) (h01 : b ∉ hostOps0_1_W) (h02 : b ∉ hostOps0_2_W) :
    W3 m c (Proc.devRef .tc b) = m ((c : Thread nD τ).loc b) :=
  (W3_keep m c b h02).trans <| (W2_keep m c b h01).trans <| (W1_keep m c b h0).trans rfl

theorem W4_of3 (b : Ref sig .tc) (o0 : b ≠ main_v35) : W4 m c (Proc.devRef .tc b) = W3 m c (Proc.devRef .tc b) := W4_keep m c b o0
theorem W6_of3 (b : Ref sig .tc) (o0 : b ≠ main_v35) (h1 : b ∉ hostOps1_W) (o1 : b ≠ main_v50) :
    W6 m c (Proc.devRef .tc b) = W3 m c (Proc.devRef .tc b) :=
  (W6_keep m c b o1).trans <| (W5_keep m c b h1).trans (W4_keep m c b o0)
theorem W8_of3 (b : Ref sig .tc) (o0 : b ≠ main_v35) (h1 : b ∉ hostOps1_W) (o1 : b ≠ main_v50) (h2 : b ∉ hostOps2_W) (o2 : b ≠ main_v65) :
    W8 m c (Proc.devRef .tc b) = W3 m c (Proc.devRef .tc b) :=
  (W8_keep m c b o2).trans <| (W7_keep m c b h2).trans (W6_of3 m c b o0 h1 o1)
theorem W9_of3 (b : Ref sig .tc) (o0 : b ≠ main_v35) (h1 : b ∉ hostOps1_W) (o1 : b ≠ main_v50) (h2 : b ∉ hostOps2_W) (o2 : b ≠ main_v65)
    (o3 : b ≠ main_v66) : W9 m c (Proc.devRef .tc b) = W3 m c (Proc.devRef .tc b) :=
  (W9_keep m c b o3).trans (W8_of3 m c b o0 h1 o1 h2 o2)

/-! ## The first layer -/

/-- The first launch's output: the node features times the first weight matrix. -/
theorem W4_v35 : W4 m c (Proc.devRef .tc main_v35) = rowsTimes (F := Ideal) (m ((c : Thread nD τ).loc main_arg0)) (m ((c : Thread nD τ).loc main_arg2)) := by
  have h := (W4_arr m c 2).trans (arr0_eq (H.V3 m) c)
  rw [show H.V3 m c main_arg0 = (m ((c : Thread nD τ).loc main_arg0)) from W3_arg m c main_arg0 (by decide) (by decide) (by decide),
    show H.V3 m c main_arg2 = (m ((c : Thread nD τ).loc main_arg2)) from W3_arg m c main_arg2 (by decide) (by decide) (by decide)] at h
  exact h

/-- The first aggregation. -/
theorem W5_v48 : W5 m c (Proc.devRef .tc main_v48)
    = agg (F := Ideal) (rowsTimes (F := Ideal) (m ((c : Thread nD τ).loc main_arg0)) (m ((c : Thread nD τ).loc main_arg2))) (val_main_v6 (F := Ideal) (m ((c : Thread nD τ).loc main_arg6))) (val_main_v7 (F := Ideal) (m ((c : Thread nD τ).loc main_arg6)))
        (val_main_v34 (F := Ideal) (m ((c : Thread nD τ).loc main_arg1)) (m ((c : Thread nD τ).loc main_arg6))) := by
  have h := h1_v48 (W4 m c)
  rw [W4_v35 m c, W4_of3 m c main_v6 (by decide), W4_of3 m c main_v7 (by decide), W4_of3 m c main_v34 (by decide),
    W3_v6 m c, W3_v7 m c, W3_v34 m c] at h
  exact h

theorem W5_v49 : W5 m c (Proc.devRef .tc main_v49) = val_main_v48 (F := Ideal) (m ((c : Thread nD τ).loc main_arg3)) := by
  have h := h1_v49 (W4 m c)
  rw [W4_of3 m c main_arg3 (by decide), W3_arg m c main_arg3 (by decide) (by decide) (by decide)] at h
  exact h

theorem W5_arg4 : W5 m c (Proc.devRef .tc main_arg4) = (m ((c : Thread nD τ).loc main_arg4)) :=
  (W5_keep m c main_arg4 (by decide)).trans <| (W4_of3 m c main_arg4 (by decide)).trans (W3_arg m c main_arg4 (by decide) (by decide) (by decide))

/-- The second launch's output is the reference's hidden layer times the second weight matrix. -/
theorem W6_v50 : W6 m c (Proc.devRef .tc main_v50)
    = val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) := by
  have h := (W6_arr m c 3).trans (arr1_eq (H.V5 m) c)
  rw [show H.V5 m c main_v48 = _ from W5_v48 m c, show H.V5 m c main_v49 = _ from W5_v49 m c, show H.V5 m c main_arg4 = _ from W5_arg4 m c] at h
  rw [ref_v52, ref_v51, ref_v47, ref_v4]
  exact h

/-! ## The second layer -/

theorem W7_v63 : W7 m c (Proc.devRef .tc main_v63)
    = val_main_v95 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) := by
  have h := h2_v63 (W6 m c)
  rw [W6_v50 m c, W6_of3 m c main_v6 (by decide) (by decide) (by decide), W6_of3 m c main_v7 (by decide) (by decide) (by decide),
    W6_of3 m c main_v34 (by decide) (by decide) (by decide), W3_v6 m c, W3_v7 m c, W3_v34 m c] at h
  rw [ref_v95]
  exact h

theorem W7_v64 : W7 m c (Proc.devRef .tc main_v64) = val_main_v96 (F := Ideal) (m ((c : Thread nD τ).loc main_arg5)) := by
  have h := h2_v64 (W6 m c)
  rw [W6_of3 m c main_arg5 (by decide) (by decide) (by decide), W3_arg m c main_arg5 (by decide) (by decide) (by decide)] at h
  exact h

/-- The third launch's output, the first result, is the reference's. -/
theorem W8_v65 : W8 m c (Proc.devRef .tc main_v65)
    = val_main_v99 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  have h := (W8_arr m c 2).trans (arr2_eq (H.V7 m) c)
  rw [show H.V7 m c main_v63 = _ from W7_v63 m c, show H.V7 m c main_v64 = _ from W7_v64 m c] at h
  rw [ref_v99]
  exact h

/-! ## The pooling -/

/-- The fourth launch's output: the per-graph sums of the first result. -/
theorem W9_v66 : W9 m c (Proc.devRef .tc main_v66)
    = graphSums (F := Ideal) (val_main_v99 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)))
        (val_main_v105 (F := Ideal) (m ((c : Thread nD τ).loc main_arg7))) := by
  have h := (W9_arr m c 2).trans (arr3_eq (H.V8 m) c)
  rw [show H.V8 m c main_v65 = _ from W8_v65 m c,
    show H.V8 m c main_v4 = _ from (W8_of3 m c main_v4 (by decide) (by decide) (by decide) (by decide) (by decide)).trans (W3_v4 m c)] at h
  exact h

/-- THE FIRST RESULT at the end of the run. -/
theorem out_v65 : W10 m c (Proc.devRef .tc main_v65)
    = val_main_v99 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (W10_keep m c main_v65 (by decide)).trans <| (W9_keep m c main_v65 (by decide)).trans (W8_v65 m c)

/-- THE SECOND RESULT at the end of the run. -/
theorem out_v75 : W10 m c (Proc.devRef .tc main_v75)
    = val_main_v111 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  have h := h4_v75 (W9 m c)
  rw [W9_v66 m c, W9_of3 m c main_arg7 (by decide) (by decide) (by decide) (by decide) (by decide) (by decide),
    W3_arg m c main_arg7 (by decide) (by decide) (by decide)] at h
  rw [ref_v111]
  exact h

end Cert.KernelIdeal.HV

end
-- ==== Proof.RefSide.lean ====
import proofs.«427723_j89670327206505_1_alg».proof.Defs
import proofs.«427723_j89670327206505_1_alg».proof.Proof.Gen.ReferenceIdeal
import proofs.«427723_j89670327206505_1_alg».proof.Proof.Gen.ReferenceIdeal.Run
import proofs.«427723_j89670327206505_1_alg».proof.Proof.Gen.ReferenceIdeal.Read

/-! The reference's run and its stages, brought in for the modules that compare the two programs. -/
-- ==== Proof.lean ====
/- The kernel is a two-layer graph convolution followed by mean pooling: per layer a 64 × 64 matrix product, a
   normalised aggregation over the edges (with self loops), a bias and a clamp at zero; then the per-graph means of the
   node features. The kernel program does the matrix products, the bias and clamp, and the per-graph sums in four
   launches over twenty blocks of 5000 rows, with the reference's own host operations for the aggregation in between;
   the per-graph sums are a product with the 0/1 matrix "row r belongs to graph g", accumulated over the blocks.
   Over the extended reals the two programs agree stage by stage: a block of a matrix product is the product of the
   block (a change of float format being the identity), the bias and the clamp are pointwise, and the sum over all
   rows of (1 if the row's graph is g, else 0) times the row is the sum of the rows whose graph is g — a row whose id
   is no graph adds nothing on either side. No finiteness of the inputs is used. The frames follow from the run of
   the kernel program as ten segments (host stretches and launches), every argument array being written by none. -/
import proofs.«427723_j89670327206505_1_alg».proof.Defs
import proofs.«427723_j89670327206505_1_alg».proof.Proof.Gen.Kernel
import proofs.«427723_j89670327206505_1_alg».proof.Proof.Gen.KernelIdeal
import proofs.«427723_j89670327206505_1_alg».proof.Proof.Gen.ReferenceIdeal
import proofs.«427723_j89670327206505_1_alg».proof.Proof.Gen.Pre_finite_inputs
import proofs.«427723_j89670327206505_1_alg».proof.Proof.K.Keep
import proofs.«427723_j89670327206505_1_alg».proof.Proof.KI.Keep
import proofs.«427723_j89670327206505_1_alg».proof.Proof.Val.Final
import proofs.«427723_j89670327206505_1_alg».proof.Proof.RefSide
import Idealize.ShloMosaic.Adequacy
import Idealize.ShloMosaic.Init

noncomputable section

namespace Cert.Proof

open Idealize.ShloMosaic Idealize.ShloMosaic.TcCoe Idealize.SL.Sem

/-- The word-level kernel program runs to the end, faults nowhere, and leaves its arguments as launched. -/
theorem frame_k : Cert.frame_Kernel (hKernel := Cert.Kernel.Gen.facts) (hPre_finite_inputs := Cert.Pre_finite_inputs.Gen.facts) :=
  fun m ρ _ => Cert.Kernel.H.frame (F := Bits) m ρ

/-- So does the kernel program read over the extended reals. -/
theorem frame_ki : Cert.frame_KernelIdeal (hKernelIdeal := Cert.KernelIdeal.Gen.facts) (hPre_finite_inputs := Cert.Pre_finite_inputs.Gen.facts) :=
  fun m ρ _ => Cert.KernelIdeal.H.frame (F := Ideal) m ρ

/-- The reference is host operations only: its run, with the results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

open Cert.KernelIdeal.H Cert.KernelIdeal.HV in
/-- From memories that agree on the arguments both programs end with the same two results: the kernel program's are
    read off the fold of its run and are the reference's last stages of the arguments; the reference's run states
    its results as those stages. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => W10 m c (Proc.devRef .tc Cert.KernelIdeal.main_v65), fun c => W10 m c (Proc.devRef .tc Cert.KernelIdeal.main_v75), ?_, ?_⟩
  · refine (θ_run Cert.KernelIdeal.defs _ _).mono (fun r h c => ?_) (run_main (F := Ideal) m ρ)
    exact ⟨h c _ (mem_uc Cert.KernelIdeal.main_v65 (by decide)), h c _ (mem_uc Cert.KernelIdeal.main_v75 (by decide)),
      (h c _ (mem_uc Cert.KernelIdeal.main_arg0 (by decide))).trans (W10_arg0 m c), (h c _ (mem_uc Cert.KernelIdeal.main_arg1 (by decide))).trans (W10_arg1 m c),
      (h c _ (mem_uc Cert.KernelIdeal.main_arg2 (by decide))).trans (W10_arg2 m c), (h c _ (mem_uc Cert.KernelIdeal.main_arg3 (by decide))).trans (W10_arg3 m c),
      (h c _ (mem_uc Cert.KernelIdeal.main_arg4 (by decide))).trans (W10_arg4 m c), (h c _ (mem_uc Cert.KernelIdeal.main_arg5 (by decide))).trans (W10_arg5 m c),
      (h c _ (mem_uc Cert.KernelIdeal.main_arg6 (by decide))).trans (W10_arg6 m c), (h c _ (mem_uc Cert.KernelIdeal.main_arg7 (by decide))).trans (W10_arg7 m c)⟩
  · refine (θ_run Cert.ReferenceIdeal.defs _ _).mono (fun r h c => ⟨(h c).1.trans ?_, (h c).2.1.trans ?_, (h c).2.2⟩)
      (Cert.ReferenceIdeal.Value.run (F := Ideal) m' ρ')
    · rw [Cert.ReferenceIdeal.Read.val_main_v99_eq, (hagree c).1, (hagree c).2.1, (hagree c).2.2.1, (hagree c).2.2.2.1,
        (hagree c).2.2.2.2.1, (hagree c).2.2.2.2.2.1, (hagree c).2.2.2.2.2.2.1]
      exact (out_v65 m c).symm
    · rw [Cert.ReferenceIdeal.Read.val_main_v111_eq, (hagree c).1, (hagree c).2.1, (hagree c).2.2.1, (hagree c).2.2.2.1,
        (hagree c).2.2.2.2.1, (hagree c).2.2.2.2.2.1, (hagree c).2.2.2.2.2.2.1, (hagree c).2.2.2.2.2.2.2]
      exact (out_v75 m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
